-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v80)) (v2 : (c : Dev Cert.KernelIdeal.nD) → Buf (Elt Ideal) ((c.tc : Thread Cert.KernelIdeal.nD Cert.KernelIdeal.τ).loc Cert.KernelIdeal.main_v60_1)) (v3 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_v60_1) = v2 c
          ∧ r.2.mem ((c.tc : Thread Cert.KernelIdeal.nD Cert.KernelIdeal.τ).loc Cert.KernelIdeal.main_arg1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_arg1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S256x64 .f32) (main_arg9 : FVec F S64 .f32) (main_arg10 : FVec F S64x40 .f32) (main_arg11 : FVec F S40 .f32) (main_v33 : IVec S_ 1) : IVec S_ 1 :=
  let main_v34 : FVec F S256x64 .f32 := Host.absf main_arg8
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x40 .f32 := Host.absf main_arg10
  let main_cst_16 : FVec F S_ .f32 := constant S_ .f32 0x7F800000#32
  let main_v45 : FVec F S64x40 .f32 := broadcastInDim S64x40 ![] bcast_S_S64x40 main_cst_16
  let main_v46 : IVec S64x40 1 := cmpf .olt main_v44 main_v45
  let main_c_17 : IVec S_ 1 := constantI S_ 1 1#1
  let main_v47 : IVec S_ 1 := (fun x v => Host.reduce IntOp.andi x v reducesTo_S64x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S64 .f32) (main_arg6 : FVec F S128x256 .f32) (main_arg7 : FVec F S256 .f32) (main_arg8 : FVec F S256x64 .f32) (main_arg9 : FVec F S64 .f32) (main_arg10 : FVec F S64x40 .f32) (main_arg11 : FVec F S40 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) (main_arg6 : FVec F S128x256 .f32) (main_arg7 : FVec F S256 .f32) (main_arg8 : FVec F S256x64 .f32) (main_arg9 : FVec F S64 .f32) (main_arg10 : FVec F S64x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x256 : Shape := ⟨2, ![1, 256]⟩
abbrev S50000x64 : Shape := ⟨2, ![50000, 64]⟩
abbrev S10000x128 : Shape := ⟨2, ![10000, 128]⟩
abbrev S10000x64 : Shape := ⟨2, ![10000, 64]⟩
abbrev S10000x256 : Shape := ⟨2, ![10000, 256]⟩
abbrev S850000x64 : Shape := ⟨2, ![850000, 64]⟩
abbrev S1x64 : Shape := ⟨2, ![1, 64]⟩
abbrev S1x40 : Shape := ⟨2, ![1, 40]⟩
abbrev S50000x40 : Shape := ⟨2, ![50000, 40]⟩
abbrev S10000x40 : Shape := ⟨2, ![10000, 40]⟩
abbrev S800000x1 : Shape := ⟨2, ![800000, 1]⟩
abbrev S800000x64 : Shape := ⟨2, ![800000, 64]⟩
abbrev S16000x64 : Shape := ⟨2, ![16000, 64]⟩
abbrev S16000x128 : Shape := ⟨2, ![16000, 128]⟩
abbrev S16000x256 : Shape := ⟨2, ![16000, 256]⟩

abbrev nBuf : Space → Nat
  | .hbm => 114
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S128x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S64x40, .f32⟩
  | .hbm, ⟨11, _⟩ => ⟨S40, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x256, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S1x40, .f32⟩
  | .hbm, ⟨88, _⟩ => ⟨S50000x64, .f32⟩
  | .hbm, ⟨89, _⟩ => ⟨S50000x40, .f32⟩
  | .hbm, ⟨90, _⟩ => ⟨S50000x64, .bf16⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x64, .bf16⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x64, .bf16⟩
  | .hbm, ⟨109, _⟩ => ⟨S1x256, .f32⟩
  | .hbm, ⟨110, _⟩ => ⟨S1x64, .f32⟩
  | .hbm, ⟨111, _⟩ => ⟨S128x256, .bf16⟩
  | .hbm, ⟨112, _⟩ => ⟨S256x64, .bf16⟩
  | .hbm, ⟨113, _⟩ => ⟨S800000x64, .f32⟩
  | .local _ .vmem, ⟨0, _⟩ => ⟨S10000x128, .f32⟩
  | .local _ .vmem, ⟨1, _⟩ => ⟨S10000x128, .f32⟩
  | .local _ .vmem, ⟨2, _⟩ => ⟨S128x256, .f32⟩
  | .local _ .vmem, ⟨3, _⟩ => ⟨S1x256, .f32⟩
  | .local _ .vmem, ⟨4, _⟩ => ⟨S256x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S64x40, .f32⟩
  | .local _ .vmem, ⟨11, _⟩ => ⟨S1x40, .f32⟩
  | .local _ .vmem, ⟨12, _⟩ => ⟨S10000x64, .f32⟩
  | .local _ .vmem, ⟨13, _⟩ => ⟨S10000x64, .f32⟩
  | .local _ .vmem, ⟨14, _⟩ => ⟨S10000x40, .f32⟩
  | .local _ .vmem, ⟨15, _⟩ => ⟨S10000x40, .f32⟩
  | .local _ .vmem, ⟨16, _⟩ => ⟨S16000x64, .bf16⟩
  | .local _ .vmem, ⟨17, _⟩ => ⟨S16000x64, .bf16⟩
  | .local _ .vmem, ⟨18, _⟩ => ⟨S16000x64, .bf16⟩
  | .local _ .vmem, ⟨19, _⟩ => ⟨S16000x64, .bf16⟩
  | .local _ .vmem, ⟨20, _⟩ => ⟨S128x256, .bf16⟩
  | .local _ .vmem, ⟨21, _⟩ => ⟨S1x256, .f32⟩
  | .local _ .vmem, ⟨22, _⟩ => ⟨S256x64, .bf16⟩
  | .local _ .vmem, ⟨23, _⟩ => ⟨S1x64, .f32⟩
  | .local _ .vmem, ⟨24, _⟩ => ⟨S16000x64, .f32⟩
  | .local _ .vmem, ⟨25, _⟩ => ⟨S16000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60_0 : Ref sig .tc := ⟨.hbm, 88, rfl⟩
abbrev main_v60_1 : Ref sig .tc := ⟨.hbm, 89, rfl⟩
abbrev main_v61 : Ref sig .tc := ⟨.hbm, 90, rfl⟩
abbrev main_c_12 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_14 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S16000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S256_S1x256 : S256.ShapeCasts S1x256
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S40_S1x40 : S40.ShapeCasts S1x40
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  concatenates_S16000x64_S16000x64_S16000x128_d1 : Shape.Concatenates [S16000x64, S16000x64] S16000x128 1
  shapeCasts_S128x256_S128x256 : S128x256.ShapeCasts S128x256
  broadcasts_S1x256_S16000x256 : S1x256.Broadcasts S16000x256
  shapeCasts_S256x64_S256x64 : S256x64.ShapeCasts S256x64
  broadcasts_S1x64_S16000x64 : S1x64.Broadcasts S16000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x256_S10000x256_1_0_0_1_n_n_wf : DotDims.WF S10000x128 S128x256 S10000x256 [1] [0] [0] [1] [] []
  dot_S10000x256_S256x64_S10000x64_1_0_0_1_n_n_wf : DotDims.WF S10000x256 S256x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x40_S10000x40_1_0_0_1_n_n_wf : DotDims.WF S10000x64 S64x40 S10000x40 [1] [0] [0] [1] [] []
  gather_S50000x64_S800000x1_S800000x64_1_0_n_n_0_1_164_wf : GatherDims.WF S50000x64 S800000x1 S800000x64 [1] [0] [] [0] [] 1 ![1, 64]
  dot_S16000x128_S128x256_S16000x256_1_0_0_1_n_n_wf : DotDims.WF S16000x128 S128x256 S16000x256 [1] [0] [0] [1] [] []
  dot_S16000x256_S256x64_S16000x64_1_0_0_1_n_n_wf : DotDims.WF S16000x256 S256x64 S16000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S50000x64.size a
  hwx0_4 : ∀ i : grid0.Coords, EltTy.bits .f32 = 32 ∨ (Rect.block (s := S50000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x40.size a ≤ S50000x40.size a
  hwx1_5 : ∀ i : grid1.Coords, EltTy.bits .f32 = 32 ∨ (Rect.block (s := S50000x40) S10000x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S800000x64.size a
  hwx2_0 : ∀ i : grid2.Coords, EltTy.bits .bf16 = 32 ∨ (Rect.block (s := S800000x64) S16000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x64.size a ≤ S800000x64.size a
  hwx2_1 : ∀ i : grid2.Coords, EltTy.bits .bf16 = 32 ∨ (Rect.block (s := S800000x64) S16000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .bf16 = 32 ∨ (Rect.block (s := S128x256) S128x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x64.size a ≤ S256x64.size a
  hwx2_4 : ∀ i : grid2.Coords, EltTy.bits .bf16 = 32 ∨ (Rect.block (s := S256x64) S256x64.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S16000x64.size a ≤ S800000x64.size a
  hwx2_6 : ∀ i : grid2.Coords, EltTy.bits .f32 = 32 ∨ (Rect.block (s := S800000x64) S16000x64.size (cc2_transform_6 i) (hinb2_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x128_S128x256_S16000x256_1_0_0_1_n_n : DotDims S16000x128 S128x256 S16000x256 where
  lhsContracting := [1]
  rhsContracting := [0]
  lhsNonContracting := [0]
  rhsNonContracting := [1]
  lhsBatch := []
  rhsBatch := []
  wf := dot_S16000x128_S128x256_S16000x256_1_0_0_1_n_n_wf
def dot_S16000x256_S256x64_S16000x64_1_0_0_1_n_n : DotDims S16000x256 S256x64 S16000x64 where
  lhsContracting := [1]
  rhsContracting := [0]
  lhsNonContracting := [0]
  rhsNonContracting := [1]
  lhsBatch := []
  rhsBatch := []
  wf := dot_S16000x256_S256x64_S16000x64_1_0_0_1_n_n_wf

abbrev win0_0 : Pipeline.Window sig grid0 :=
  Pipeline.Window.ofSpec (Memref.whole main_v42) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v57) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60_0) S10000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v60_1) S10000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S16000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v78) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S256x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v80) S16000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S800000x1 : Shape := ⟨2, ![800000, 1]⟩
abbrev S800000x64 : Shape := ⟨2, ![800000, 64]⟩
abbrev S800000x128 : Shape := ⟨2, ![800000, 128]⟩
abbrev S800000x256 : Shape := ⟨2, ![800000, 256]⟩
abbrev S50000x40 : Shape := ⟨2, ![50000, 40]⟩
abbrev S1x40 : Shape := ⟨2, ![1, 40]⟩

abbrev nBuf : Space → Nat
  | .hbm => 165
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x64, .f32⟩
  | 5 => ⟨S64, .f32⟩
  | 6 => ⟨S128x256, .f32⟩
  | 7 => ⟨S256, .f32⟩
  | 8 => ⟨S256x64, .f32⟩
  | 9 => ⟨S64, .f32⟩
  | 10 => ⟨S64x40, .f32⟩
  | 11 => ⟨S40, .f32⟩
  | 12 => ⟨S1x800000, .i32⟩
  | 13 => ⟨S800000, .i32⟩
  | 14 => ⟨S1x800000, .i32⟩
  | 15 => ⟨S800000, .i32⟩
  | 16 => ⟨S50000x256, .f32⟩
  | 17 => ⟨S50000, .i32⟩
  | 18 => ⟨S850000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x256, .f32⟩
  | 62 => ⟨S850000x1, .f32⟩
  | 63 => ⟨S850000x256, .f32⟩
  | 64 => ⟨S850000x256, .f32⟩
  | 65 => ⟨S_, .f32⟩
  | 66 => ⟨S50000x256, .f32⟩
  | 67 => ⟨S850000x1, .i32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x64, .f32⟩
  | 76 => ⟨S50000, .i32⟩
  | 77 => ⟨S850000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x64, .f32⟩
  | 121 => ⟨S850000x1, .f32⟩
  | 122 => ⟨S850000x64, .f32⟩
  | 123 => ⟨S850000x64, .f32⟩
  | 124 => ⟨S_, .f32⟩
  | 125 => ⟨S50000x64, .f32⟩
  | 126 => ⟨S850000x1, .i32⟩
  | 127 => ⟨S50000x64, .f32⟩
  | _ => ⟨S50000x128, .f32⟩

abbrev hbmTy0_1 (i : Nat) : BufTy := match i % 128 with
  | 0 => ⟨S1x64, .f32⟩
  | 1 => ⟨S50000x64, .f32⟩
  | 2 => ⟨S50000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x64, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S800000x128, .f32⟩
  | 22 => ⟨S800000x256, .f32⟩
  | 23 => ⟨S1x256, .f32⟩
  | 24 => ⟨S800000x256, .f32⟩
  | 25 => ⟨S800000x256, .f32⟩
  | 26 => ⟨S_, .f32⟩
  | 27 => ⟨S800000x256, .f32⟩
  | 28 => ⟨S800000x256, .f32⟩
  | 29 => ⟨S800000x64, .f32⟩
  | 30 => ⟨S1x64, .f32⟩
  | 31 => ⟨S800000x64, .f32⟩
  | 32 => ⟨S800000x64, .f32⟩
  | 33 => ⟨S50000x40, .f32⟩
  | 34 => ⟨S1x40, .f32⟩
  | 35 => ⟨S50000x40, .f32⟩
  | 36 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v59 : Ref sig .tc := ⟨.hbm, 92, rfl⟩
abbrev main_c_13 : Ref sig .tc := ⟨.hbm, 93, rfl⟩
abbrev main_v60 : Ref sig .tc := ⟨.hbm, 94, rfl⟩
abbrev main_v61 : Ref sig .tc := ⟨.hbm, 95, rfl⟩
abbrev main_c_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_c_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_c_18 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_20 : Ref sig .tc := ⟨.hbm, 131, rfl⟩
abbrev main_v91 : Ref sig .tc := ⟨.hbm, 132, rfl⟩
abbrev main_v92 : Ref sig .tc := ⟨.hbm, 133, rfl⟩
abbrev main_c_21 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_22 : Ref sig .tc := ⟨.hbm, 140, rfl⟩
abbrev main_v98 : Ref sig .tc := ⟨.hbm, 141, rfl⟩
abbrev main_v99 : Ref sig .tc := ⟨.hbm, 142, rfl⟩
abbrev main_c_23 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_call3_cst : Ref sig .tc := ⟨.hbm, 154, rfl⟩
abbrev main_call3_v0 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S1x64_S800000x64_0_1 : S1x64.BroadcastsInDim S800000x64 (![0, 1] : Fin 2 → Fin S800000x64.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S800000x1_S800000x64_1_0_n_n_0_1_164_wf : GatherDims.WF S50000x64 S800000x1 S800000x64 [1] [0] [] [0] [] 1 ![1, 64]
  dot_S800000x128_S128x256_S800000x256_1_0_0_1_n_n_wf : DotDims.WF S800000x128 S128x256 S800000x256 [1] [0] [0] [1] [] []
  dot_S800000x256_S256x64_S800000x64_1_0_0_1_n_n_wf : DotDims.WF S800000x256 S256x64 S800000x64 [1] [0] [0] [1] [] []
  dot_S50000x64_S64x40_S50000x40_1_0_0_1_n_n_wf : DotDims.WF S50000x64 S64x40 S50000x40 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.RefFold.lean ====
/-
  The reference program's run, with its three results named as stages.

  @main is a straight line of 153 host operations; after the line every buffer holds the fold of the operations'
  results over the launch contents. The fold is walked in seven stretches, cut after each join of two tables (the
  edge lists followed by the nodes' own indices, twice; the two gathered feature tables side by side), so that a
  join's operands are the stretch's own first results or contents the stretch is entered with. Each stretch is read
  from ARBITRARY incoming contents that hold, at the buffers it reads, the stages written before it, and leaves
  the stages later stretches read; a buffer a stretch does not write keeps its contents. Chaining the seven gives
  the three results as their stages of the arguments, and the arguments unchanged.
-/
import proofs.«412903_j85804856639971_3_alg».proof.Proof.RefRead
import Idealize.ShloMosaic.Lib.StableHlo.Run
import Idealize.ShloMosaic.Lib.Pipeline.Frame

noncomputable section

namespace Cert.ReferenceIdeal.RefFold

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## The line's seven stretches (the operations of `ops`, in order) -/

/-- The first stretch: the edges' source and target lists cut out of the edge table, the first product, the nodes' own
    indices, and the two lists with those indices appended. -/
abbrev cA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    nullary main_v5 (iotaInDim S50000 32 0),
    binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The second stretch: the degrees and their inverse square roots, the edge weights, the first aggregation, the hidden
    layer's bias and relu, and its projection. -/
abbrev cB : List (HloOp τ sig (Elt F)) :=
  [ nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf (F := F) .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v6 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v6 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v4 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x256 ![0, 1] bcast_S850000x1_S850000x256_0_1 : (⟨S850000x1, .f32⟩ : BufTy).Contents (Elt F) → (⟨S850000x256, .f32⟩ : BufTy).Contents (Elt F)),
    binary main_v37 main_v39 main_v40 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v46) (TRef.of (T := ⟨S50000x256, .f32⟩) main_call1_v0) (TRef.of (T := ⟨S50000x256, .f32⟩) main_v47) maximumf,
    binary main_v47 main_arg4 main_v48 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)) ]

/-- The third stretch: the nodes' own indices again, appended to the two edge lists. -/
abbrev cC : List (HloOp τ sig (Elt F)) :=
  [ nullary main_v49 (iotaInDim S50000 32 0),
    binary main_v1 main_v49 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v49 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The fourth stretch: the degrees and the edge weights again, the second aggregation and its bias. -/
abbrev cD : List (HloOp τ sig (Elt F)) :=
  [ nullary main_cst_9 (constant S_ .f32 0x3F800000#32),
    unary main_cst_9 main_v52 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v53 (broadcastInDim S50000 ![] bcast_S_S50000 : (⟨S_, .f32⟩ : BufTy).Contents (Elt F) → (⟨S50000, .f32⟩ : BufTy).Contents (Elt F)),
    unary main_v51 main_v54 (broadcastInDim S850000x1 ![0] bcast_S850000_S850000x1_0 : (⟨S850000, .i32⟩ : BufTy).Contents (Elt F) → (⟨S850000x1, .i32⟩ : BufTy).Contents (Elt F)),
    ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    binary main_v55 main_v56 main_v57 (cmpf (F := F) .ogt : (⟨S50000, .f32⟩ : BufTy).Contents (Elt F) → (⟨S50000, .f32⟩ : BufTy).Contents (Elt F) → (⟨S50000, .i1⟩ : BufTy).Contents (Elt F)),
    unary main_v55 main_v58 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v57) (TRef.of (T := ⟨S50000, .f32⟩) main_v58) (TRef.of (T := ⟨S50000, .f32⟩) main_call2_v1) (TRef.of (T := ⟨S50000, .f32⟩) main_v59) select,
    nullary main_c_13 (constantI S_ 32 0#32),
    unary main_c_13 main_v60 (broadcastInDim S850000 ![] bcast_S_S850000 : (⟨S_, .i32⟩ : BufTy).Contents (Elt F) → (⟨S850000, .i32⟩ : BufTy).Contents (Elt F)),
    binary main_v50 main_v60 main_v61 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v62 (broadcastInDim S850000 ![] bcast_S_S850000 : (⟨S_, .i32⟩ : BufTy).Contents (Elt F) → (⟨S850000, .i32⟩ : BufTy).Contents (Elt F)),
    binary main_v50 main_v62 main_v63 (addi : (⟨S850000, .i32⟩ : BufTy).Contents (Elt F) → (⟨S850000, .i32⟩ : BufTy).Contents (Elt F) → (⟨S850000, .i32⟩ : BufTy).Contents (Elt F)),
    ternary main_v61 main_v63 main_v50 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v64 main_v65 (broadcastInDim S850000x1 ![0] bcast_S850000_S850000x1_0 : (⟨S850000, .i32⟩ : BufTy).Contents (Elt F) → (⟨S850000x1, .i32⟩ : BufTy).Contents (Elt F)),
    binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v67 (broadcastInDim S850000 ![] bcast_S_S850000 : (⟨S_, .i32⟩ : BufTy).Contents (Elt F) → (⟨S850000, .i32⟩ : BufTy).Contents (Elt F)),
    binary main_v51 main_v67 main_v68 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v69 (broadcastInDim S850000 ![] bcast_S_S850000 : (⟨S_, .i32⟩ : BufTy).Contents (Elt F) → (⟨S850000, .i32⟩ : BufTy).Contents (Elt F)),
    binary main_v51 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v51 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v66 main_v73 main_v74 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v50 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v50 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v50 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v48 main_v80 main_v81 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v74 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x64 ![0, 1] bcast_S850000x1_S850000x64_0_1 : (⟨S850000x1, .f32⟩ : BufTy).Contents (Elt F) → (⟨S850000x64, .f32⟩ : BufTy).Contents (Elt F)),
    binary main_v81 main_v83 main_v84 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v85 (broadcastInDim S50000x64 ![] bcast_S_S50000x64 : (⟨S_, .f32⟩ : BufTy).Contents (Elt F) → (⟨S50000x64, .f32⟩ : BufTy).Contents (Elt F)),
    unary main_v51 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)) ]

/-- The fifth stretch: the feature rows gathered at the edges' sources and at their targets. -/
abbrev cE : List (HloOp τ sig (Elt F)) :=
  [ nullary main_c_20 (constantI S_ 32 0#32),
    unary main_c_20 main_v91 (broadcastInDim S800000 ![] bcast_S_S800000 : (⟨S_, .i32⟩ : BufTy).Contents (Elt F) → (⟨S800000, .i32⟩ : BufTy).Contents (Elt F)),
    binary main_v1 main_v91 main_v92 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v93 (broadcastInDim S800000 ![] bcast_S_S800000 : (⟨S_, .i32⟩ : BufTy).Contents (Elt F) → (⟨S800000, .i32⟩ : BufTy).Contents (Elt F)),
    binary main_v1 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_v1 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v90 main_v96 main_v97 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_22 (constantI S_ 32 0#32),
    unary main_c_22 main_v98 (broadcastInDim S800000 ![] bcast_S_S800000 : (⟨S_, .i32⟩ : BufTy).Contents (Elt F) → (⟨S800000, .i32⟩ : BufTy).Contents (Elt F)),
    binary main_v3 main_v98 main_v99 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v100 (broadcastInDim S800000 ![] bcast_S_S800000 : (⟨S_, .i32⟩ : BufTy).Contents (Elt F) → (⟨S800000, .i32⟩ : BufTy).Contents (Elt F)),
    binary main_v3 main_v100 main_v101 (addi : (⟨S800000, .i32⟩ : BufTy).Contents (Elt F) → (⟨S800000, .i32⟩ : BufTy).Contents (Elt F) → (⟨S800000, .i32⟩ : BufTy).Contents (Elt F)),
    ternary main_v99 main_v101 main_v3 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v102 main_v103 (broadcastInDim S800000x1 ![0] bcast_S800000_S800000x1_0 : (⟨S800000, .i32⟩ : BufTy).Contents (Elt F) → (⟨S800000x1, .i32⟩ : BufTy).Contents (Elt F)),
    binary main_v90 main_v103 main_v104 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- The sixth stretch: the two gathered tables joined side by side. -/
abbrev cG : List (HloOp τ sig (Elt F)) :=
  [ binary main_v97 main_v104 main_v105 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) ]

/-- The last stretch: the edges' two dense layers, and the nodes' class scores. -/
abbrev cH : List (HloOp τ sig (Elt F)) :=
  [ binary main_v105 main_arg6 main_v106 ((fun l r => Host.dotGeneral dot_S800000x128_S128x256_S800000x256_1_0_0_1_n_n none l r) : (⟨S800000x128, .f32⟩ : BufTy).Contents (Elt F) → (⟨S128x256, .f32⟩ : BufTy).Contents (Elt F) → (⟨S800000x256, .f32⟩ : BufTy).Contents (Elt F)),
    unary main_arg7 main_v107 (broadcastInDim S1x256 ![1] bcast_S256_S1x256_1 : (⟨S256, .f32⟩ : BufTy).Contents (Elt F) → (⟨S1x256, .f32⟩ : BufTy).Contents (Elt F)),
    unary main_v107 main_v108 (broadcastInDim S800000x256 ![0, 1] bcast_S1x256_S800000x256_0_1 : (⟨S1x256, .f32⟩ : BufTy).Contents (Elt F) → (⟨S800000x256, .f32⟩ : BufTy).Contents (Elt F)),
    binary main_v106 main_v108 main_v109 (addf : (⟨S800000x256, .f32⟩ : BufTy).Contents (Elt F) → (⟨S800000x256, .f32⟩ : BufTy).Contents (Elt F) → (⟨S800000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S800000x256, .f32⟩) main_call3_v0) (broadcastInDim S800000x256 ![] bcast_S_S800000x256),
    TRef.binary (TRef.of (T := ⟨S800000x256, .f32⟩) main_v109) (TRef.of (T := ⟨S800000x256, .f32⟩) main_call3_v0) (TRef.of (T := ⟨S800000x256, .f32⟩) main_v110) maximumf,
    binary main_v110 main_arg8 main_v111 ((fun l r => Host.dotGeneral dot_S800000x256_S256x64_S800000x64_1_0_0_1_n_n none l r) : (⟨S800000x256, .f32⟩ : BufTy).Contents (Elt F) → (⟨S256x64, .f32⟩ : BufTy).Contents (Elt F) → (⟨S800000x64, .f32⟩ : BufTy).Contents (Elt F)),
    unary main_arg9 main_v112 (broadcastInDim S1x64 ![1] bcast_S64_S1x64_1 : (⟨S64, .f32⟩ : BufTy).Contents (Elt F) → (⟨S1x64, .f32⟩ : BufTy).Contents (Elt F)),
    unary main_v112 main_v113 (broadcastInDim S800000x64 ![0, 1] bcast_S1x64_S800000x64_0_1 : (⟨S1x64, .f32⟩ : BufTy).Contents (Elt F) → (⟨S800000x64, .f32⟩ : BufTy).Contents (Elt F)),
    binary main_v111 main_v113 main_v114 (addf : (⟨S800000x64, .f32⟩ : BufTy).Contents (Elt F) → (⟨S800000x64, .f32⟩ : BufTy).Contents (Elt F) → (⟨S800000x64, .f32⟩ : BufTy).Contents (Elt F)),
    binary main_v90 main_arg10 main_v115 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    unary main_arg11 main_v116 (broadcastInDim S1x40 ![1] bcast_S40_S1x40_1 : (⟨S40, .f32⟩ : BufTy).Contents (Elt F) → (⟨S1x40, .f32⟩ : BufTy).Contents (Elt F)),
    unary main_v116 main_v117 (broadcastInDim S50000x40 ![0, 1] bcast_S1x40_S50000x40_0_1 : (⟨S1x40, .f32⟩ : BufTy).Contents (Elt F) → (⟨S50000x40, .f32⟩ : BufTy).Contents (Elt F)),
    binary main_v115 main_v117 main_v118 (addf : (⟨S50000x40, .f32⟩ : BufTy).Contents (Elt F) → (⟨S50000x40, .f32⟩ : BufTy).Contents (Elt F) → (⟨S50000x40, .f32⟩ : BufTy).Contents (Elt F)) ]

/-- @main's line is the seven stretches in a row. -/
theorem ops_split : (ops : List (HloOp τ sig (Elt F))) = cA ++ (cB ++ (cC ++ (cD ++ (cE ++ (cG ++ cH))))) := rfl

variable (V : Valuation τ sig (Elt F))
variable (x0 : (⟨S50000x128, .f32⟩ : BufTy).Contents (Elt F)) (x1 : (⟨S2x800000, .i32⟩ : BufTy).Contents (Elt F))
  (x2 : (⟨S128x256, .f32⟩ : BufTy).Contents (Elt F)) (x3 : (⟨S256, .f32⟩ : BufTy).Contents (Elt F))
  (x4 : (⟨S256x64, .f32⟩ : BufTy).Contents (Elt F)) (x5 : (⟨S64, .f32⟩ : BufTy).Contents (Elt F))
  (x6 : (⟨S128x256, .f32⟩ : BufTy).Contents (Elt F)) (x7 : (⟨S256, .f32⟩ : BufTy).Contents (Elt F))
  (x8 : (⟨S256x64, .f32⟩ : BufTy).Contents (Elt F)) (x9 : (⟨S64, .f32⟩ : BufTy).Contents (Elt F))
  (x10 : (⟨S64x40, .f32⟩ : BufTy).Contents (Elt F)) (x11 : (⟨S40, .f32⟩ : BufTy).Contents (Elt F))

/-! ## What each stretch writes, and that it leaves the rest alone -/

/-- The buffers the first stretch's operations write. -/
abbrev cA_W : List (Ref sig .tc) := [main_v0, main_v1, main_v2, main_v3, main_v4, main_v5, main_v6, main_v7]
theorem cA_writes : (cA : List (HloOp τ sig (Elt F))).Forall fun op => op.writes ⊆ (cA_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))
/-- A buffer they do not write keeps its contents. -/
theorem cA_keep (r : Ref sig .tc) (h : r ∉ cA_W) : after cA V (Proc.devRef .tc r) = V (Proc.devRef .tc r) :=
  after_of_writes_sub cA V cA_writes h
/-- None of them allocates a buffer. -/
theorem cA_fresh : (cA : List (HloOp τ sig (Elt F))).Forall fun op => op.fresh = ∅ := by
  simp only [List.Forall]; repeat' constructor

/-- The buffers the second stretch's operations write. -/
abbrev cB_W : List (Ref sig .tc) := [main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_call1_cst, main_call1_v0, main_v47, main_v48]
theorem cB_writes : (cB : List (HloOp τ sig (Elt F))).Forall fun op => op.writes ⊆ (cB_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))
/-- A buffer they do not write keeps its contents. -/
theorem cB_keep (r : Ref sig .tc) (h : r ∉ cB_W) : after cB V (Proc.devRef .tc r) = V (Proc.devRef .tc r) :=
  after_of_writes_sub cB V cB_writes h
/-- None of them allocates a buffer. -/
theorem cB_fresh : (cB : List (HloOp τ sig (Elt F))).Forall fun op => op.fresh = ∅ := by
  simp only [List.Forall]; repeat' constructor

/-- The buffers the third stretch's operations write. -/
abbrev cC_W : List (Ref sig .tc) := [main_v49, main_v50, main_v51]
theorem cC_writes : (cC : List (HloOp τ sig (Elt F))).Forall fun op => op.writes ⊆ (cC_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))
/-- A buffer they do not write keeps its contents. -/
theorem cC_keep (r : Ref sig .tc) (h : r ∉ cC_W) : after cC V (Proc.devRef .tc r) = V (Proc.devRef .tc r) :=
  after_of_writes_sub cC V cC_writes h
/-- None of them allocates a buffer. -/
theorem cC_fresh : (cC : List (HloOp τ sig (Elt F))).Forall fun op => op.fresh = ∅ := by
  simp only [List.Forall]; repeat' constructor

/-- The buffers the fourth stretch's operations write. -/
abbrev cD_W : List (Ref sig .tc) := [main_cst_9, main_v52, main_cst_10, main_v53, main_v54, main_v55, main_cst_11, main_v56, main_v57, main_v58, main_cst_12, main_call2_v0, main_call2_v1, main_v59, main_c_13, main_v60, main_v61, main_c_14, main_v62, main_v63, main_v64, main_v65, main_v66, main_c_15, main_v67, main_v68, main_c_16, main_v69, main_v70, main_v71, main_v72, main_v73, main_v74, main_c_17, main_v75, main_v76, main_c_18, main_v77, main_v78, main_v79, main_v80, main_v81, main_v82, main_v83, main_v84, main_cst_19, main_v85, main_v86, main_v87, main_v88, main_v89, main_v90]
theorem cD_writes : (cD : List (HloOp τ sig (Elt F))).Forall fun op => op.writes ⊆ (cD_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))
/-- A buffer they do not write keeps its contents. -/
theorem cD_keep (r : Ref sig .tc) (h : r ∉ cD_W) : after cD V (Proc.devRef .tc r) = V (Proc.devRef .tc r) :=
  after_of_writes_sub cD V cD_writes h
/-- None of them allocates a buffer. -/
theorem cD_fresh : (cD : List (HloOp τ sig (Elt F))).Forall fun op => op.fresh = ∅ := by
  simp only [List.Forall]; repeat' constructor

/-- The buffers the fifth stretch's operations write. -/
abbrev cE_W : List (Ref sig .tc) := [main_c_20, main_v91, main_v92, main_c_21, main_v93, main_v94, main_v95, main_v96, main_v97, main_c_22, main_v98, main_v99, main_c_23, main_v100, main_v101, main_v102, main_v103, main_v104]
theorem cE_writes : (cE : List (HloOp τ sig (Elt F))).Forall fun op => op.writes ⊆ (cE_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))
/-- A buffer they do not write keeps its contents. -/
theorem cE_keep (r : Ref sig .tc) (h : r ∉ cE_W) : after cE V (Proc.devRef .tc r) = V (Proc.devRef .tc r) :=
  after_of_writes_sub cE V cE_writes h
/-- None of them allocates a buffer. -/
theorem cE_fresh : (cE : List (HloOp τ sig (Elt F))).Forall fun op => op.fresh = ∅ := by
  simp only [List.Forall]; repeat' constructor

/-- The buffers the sixth stretch's operations write. -/
abbrev cG_W : List (Ref sig .tc) := [main_v105]
theorem cG_writes : (cG : List (HloOp τ sig (Elt F))).Forall fun op => op.writes ⊆ (cG_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))
/-- A buffer they do not write keeps its contents. -/
theorem cG_keep (r : Ref sig .tc) (h : r ∉ cG_W) : after cG V (Proc.devRef .tc r) = V (Proc.devRef .tc r) :=
  after_of_writes_sub cG V cG_writes h
/-- None of them allocates a buffer. -/
theorem cG_fresh : (cG : List (HloOp τ sig (Elt F))).Forall fun op => op.fresh = ∅ := by
  simp only [List.Forall]; repeat' constructor

/-- The buffers the last stretch's operations write. -/
abbrev cH_W : List (Ref sig .tc) := [main_v106, main_v107, main_v108, main_v109, main_call3_cst, main_call3_v0, main_v110, main_v111, main_v112, main_v113, main_v114, main_v115, main_v116, main_v117, main_v118]
theorem cH_writes : (cH : List (HloOp τ sig (Elt F))).Forall fun op => op.writes ⊆ (cH_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))
/-- A buffer they do not write keeps its contents. -/
theorem cH_keep (r : Ref sig .tc) (h : r ∉ cH_W) : after cH V (Proc.devRef .tc r) = V (Proc.devRef .tc r) :=
  after_of_writes_sub cH V cH_writes h
/-- None of them allocates a buffer. -/
theorem cH_fresh : (cH : List (HloOp τ sig (Elt F))).Forall fun op => op.fresh = ∅ := by
  simp only [List.Forall]; repeat' constructor

/-! ## Each stretch from ANY incoming contents that hold the stages it reads -/

/-- The first stretch leaves the source list of the edges … -/
theorem cA_v1 (h1 : V (Proc.devRef .tc main_arg1) = x1) :
    after cA V (Proc.devRef .tc main_v1) = val_main_v1 (F := F) x1 := by
  after_results
  rw [h1]
  rfl
/-- … their target list … -/
theorem cA_v3 (h1 : V (Proc.devRef .tc main_arg1) = x1) :
    after cA V (Proc.devRef .tc main_v3) = val_main_v3 (F := F) x1 := by
  after_results
  rw [h1]
  rfl
/-- … the first product … -/
theorem cA_v4 (h0 : V (Proc.devRef .tc main_arg0) = x0) (h2 : V (Proc.devRef .tc main_arg2) = x2) :
    after cA V (Proc.devRef .tc main_v4) = val_main_v4 (F := F) x0 x2 := by
  after_results
  rw [h0, h2]
  rfl
/-- … and the two lists with every node's own index appended (the joins' operands are rewritten inside the joined list). -/
theorem cA_v6 (h1 : V (Proc.devRef .tc main_arg1) = x1) :
    after cA V (Proc.devRef .tc main_v6) = val_main_v6 (F := F) x1 := by
  after_results
  rw [h1]
  rfl
theorem cA_v7 (h1 : V (Proc.devRef .tc main_arg1) = x1) :
    after cA V (Proc.devRef .tc main_v7) = val_main_v7 (F := F) x1 := by
  after_results
  rw [h1]
  rfl

set_option maxRecDepth 8192 in
/-- The second stretch (the degree normalisation, the first aggregation, the hidden layer) leaves the projected rows. -/
theorem cB_v48 (h4 : V (Proc.devRef .tc main_v4) = val_main_v4 (F := F) x0 x2)
    (h6 : V (Proc.devRef .tc main_v6) = val_main_v6 (F := F) x1) (h7 : V (Proc.devRef .tc main_v7) = val_main_v7 (F := F) x1)
    (ha3 : V (Proc.devRef .tc main_arg3) = x3) (ha4 : V (Proc.devRef .tc main_arg4) = x4) :
    after cB V (Proc.devRef .tc main_v48) = val_main_v48 (F := F) x0 x1 x2 x3 x4 := by
  after_results_simp
  simp only [TRef.ofBuf, TRef.toBuf, cast_eq]
  rw [h4, h6, h7, ha3, ha4]
  rfl

/-- The third stretch joins the two edge lists with the nodes' own indices again. -/
theorem cC_v50 (h1 : V (Proc.devRef .tc main_v1) = val_main_v1 (F := F) x1) :
    after cC V (Proc.devRef .tc main_v50) = val_main_v50 (F := F) x1 := by
  after_results
  rw [h1]
  rfl
theorem cC_v51 (h3 : V (Proc.devRef .tc main_v3) = val_main_v3 (F := F) x1) :
    after cC V (Proc.devRef .tc main_v51) = val_main_v51 (F := F) x1 := by
  after_results
  rw [h3]
  rfl

set_option maxRecDepth 8192 in
/-- The fourth stretch (the normalisation again, the second aggregation, the bias) leaves the nodes' feature rows. -/
theorem cD_v90 (h48 : V (Proc.devRef .tc main_v48) = val_main_v48 (F := F) x0 x1 x2 x3 x4)
    (h50 : V (Proc.devRef .tc main_v50) = val_main_v50 (F := F) x1) (h51 : V (Proc.devRef .tc main_v51) = val_main_v51 (F := F) x1)
    (ha5 : V (Proc.devRef .tc main_arg5) = x5) :
    after cD V (Proc.devRef .tc main_v90) = val_main_v90 (F := F) x0 x1 x2 x3 x4 x5 := by
  after_results_simp
  simp only [TRef.ofBuf, TRef.toBuf, cast_eq]
  rw [h48, h50, h51, ha5]
  rfl

/-- The fifth stretch gathers the feature rows at the edges' sources … -/
theorem cE_v97 (h1 : V (Proc.devRef .tc main_v1) = val_main_v1 (F := F) x1)
    (h90 : V (Proc.devRef .tc main_v90) = val_main_v90 (F := F) x0 x1 x2 x3 x4 x5) :
    after cE V (Proc.devRef .tc main_v97) = val_main_v97 (F := F) x0 x1 x2 x3 x4 x5 := by
  after_results_simp
  rw [h1, h90]
  rfl
/-- … and at their targets. -/
theorem cE_v104 (h3 : V (Proc.devRef .tc main_v3) = val_main_v3 (F := F) x1)
    (h90 : V (Proc.devRef .tc main_v90) = val_main_v90 (F := F) x0 x1 x2 x3 x4 x5) :
    after cE V (Proc.devRef .tc main_v104) = val_main_v104 (F := F) x0 x1 x2 x3 x4 x5 := by
  after_results_simp
  rw [h3, h90]
  rfl

/-- The sixth stretch is the one join of the two gathered tables side by side. -/
theorem cG_v105 (h97 : V (Proc.devRef .tc main_v97) = val_main_v97 (F := F) x0 x1 x2 x3 x4 x5)
    (h104 : V (Proc.devRef .tc main_v104) = val_main_v104 (F := F) x0 x1 x2 x3 x4 x5) :
    after cG V (Proc.devRef .tc main_v105) = val_main_v105 (F := F) x0 x1 x2 x3 x4 x5 := by
  after_results
  rw [h97, h104]
  rfl

/-- The last stretch leaves the edges' output rows … -/
theorem cH_v114 (h105 : V (Proc.devRef .tc main_v105) = val_main_v105 (F := F) x0 x1 x2 x3 x4 x5)
    (ha6 : V (Proc.devRef .tc main_arg6) = x6) (ha7 : V (Proc.devRef .tc main_arg7) = x7)
    (ha8 : V (Proc.devRef .tc main_arg8) = x8) (ha9 : V (Proc.devRef .tc main_arg9) = x9) :
    after cH V (Proc.devRef .tc main_v114) = val_main_v114 (F := F) x0 x1 x2 x3 x4 x5 x6 x7 x8 x9 := by
  after_results_simp
  simp only [TRef.ofBuf, TRef.toBuf, cast_eq]
  rw [h105, ha6, ha7, ha8, ha9]
  rfl
/-- … and the nodes' class scores. -/
theorem cH_v118 (h90 : V (Proc.devRef .tc main_v90) = val_main_v90 (F := F) x0 x1 x2 x3 x4 x5)
    (ha10 : V (Proc.devRef .tc main_arg10) = x10) (ha11 : V (Proc.devRef .tc main_arg11) = x11) :
    after cH V (Proc.devRef .tc main_v118) = val_main_v118 (F := F) x0 x1 x2 x3 x4 x5 x10 x11 := by
  after_results_simp
  rw [h90, ha10, ha11]
  rfl

/-! ## The whole line -/

/-- A reference is none of a literal list of references: decided. -/
local macro "notin" : term => `(by decide)

/-- A buffer none of the first three stretches writes keeps its contents through them … -/
theorem keep3 (W : Valuation τ sig (Elt F)) (r : Ref sig .tc) (hA : r ∉ cA_W) (hB : r ∉ cB_W) (hC : r ∉ cC_W) :
    after cC (after cB (after cA W)) (Proc.devRef .tc r) = W (Proc.devRef .tc r) :=
  (cC_keep _ r hC).trans ((cB_keep _ r hB).trans (cA_keep W r hA))
/-- … through the first six … -/
theorem keep6 (W : Valuation τ sig (Elt F)) (r : Ref sig .tc) (hA : r ∉ cA_W) (hB : r ∉ cB_W) (hC : r ∉ cC_W)
    (hD : r ∉ cD_W) (hE : r ∉ cE_W) (hG : r ∉ cG_W) :
    after cG (after cE (after cD (after cC (after cB (after cA W))))) (Proc.devRef .tc r) = W (Proc.devRef .tc r) :=
  (cG_keep _ r hG).trans ((cE_keep _ r hE).trans ((cD_keep _ r hD).trans (keep3 W r hA hB hC)))
/-- … and through the whole line. -/
theorem keep7 (W : Valuation τ sig (Elt F)) (r : Ref sig .tc) (hA : r ∉ cA_W) (hB : r ∉ cB_W) (hC : r ∉ cC_W)
    (hD : r ∉ cD_W) (hE : r ∉ cE_W) (hG : r ∉ cG_W) (hH : r ∉ cH_W) :
    after ops W (Proc.devRef .tc r) = W (Proc.devRef .tc r) := by
  rw [ops_split]
  simp only [after_append]
  exact (cH_keep _ r hH).trans (keep6 W r hA hB hC hD hE hG)

/-- THE FOLD: from any contents W, the three results after the whole line are the stages at W's arguments, each
    stretch entered with the facts the stretches before it left. -/
theorem fold (W : Valuation τ sig (Elt F)) :
    after ops W (Proc.devRef .tc main_v90) = val_main_v90 (F := F) (W (Proc.devRef .tc main_arg0)) (W (Proc.devRef .tc main_arg1)) (W (Proc.devRef .tc main_arg2)) (W (Proc.devRef .tc main_arg3)) (W (Proc.devRef .tc main_arg4)) (W (Proc.devRef .tc main_arg5))
    ∧ after ops W (Proc.devRef .tc main_v114) = val_main_v114 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9))
    ∧ after ops W (Proc.devRef .tc main_v118) = val_main_v118 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg10)) (W (Proc.devRef .tc main_arg11)) := by
  rw [ops_split]
  simp only [after_append]
  have a1 := cA_v1 W _ rfl
  have a3 := cA_v3 W _ rfl
  have a4 := cA_v4 W _ _ rfl rfl
  have a6 := cA_v6 W _ rfl
  have a7 := cA_v7 W _ rfl
  have b48 := cB_v48 (after cA W) _ _ _ _ _ a4 a6 a7 (cA_keep W main_arg3 notin) (cA_keep W main_arg4 notin)
  have b1 := (cB_keep (after cA W) main_v1 notin).trans a1
  have b3 := (cB_keep (after cA W) main_v3 notin).trans a3
  have c50 := cC_v50 (after cB (after cA W)) _ b1
  have c51 := cC_v51 (after cB (after cA W)) _ b3
  have c48 := (cC_keep (after cB (after cA W)) main_v48 notin).trans b48
  have c1 := (cC_keep (after cB (after cA W)) main_v1 notin).trans b1
  have c3 := (cC_keep (after cB (after cA W)) main_v3 notin).trans b3
  have d90 := cD_v90 (after cC (after cB (after cA W))) _ _ _ _ _ _ c48 c50 c51 (keep3 W main_arg5 notin notin notin)
  have d1 := (cD_keep (after cC (after cB (after cA W))) main_v1 notin).trans c1
  have d3 := (cD_keep (after cC (after cB (after cA W))) main_v3 notin).trans c3
  have e97 := cE_v97 (after cD (after cC (after cB (after cA W)))) _ _ _ _ _ _ d1 d90
  have e104 := cE_v104 (after cD (after cC (after cB (after cA W)))) _ _ _ _ _ _ d3 d90
  have e90 := (cE_keep (after cD (after cC (after cB (after cA W)))) main_v90 notin).trans d90
  have g105 := cG_v105 (after cE (after cD (after cC (after cB (after cA W))))) _ _ _ _ _ _ e97 e104
  have g90 := (cG_keep (after cE (after cD (after cC (after cB (after cA W))))) main_v90 notin).trans e90
  exact ⟨(cH_keep _ main_v90 notin).trans g90,
    cH_v114 _ _ _ _ _ _ _ _ _ _ _ g105 (keep6 W main_arg6 notin notin notin notin notin notin)
      (keep6 W main_arg7 notin notin notin notin notin notin) (keep6 W main_arg8 notin notin notin notin notin notin)
      (keep6 W main_arg9 notin notin notin notin notin notin),
    cH_v118 _ _ _ _ _ _ _ _ _ g90 (keep6 W main_arg10 notin notin notin notin notin notin)
      (keep6 W main_arg11 notin notin notin notin notin notin)⟩

/-- No operation of the line allocates a buffer. -/
theorem ops_fresh : ∀ op ∈ (ops : List (HloOp τ sig (Elt F))), op.fresh = ∅ := by
  rw [ops_split]
  intro op h
  simp only [List.mem_append] at h
  rcases h with h | h | h | h | h | h | h
  · exact List.forall_iff_forall_mem.mp cA_fresh op h
  · exact List.forall_iff_forall_mem.mp cB_fresh op h
  · exact List.forall_iff_forall_mem.mp cC_fresh op h
  · exact List.forall_iff_forall_mem.mp cD_fresh op h
  · exact List.forall_iff_forall_mem.mp cE_fresh op h
  · exact List.forall_iff_forall_mem.mp cG_fresh op h
  · exact List.forall_iff_forall_mem.mp cH_fresh op h

/-- On every device, for any float values, from any memory with zero counters: every weakly fair execution of @main
    terminates with each result at its stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90) = val_main_v90 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v114) = val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c main_v90).trans (fold (launchContents m c)).1,
       (h c main_v114).trans (fold (launchContents m c)).2.1,
       (h c main_v118).trans (fold (launchContents m c)).2.2,
       (h c main_arg0).trans (keep7 (launchContents m c) main_arg0 notin notin notin notin notin notin notin),
       (h c main_arg1).trans (keep7 (launchContents m c) main_arg1 notin notin notin notin notin notin notin),
       (h c main_arg2).trans (keep7 (launchContents m c) main_arg2 notin notin notin notin notin notin notin),
       (h c main_arg3).trans (keep7 (launchContents m c) main_arg3 notin notin notin notin notin notin notin),
       (h c main_arg4).trans (keep7 (launchContents m c) main_arg4 notin notin notin notin notin notin notin),
       (h c main_arg5).trans (keep7 (launchContents m c) main_arg5 notin notin notin notin notin notin notin),
       (h c main_arg6).trans (keep7 (launchContents m c) main_arg6 notin notin notin notin notin notin notin),
       (h c main_arg7).trans (keep7 (launchContents m c) main_arg7 notin notin notin notin notin notin notin),
       (h c main_arg8).trans (keep7 (launchContents m c) main_arg8 notin notin notin notin notin notin notin),
       (h c main_arg9).trans (keep7 (launchContents m c) main_arg9 notin notin notin notin notin notin notin),
       (h c main_arg10).trans (keep7 (launchContents m c) main_arg10 notin notin notin notin notin notin notin),
       (h c main_arg11).trans (keep7 (launchContents m c) main_arg11 notin notin notin notin notin notin notin)⟩)
    (run_seq scopedRefs_eq scopedSems_eq defs main (fun _ => ops) main_eq (fun _ => ops_sub) m ρ (fun _ => ops_fresh))

end Cert.ReferenceIdeal.RefFold

end
-- ==== Proof.Finite.lean ====
/-
  Finiteness of the inputs, read back from the certificate's precondition.

  The precondition says that a printed predicate evaluates to the truth value 1: for every float argument a
  the comparison |a| < +∞ holds at every entry (an and-reduction of the elementwise comparison from the
  constant 1), and the per-argument results are joined by and.  Read backwards: the conjunction being 1
  makes every conjunct 1, an and-reduction over all axes being 1 makes every compared entry 1, and an
  extended real x with max x (-x) < ⊤ is neither ⊤ nor ⊥, hence the image of a real number.
  Only the first argument (the node features x) and the third (the weight table W1) are read here.
-/
import proofs.«412903_j85804856639971_3_alg».proof.Defs
import proofs.«412903_j85804856639971_3_alg».proof.Proof.Gen.Pre_finite_inputs
import Idealize.ShloMosaic.Lib.ReduceAll
import Idealize.ShloMosaic.Lib.ValueIdx
import Idealize.ShloMosaic.Lib.IdealHost

noncomputable section

namespace Cert.Finite

open Idealize.ShloMosaic Idealize.SL.Sem

/-- The rank-0 shape has exactly one index. -/
instance subsingleton_scalar_idx : Subsingleton Cert.Pre_finite_inputs.S_.Idx :=
  ⟨fun a b => funext fun d => d.elim0⟩

/-- The f32 pattern with all exponent bits set and a zero significand is +∞. -/
theorem ofBits_inf_f32 : Ideal.ofBits .f32 0x7F800000#32 = (⊤ : EReal) := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) :
    ∃ r : ℝ, x = (r : EReal) := by
  rw [ofBits_inf_f32] at h
  unfold Ideal.cmp at h
  induction x using EReal.rec with
  | bot => simp at h
  | coe r => exact ⟨r, rfl⟩
  | top => simp at h

/-- One argument's test: if the and-reduction over all axes of |a| < +∞ is 1, every entry of a is real. -/
theorem all_real_of_reduce {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, a i = (r : EReal) := by
  have hi := Host.reduce_andi_all _ _ hr hu ValueIdx.ix0 e i
  rw [ValueIdx.cmpf_apply, ValueIdx.broadcastInDim_scalar_apply] at hi
  exact real_of_abs_lt_inf (a i) hi

open Cert.Pre_finite_inputs in
/-- The printed predicate being all ones makes its first and its third argument real at every entry. -/
theorem fn_first_third_real [Cert.Pre_finite_inputs.Facts]
    (a0 : FVec Ideal S50000x128 .f32) (a1 : IVec S2x800000 32) (a2 : FVec Ideal S128x256 .f32)
    (a3 : FVec Ideal S256 .f32) (a4 : FVec Ideal S256x64 .f32) (a5 : FVec Ideal S64 .f32)
    (a6 : FVec Ideal S128x256 .f32) (a7 : FVec Ideal S256 .f32) (a8 : FVec Ideal S256x64 .f32)
    (a9 : FVec Ideal S64 .f32) (a10 : FVec Ideal S64x40 .f32) (a11 : FVec Ideal S40 .f32)
    (h : Cert.Pre_finite_inputs.fn (F := Ideal) a0 a1 a2 a3 a4 a5 a6 a7 a8 a9 a10 a11 = (fun _ => 1#1)) :
    (∀ i, ∃ r : ℝ, a0 i = (r : EReal)) ∧ (∀ i, ∃ r : ℝ, a2 i = (r : EReal)) := by
  have h0 := congrFun h ValueIdx.ix0
  dsimp only [Cert.Pre_finite_inputs.fn, Cert.Pre_finite_inputs.fn_part1, Cert.Pre_finite_inputs.fn_part2,
    Cert.Pre_finite_inputs.fn_part3, andi] at h0
  -- the ten joins by and, outermost first; the first two tests sit innermost on the left
  have h48 := (IntOp.andi_eq_one.1 h0).1
  have h43 := (IntOp.andi_eq_one.1 h48).1
  have h38 := (IntOp.andi_eq_one.1 h43).1
  have h33 := (IntOp.andi_eq_one.1 h38).1
  have h28 := (IntOp.andi_eq_one.1 h33).1
  have h23 := (IntOp.andi_eq_one.1 h28).1
  have h18 := (IntOp.andi_eq_one.1 h23).1
  have h13 := (IntOp.andi_eq_one.1 h18).1
  have h8 := (IntOp.andi_eq_one.1 h13).1
  obtain ⟨h3, h7⟩ := IntOp.andi_eq_one.1 h8
  exact ⟨all_real_of_reduce a0 _ _ _ h3, all_real_of_reduce a2 _ _ _ h7⟩

/-- Every entry of the node-feature table x is a real number. -/
theorem x_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S50000x128.Idx) :
    ∃ r : ℝ, (m ((c.tc : Thread Cert.KernelIdeal.nD Cert.KernelIdeal.τ).loc Cert.KernelIdeal.main_arg0) : Cert.KernelIdeal.S50000x128.Idx → EReal) i = (r : EReal) :=
  (fn_first_third_real _ _ _ _ _ _ _ _ _ _ _ _ (h c)).1 i

/-- Every entry of the weight table W1 is a real number. -/
theorem w1_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S128x256.Idx) :
    ∃ r : ℝ, (m ((c.tc : Thread Cert.KernelIdeal.nD Cert.KernelIdeal.τ).loc Cert.KernelIdeal.main_arg2) : Cert.KernelIdeal.S128x256.Idx → EReal) i = (r : EReal) :=
  (fn_first_third_real _ _ _ _ _ _ _ _ _ _ _ _ (h c)).2 i

end Cert.Finite

end
-- ==== Proof.Stages.lean ====
/-
  The aggregation stages both programs share, as functions of the edge list.

  With s the edges' sources followed by the nodes themselves, d the edges' targets followed by the nodes themselves
  (one self-loop a node) and ν the normalisation weight of an edge, aggregating a table X of node rows means: take
  row s(i) of X for every entry i of the lists, scale it by ν(i), and add it into row d(i) of a table of zeros. The
  kernel program aggregates the raw 128-wide features before its first dense stage (`aggX`); both programs
  aggregate the 64-wide projected table the same way (`agg64`), and both take rows of the feature table at the edges'
  sources and targets (`takeSrc`, `takeDst`). The index lists, the weights and the zero tables are the reference
  program's stages of those names.
-/
import proofs.«412903_j85804856639971_3_alg».proof.Proof.RefRead
import proofs.«412903_j85804856639971_3_alg».proof.KernelIdeal
import proofs.«412903_j85804856639971_3_alg».proof.Proof.Gen.KernelIdeal

noncomputable section

namespace Cert.Stages

open Cert.ReferenceIdeal Cert.ReferenceIdeal.ReadP Idealize.ShloMosaic Idealize.ShloMosaic.TcCoe

variable {F : FTy → Type} [FloatOps F]

/-- The raw features aggregated: rows of x at the wrapped sources, scaled by the edge weights, summed into the
    targets' rows of a 128-wide table of zeros. -/
def aggX (x : (⟨S50000x128, .f32⟩ : BufTy).Contents (Elt F)) (e : (⟨S2x800000, .i32⟩ : BufTy).Contents (Elt F)) :
    (⟨Cert.KernelIdeal.S50000x128, .f32⟩ : BufTy).Contents (Elt F) :=
  Host.scatterAdd Cert.KernelIdeal.scatter_S50000x128_S850000x1_S850000x128_1_0_0_1
    (broadcastInDim Cert.KernelIdeal.S50000x128 ![] Cert.KernelIdeal.Gen.bcast_S_S50000x128 (constant S_ .f32 0x00000000#32))
    (val_main_v42 (F := F) e)
    (mulf (Host.gather Cert.KernelIdeal.gather_S50000x128_S850000x1_S850000x128_1_0_n_n_0_1_1128 x (val_main_v36 (F := F) e))
      (broadcastInDim Cert.KernelIdeal.S850000x128 ![0, 1] Cert.KernelIdeal.Gen.bcast_S850000x1_S850000x128_0_1 (val_main_v38 (F := F) e)))

/-- A 64-wide table of node rows aggregated: rows of X at the wrapped sources, scaled by the edge weights, summed
    into the targets' rows of a table of zeros. -/
def agg64 (X : (⟨S50000x64, .f32⟩ : BufTy).Contents (Elt F)) (e : (⟨S2x800000, .i32⟩ : BufTy).Contents (Elt F)) :
    (⟨S50000x64, .f32⟩ : BufTy).Contents (Elt F) :=
  Host.scatterAdd scatter_S50000x64_S850000x1_S850000x64_1_0_0_1 (val_main_v85 (F := F)) (val_main_v86 (F := F) e)
    (mulf (Host.gather gather_S50000x64_S850000x1_S850000x64_1_0_n_n_0_1_164 X (val_main_v80 (F := F) e)) (val_main_v83 (F := F) e))

/-- The reference's second aggregate is `agg64` of its projected table. -/
theorem v87_eq (x0 : (⟨S50000x128, .f32⟩ : BufTy).Contents (Elt F)) (x1 : (⟨S2x800000, .i32⟩ : BufTy).Contents (Elt F))
    (x2 : (⟨S128x256, .f32⟩ : BufTy).Contents (Elt F)) (x3 : (⟨S256, .f32⟩ : BufTy).Contents (Elt F))
    (x4 : (⟨S256x64, .f32⟩ : BufTy).Contents (Elt F)) :
    val_main_v87 (F := F) x0 x1 x2 x3 x4 = agg64 (val_main_v48 (F := F) x0 x1 x2 x3 x4) x1 := rfl

/-- Rows of a 64-wide node table at the edges' wrapped sources. -/
def takeSrc {ε : EltTy} (X : (⟨S50000x64, ε⟩ : BufTy).Contents (Elt F)) (e : (⟨S2x800000, .i32⟩ : BufTy).Contents (Elt F)) :
    (⟨S800000x64, ε⟩ : BufTy).Contents (Elt F) :=
  Host.gather gather_S50000x64_S800000x1_S800000x64_1_0_n_n_0_1_164 X (val_main_v96 (F := F) e)

/-- Rows of a 64-wide node table at the edges' wrapped targets. -/
def takeDst {ε : EltTy} (X : (⟨S50000x64, ε⟩ : BufTy).Contents (Elt F)) (e : (⟨S2x800000, .i32⟩ : BufTy).Contents (Elt F)) :
    (⟨S800000x64, ε⟩ : BufTy).Contents (Elt F) :=
  Host.gather gather_S50000x64_S800000x1_S800000x64_1_0_n_n_0_1_164 X (val_main_v103 (F := F) e)

end Cert.Stages

end
-- ==== Proof.KernelFold.lean ====
/-
  The kernel program's buffer contents at the boundaries of its three regions, read back to the argument arrays.

  Between the launch and the first region the host computes the edge lists, the degrees and the edge weights and
  aggregates the raw features; between the regions it aggregates the projected table, and takes the feature rows at
  the edges' ends. First each stretch of host operations is read for an arbitrary incoming valuation V: what it leaves
  in a buffer is a stage (Stages.lean, or the reference's stage of the same operations) of what V holds in the buffers
  the stretch reads. Then the boundaries are walked in order, each stretch reading the one before it; a region's
  arrays are what its write-backs leave, every other buffer passes through a region unchanged.
-/
import proofs.«412903_j85804856639971_3_alg».proof.Proof.Gen.KernelIdeal.Frame
import proofs.«412903_j85804856639971_3_alg».proof.Proof.Stages
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.ReferenceIdeal.ReadP (val_main_v1 val_main_v3 val_main_v6 val_main_v7 val_main_v13 val_main_v14 val_main_cst_2 val_main_v15 val_main_v30)

variable {F : FTy → Type} [FloatOps F]

/-- The edge list as a value. -/
abbrev Edges (F : FTy → Type) : Type := (⟨Cert.ReferenceIdeal.S2x800000, .i32⟩ : BufTy).Contents (Elt F)

/-! ## The stretches, each for an arbitrary incoming valuation -/

section Stretches

variable (V : Valuation τ sig (Elt F))

/-! ### From the launch: sources, targets, the lists with the self-loops appended, the degree tests -/

theorem s0_v1 : after hostOps0 V (Proc.devRef .tc main_v1) = val_main_v1 (F := F) (V (Proc.devRef .tc main_arg1)) := by
  after_results
  rfl

theorem s0_v3 : after hostOps0 V (Proc.devRef .tc main_v3) = val_main_v3 (F := F) (V (Proc.devRef .tc main_arg1)) := by
  after_results
  rfl

theorem s0_v5 : after hostOps0 V (Proc.devRef .tc main_v5) = val_main_v6 (F := F) (V (Proc.devRef .tc main_arg1)) := by
  after_results
  rfl

theorem s0_v6 : after hostOps0 V (Proc.devRef .tc main_v6) = val_main_v7 (F := F) (V (Proc.devRef .tc main_arg1)) := by
  after_results
  rfl

theorem s0_v12 : after hostOps0 V (Proc.devRef .tc main_v12) = val_main_v13 (F := F) (V (Proc.devRef .tc main_arg1)) := by
  after_results
  rfl

theorem s0_v13 : after hostOps0 V (Proc.devRef .tc main_v13) = val_main_v14 (F := F) (V (Proc.devRef .tc main_arg1)) := by
  after_results
  rfl

theorem s0_cst2 : after hostOps0 V (Proc.devRef .tc main_cst_2) = val_main_cst_2 (F := F) := by
  after_results
  rfl

/-! ### The inverse square roots of the degrees, zero where the degree is not positive -/

theorem s1_v14 (e : Edges F) (h12 : V (Proc.devRef .tc main_v12) = val_main_v13 (F := F) e)
    (h13 : V (Proc.devRef .tc main_v13) = val_main_v14 (F := F) e) (hc : V (Proc.devRef .tc main_cst_2) = val_main_cst_2 (F := F)) :
    after hostOps0_1 V (Proc.devRef .tc main_v14) = val_main_v15 (F := F) e := by
  after_results_simp
  simp only [TRef.ofBuf, TRef.toBuf, cast_eq]
  rw [h12, h13, hc]
  rfl

theorem s1_v1 : after hostOps0_1 V (Proc.devRef .tc main_v1) = V (Proc.devRef .tc main_v1) := by after_results_simp
theorem s1_v3 : after hostOps0_1 V (Proc.devRef .tc main_v3) = V (Proc.devRef .tc main_v3) := by after_results_simp
theorem s1_v5 : after hostOps0_1 V (Proc.devRef .tc main_v5) = V (Proc.devRef .tc main_v5) := by after_results_simp
theorem s1_v6 : after hostOps0_1 V (Proc.devRef .tc main_v6) = V (Proc.devRef .tc main_v6) := by after_results_simp

/-! ### The edge weights and the aggregate of the raw features -/

theorem s2_v29 (e : Edges F) (h5 : V (Proc.devRef .tc main_v5) = val_main_v6 (F := F) e) (h6 : V (Proc.devRef .tc main_v6) = val_main_v7 (F := F) e)
    (h14 : V (Proc.devRef .tc main_v14) = val_main_v15 (F := F) e) :
    after hostOps0_2 V (Proc.devRef .tc main_v29) = val_main_v30 (F := F) e := by
  after_results_simp
  rw [h5, h6, h14]
  rfl

theorem s2_v42 (e : Edges F) (h5 : V (Proc.devRef .tc main_v5) = val_main_v6 (F := F) e) (h6 : V (Proc.devRef .tc main_v6) = val_main_v7 (F := F) e)
    (h14 : V (Proc.devRef .tc main_v14) = val_main_v15 (F := F) e) :
    after hostOps0_2 V (Proc.devRef .tc main_v42) = Cert.Stages.aggX (F := F) (V (Proc.devRef .tc main_arg0)) e := by
  after_results_simp
  rw [h5, h6, h14]
  rfl

theorem s2_v43 : after hostOps0_2 V (Proc.devRef .tc main_v43) = shapeCast S1x256 (V (Proc.devRef .tc main_arg3)) shapeCasts_S256_S1x256 := by
  after_results_simp <;> rfl

theorem s2_v1 : after hostOps0_2 V (Proc.devRef .tc main_v1) = V (Proc.devRef .tc main_v1) := by after_results_simp
theorem s2_v3 : after hostOps0_2 V (Proc.devRef .tc main_v3) = V (Proc.devRef .tc main_v3) := by after_results_simp
theorem s2_v5 : after hostOps0_2 V (Proc.devRef .tc main_v5) = V (Proc.devRef .tc main_v5) := by after_results_simp
theorem s2_v6 : after hostOps0_2 V (Proc.devRef .tc main_v6) = V (Proc.devRef .tc main_v6) := by after_results_simp

/-! ### Between the first two regions: the aggregate of the projected table, the bias rows -/

theorem s3_v57 (e : Edges F) (X : (⟨Cert.ReferenceIdeal.S50000x64, .f32⟩ : BufTy).Contents (Elt F))
    (h44 : V (Proc.devRef .tc main_v44) = X) (h5 : V (Proc.devRef .tc main_v5) = val_main_v6 (F := F) e)
    (h6 : V (Proc.devRef .tc main_v6) = val_main_v7 (F := F) e) (h29 : V (Proc.devRef .tc main_v29) = val_main_v30 (F := F) e) :
    after hostOps1 V (Proc.devRef .tc main_v57) = Cert.Stages.agg64 (F := F) X e := by
  after_results_simp
  rw [h44, h5, h6, h29]
  rfl

theorem s3_v58 : after hostOps1 V (Proc.devRef .tc main_v58) = shapeCast S1x64 (V (Proc.devRef .tc main_arg5)) shapeCasts_S64_S1x64 := by
  after_results_simp <;> rfl

theorem s3_v59 : after hostOps1 V (Proc.devRef .tc main_v59) = shapeCast S1x40 (V (Proc.devRef .tc main_arg11)) shapeCasts_S40_S1x40 := by
  after_results_simp <;> rfl

theorem s3_v1 : after hostOps1 V (Proc.devRef .tc main_v1) = V (Proc.devRef .tc main_v1) := by after_results_simp
theorem s3_v3 : after hostOps1 V (Proc.devRef .tc main_v3) = V (Proc.devRef .tc main_v3) := by after_results_simp

/-! ### Before the last region: the feature rows at the edges' ends, the weights at the narrow format -/

theorem s4_v68 (e : Edges F) (f : (⟨Cert.ReferenceIdeal.S50000x64, .f32⟩ : BufTy).Contents (Elt F))
    (hf : V (Proc.devRef .tc main_v60_0) = f) (h1 : V (Proc.devRef .tc main_v1) = val_main_v1 (F := F) e) :
    after hostOps2 V (Proc.devRef .tc main_v68) = Cert.Stages.takeSrc (F := F) (truncf .bf16 f bitsLt_bf16_f32) e := by
  after_results_simp
  rw [hf, h1]
  rfl

theorem s4_v75 (e : Edges F) (f : (⟨Cert.ReferenceIdeal.S50000x64, .f32⟩ : BufTy).Contents (Elt F))
    (hf : V (Proc.devRef .tc main_v60_0) = f) (h3 : V (Proc.devRef .tc main_v3) = val_main_v3 (F := F) e) :
    after hostOps2 V (Proc.devRef .tc main_v75) = Cert.Stages.takeDst (F := F) (truncf .bf16 f bitsLt_bf16_f32) e := by
  after_results_simp
  rw [hf, h3]
  rfl

theorem s4_v76 : after hostOps2 V (Proc.devRef .tc main_v76) = shapeCast S1x256 (V (Proc.devRef .tc main_arg7)) shapeCasts_S256_S1x256 := by
  after_results_simp <;> rfl

theorem s4_v77 : after hostOps2 V (Proc.devRef .tc main_v77) = shapeCast S1x64 (V (Proc.devRef .tc main_arg9)) shapeCasts_S64_S1x64 := by
  after_results_simp <;> rfl

theorem s4_v78 : after hostOps2 V (Proc.devRef .tc main_v78) = truncf .bf16 (V (Proc.devRef .tc main_arg6)) bitsLt_bf16_f32 := by
  after_results_simp <;> rfl

theorem s4_v79 : after hostOps2 V (Proc.devRef .tc main_v79) = truncf .bf16 (V (Proc.devRef .tc main_arg8)) bitsLt_bf16_f32 := by
  after_results_simp <;> rfl

theorem s4_v60_0 : after hostOps2 V (Proc.devRef .tc main_v60_0) = V (Proc.devRef .tc main_v60_0) := by after_results_simp
theorem s4_v60_1 : after hostOps2 V (Proc.devRef .tc main_v60_1) = V (Proc.devRef .tc main_v60_1) := by after_results_simp

end Stretches

/-! ## The boundaries, in order -/

section Walk

variable (m : (ℓ : Loc nD τ sig) → Buf (Elt F) ℓ) (ρ : Dev nD → PrngReg)

/-! ### At the first region's entry -/

theorem W2_v5 (c : Dev nD) : W2 m ρ c (Proc.devRef .tc main_v5) = val_main_v6 (F := F) (m ((c : Thread nD τ).loc main_arg1)) :=
  (s1_v5 (W1 m ρ c)).trans (s0_v5 (W0 m ρ c))

theorem W2_v6 (c : Dev nD) : W2 m ρ c (Proc.devRef .tc main_v6) = val_main_v7 (F := F) (m ((c : Thread nD τ).loc main_arg1)) :=
  (s1_v6 (W1 m ρ c)).trans (s0_v6 (W0 m ρ c))

theorem W2_v14 (c : Dev nD) : W2 m ρ c (Proc.devRef .tc main_v14) = val_main_v15 (F := F) (m ((c : Thread nD τ).loc main_arg1)) :=
  s1_v14 (W1 m ρ c) _ (s0_v12 (W0 m ρ c)) (s0_v13 (W0 m ρ c)) (s0_cst2 (W0 m ρ c))

theorem W2_arg0 (c : Dev nD) : W2 m ρ c (Proc.devRef .tc main_arg0) = (m ((c : Thread nD τ).loc main_arg0)) := by
  show after hostOps0_1 (after hostOps0 (W0 m ρ c)) (Proc.devRef .tc main_arg0) = _
  after_results_simp <;> rfl

theorem W3_v1 (c : Dev nD) : W3 m ρ c (Proc.devRef .tc main_v1) = val_main_v1 (F := F) (m ((c : Thread nD τ).loc main_arg1)) :=
  (s2_v1 (W2 m ρ c)).trans ((s1_v1 (W1 m ρ c)).trans (s0_v1 (W0 m ρ c)))

theorem W3_v3 (c : Dev nD) : W3 m ρ c (Proc.devRef .tc main_v3) = val_main_v3 (F := F) (m ((c : Thread nD τ).loc main_arg1)) :=
  (s2_v3 (W2 m ρ c)).trans ((s1_v3 (W1 m ρ c)).trans (s0_v3 (W0 m ρ c)))

theorem W3_v5 (c : Dev nD) : W3 m ρ c (Proc.devRef .tc main_v5) = val_main_v6 (F := F) (m ((c : Thread nD τ).loc main_arg1)) :=
  (s2_v5 (W2 m ρ c)).trans (W2_v5 m ρ c)

theorem W3_v6 (c : Dev nD) : W3 m ρ c (Proc.devRef .tc main_v6) = val_main_v7 (F := F) (m ((c : Thread nD τ).loc main_arg1)) :=
  (s2_v6 (W2 m ρ c)).trans (W2_v6 m ρ c)

theorem W3_v29 (c : Dev nD) : W3 m ρ c (Proc.devRef .tc main_v29) = val_main_v30 (F := F) (m ((c : Thread nD τ).loc main_arg1)) :=
  s2_v29 (W2 m ρ c) _ (W2_v5 m ρ c) (W2_v6 m ρ c) (W2_v14 m ρ c)

/-- The first region's row-block input: the raw features aggregated. -/
theorem W3_v42 (c : Dev nD) : W3 m ρ c (Proc.devRef .tc main_v42) = Cert.Stages.aggX (F := F) (m ((c : Thread nD τ).loc main_arg0)) (m ((c : Thread nD τ).loc main_arg1)) :=
  (s2_v42 (W2 m ρ c) _ (W2_v5 m ρ c) (W2_v6 m ρ c) (W2_v14 m ρ c)).trans (congrArg (fun x => Cert.Stages.aggX (F := F) x (m ((c : Thread nD τ).loc main_arg1))) (W2_arg0 m ρ c))

theorem W3_arg2 (c : Dev nD) : W3 m ρ c (Proc.devRef .tc main_arg2) = (m ((c : Thread nD τ).loc main_arg2)) := by
  show after hostOps0_2 (after hostOps0_1 (after hostOps0 (W0 m ρ c))) (Proc.devRef .tc main_arg2) = _
  after_results_simp <;> rfl

theorem W3_arg3 (c : Dev nD) : W3 m ρ c (Proc.devRef .tc main_arg3) = (m ((c : Thread nD τ).loc main_arg3)) := by
  show after hostOps0_2 (after hostOps0_1 (after hostOps0 (W0 m ρ c))) (Proc.devRef .tc main_arg3) = _
  after_results_simp <;> rfl

theorem W3_arg4 (c : Dev nD) : W3 m ρ c (Proc.devRef .tc main_arg4) = (m ((c : Thread nD τ).loc main_arg4)) := by
  show after hostOps0_2 (after hostOps0_1 (after hostOps0 (W0 m ρ c))) (Proc.devRef .tc main_arg4) = _
  after_results_simp <;> rfl

theorem W3_arg5 (c : Dev nD) : W3 m ρ c (Proc.devRef .tc main_arg5) = (m ((c : Thread nD τ).loc main_arg5)) := by
  show after hostOps0_2 (after hostOps0_1 (after hostOps0 (W0 m ρ c))) (Proc.devRef .tc main_arg5) = _
  after_results_simp <;> rfl

theorem W3_arg6 (c : Dev nD) : W3 m ρ c (Proc.devRef .tc main_arg6) = (m ((c : Thread nD τ).loc main_arg6)) := by
  show after hostOps0_2 (after hostOps0_1 (after hostOps0 (W0 m ρ c))) (Proc.devRef .tc main_arg6) = _
  after_results_simp <;> rfl

theorem W3_arg7 (c : Dev nD) : W3 m ρ c (Proc.devRef .tc main_arg7) = (m ((c : Thread nD τ).loc main_arg7)) := by
  show after hostOps0_2 (after hostOps0_1 (after hostOps0 (W0 m ρ c))) (Proc.devRef .tc main_arg7) = _
  after_results_simp <;> rfl

theorem W3_arg8 (c : Dev nD) : W3 m ρ c (Proc.devRef .tc main_arg8) = (m ((c : Thread nD τ).loc main_arg8)) := by
  show after hostOps0_2 (after hostOps0_1 (after hostOps0 (W0 m ρ c))) (Proc.devRef .tc main_arg8) = _
  after_results_simp <;> rfl

theorem W3_arg9 (c : Dev nD) : W3 m ρ c (Proc.devRef .tc main_arg9) = (m ((c : Thread nD τ).loc main_arg9)) := by
  show after hostOps0_2 (after hostOps0_1 (after hostOps0 (W0 m ρ c))) (Proc.devRef .tc main_arg9) = _
  after_results_simp <;> rfl

theorem W3_arg10 (c : Dev nD) : W3 m ρ c (Proc.devRef .tc main_arg10) = (m ((c : Thread nD τ).loc main_arg10)) := by
  show after hostOps0_2 (after hostOps0_1 (after hostOps0 (W0 m ρ c))) (Proc.devRef .tc main_arg10) = _
  after_results_simp <;> rfl

theorem W3_arg11 (c : Dev nD) : W3 m ρ c (Proc.devRef .tc main_arg11) = (m ((c : Thread nD τ).loc main_arg11)) := by
  show after hostOps0_2 (after hostOps0_1 (after hostOps0 (W0 m ρ c))) (Proc.devRef .tc main_arg11) = _
  after_results_simp <;> rfl

/-- The first region's bias row: b₁ as a one-row table. -/
theorem W3_v43 (c : Dev nD) : W3 m ρ c (Proc.devRef .tc main_v43) = shapeCast S1x256 (m ((c : Thread nD τ).loc main_arg3)) shapeCasts_S256_S1x256 := by
  show after hostOps0_2 (after hostOps0_1 (after hostOps0 (W0 m ρ c))) (Proc.devRef .tc main_v43) = _
  after_results_simp <;> rfl

/-! ### At the second region's entry -/

/-- The first region's output array is what its write-backs leave. -/
theorem W4_v44 (c : Dev nD) : W4 m ρ c (Proc.devRef .tc main_v44) = (dat0 (V3 m ρ) c).arrAt 4 cfg0.N := W4_arr m ρ c 4

/-- The second region's row-block input: the first region's output aggregated. -/
theorem W5_v57 (c : Dev nD) :
    W5 m ρ c (Proc.devRef .tc main_v57) = Cert.Stages.agg64 (F := F) ((dat0 (V3 m ρ) c).arrAt 4 cfg0.N) (m ((c : Thread nD τ).loc main_arg1)) :=
  s3_v57 (W4 m ρ c) _ _ (W4_v44 m ρ c) ((W4_of_ne m ρ c main_v5 (by decide)).trans (W3_v5 m ρ c))
    ((W4_of_ne m ρ c main_v6 (by decide)).trans (W3_v6 m ρ c)) ((W4_of_ne m ρ c main_v29 (by decide)).trans (W3_v29 m ρ c))

theorem W5_v58 (c : Dev nD) : W5 m ρ c (Proc.devRef .tc main_v58) = shapeCast S1x64 (m ((c : Thread nD τ).loc main_arg5)) shapeCasts_S64_S1x64 :=
  (s3_v58 (W4 m ρ c)).trans (congrArg (fun x => shapeCast S1x64 x shapeCasts_S64_S1x64) ((W4_of_ne m ρ c main_arg5 (by decide)).trans (W3_arg5 m ρ c)))

theorem W5_v59 (c : Dev nD) : W5 m ρ c (Proc.devRef .tc main_v59) = shapeCast S1x40 (m ((c : Thread nD τ).loc main_arg11)) shapeCasts_S40_S1x40 :=
  (s3_v59 (W4 m ρ c)).trans (congrArg (fun x => shapeCast S1x40 x shapeCasts_S40_S1x40) ((W4_of_ne m ρ c main_arg11 (by decide)).trans (W3_arg11 m ρ c)))

theorem W5_v1 (c : Dev nD) : W5 m ρ c (Proc.devRef .tc main_v1) = val_main_v1 (F := F) (m ((c : Thread nD τ).loc main_arg1)) :=
  (s3_v1 (W4 m ρ c)).trans ((W4_of_ne m ρ c main_v1 (by decide)).trans (W3_v1 m ρ c))

theorem W5_v3 (c : Dev nD) : W5 m ρ c (Proc.devRef .tc main_v3) = val_main_v3 (F := F) (m ((c : Thread nD τ).loc main_arg1)) :=
  (s3_v3 (W4 m ρ c)).trans ((W4_of_ne m ρ c main_v3 (by decide)).trans (W3_v3 m ρ c))

theorem W5_arg6 (c : Dev nD) : W5 m ρ c (Proc.devRef .tc main_arg6) = (m ((c : Thread nD τ).loc main_arg6)) := by
  show after hostOps1 (W4 m ρ c) (Proc.devRef .tc main_arg6) = _
  after_results_simp
  rw [W4_of_ne m ρ c main_arg6 (by decide)]
  exact W3_arg6 m ρ c

theorem W5_arg7 (c : Dev nD) : W5 m ρ c (Proc.devRef .tc main_arg7) = (m ((c : Thread nD τ).loc main_arg7)) := by
  show after hostOps1 (W4 m ρ c) (Proc.devRef .tc main_arg7) = _
  after_results_simp
  rw [W4_of_ne m ρ c main_arg7 (by decide)]
  exact W3_arg7 m ρ c

theorem W5_arg8 (c : Dev nD) : W5 m ρ c (Proc.devRef .tc main_arg8) = (m ((c : Thread nD τ).loc main_arg8)) := by
  show after hostOps1 (W4 m ρ c) (Proc.devRef .tc main_arg8) = _
  after_results_simp
  rw [W4_of_ne m ρ c main_arg8 (by decide)]
  exact W3_arg8 m ρ c

theorem W5_arg9 (c : Dev nD) : W5 m ρ c (Proc.devRef .tc main_arg9) = (m ((c : Thread nD τ).loc main_arg9)) := by
  show after hostOps1 (W4 m ρ c) (Proc.devRef .tc main_arg9) = _
  after_results_simp
  rw [W4_of_ne m ρ c main_arg9 (by decide)]
  exact W3_arg9 m ρ c

theorem W5_arg10 (c : Dev nD) : W5 m ρ c (Proc.devRef .tc main_arg10) = (m ((c : Thread nD τ).loc main_arg10)) := by
  show after hostOps1 (W4 m ρ c) (Proc.devRef .tc main_arg10) = _
  after_results_simp
  rw [W4_of_ne m ρ c main_arg10 (by decide)]
  exact W3_arg10 m ρ c

/-! ### At the last region's entry -/

/-- The second region's two output arrays are what its write-backs leave. -/
theorem W6_v60_0 (c : Dev nD) : W6 m ρ c (Proc.devRef .tc main_v60_0) = (dat1 (V5 m ρ) c).arrAt 4 cfg1.N := W6_arr m ρ c 4
theorem W6_v60_1 (c : Dev nD) : W6 m ρ c (Proc.devRef .tc main_v60_1) = (dat1 (V5 m ρ) c).arrAt 5 cfg1.N := W6_arr m ρ c 5

/-- The last region's first input: the feature rows at the edges' sources. -/
theorem W7_v68 (c : Dev nD) : W7 m ρ c (Proc.devRef .tc main_v68)
    = Cert.Stages.takeSrc (F := F) (truncf .bf16 ((dat1 (V5 m ρ) c).arrAt 4 cfg1.N) bitsLt_bf16_f32) (m ((c : Thread nD τ).loc main_arg1)) :=
  s4_v68 (W6 m ρ c) _ _ (W6_v60_0 m ρ c) ((W6_of_ne m ρ c main_v1 (by decide)).trans (W5_v1 m ρ c))

/-- The last region's second input: the feature rows at the edges' targets. -/
theorem W7_v75 (c : Dev nD) : W7 m ρ c (Proc.devRef .tc main_v75)
    = Cert.Stages.takeDst (F := F) (truncf .bf16 ((dat1 (V5 m ρ) c).arrAt 4 cfg1.N) bitsLt_bf16_f32) (m ((c : Thread nD τ).loc main_arg1)) :=
  s4_v75 (W6 m ρ c) _ _ (W6_v60_0 m ρ c) ((W6_of_ne m ρ c main_v3 (by decide)).trans (W5_v3 m ρ c))

theorem W7_v76 (c : Dev nD) : W7 m ρ c (Proc.devRef .tc main_v76) = shapeCast S1x256 (m ((c : Thread nD τ).loc main_arg7)) shapeCasts_S256_S1x256 :=
  (s4_v76 (W6 m ρ c)).trans (congrArg (fun x => shapeCast S1x256 x shapeCasts_S256_S1x256) ((W6_of_ne m ρ c main_arg7 (by decide)).trans (W5_arg7 m ρ c)))

theorem W7_v77 (c : Dev nD) : W7 m ρ c (Proc.devRef .tc main_v77) = shapeCast S1x64 (m ((c : Thread nD τ).loc main_arg9)) shapeCasts_S64_S1x64 :=
  (s4_v77 (W6 m ρ c)).trans (congrArg (fun x => shapeCast S1x64 x shapeCasts_S64_S1x64) ((W6_of_ne m ρ c main_arg9 (by decide)).trans (W5_arg9 m ρ c)))

theorem W7_v78 (c : Dev nD) : W7 m ρ c (Proc.devRef .tc main_v78) = truncf .bf16 (m ((c : Thread nD τ).loc main_arg6)) bitsLt_bf16_f32 :=
  (s4_v78 (W6 m ρ c)).trans (congrArg (fun x => truncf .bf16 x bitsLt_bf16_f32) ((W6_of_ne m ρ c main_arg6 (by decide)).trans (W5_arg6 m ρ c)))

theorem W7_v79 (c : Dev nD) : W7 m ρ c (Proc.devRef .tc main_v79) = truncf .bf16 (m ((c : Thread nD τ).loc main_arg8)) bitsLt_bf16_f32 :=
  (s4_v79 (W6 m ρ c)).trans (congrArg (fun x => truncf .bf16 x bitsLt_bf16_f32) ((W6_of_ne m ρ c main_arg8 (by decide)).trans (W5_arg8 m ρ c)))

/-! ### At the return -/

/-- The feature table returned is the second region's first output array. -/
theorem W8_v60_0 (c : Dev nD) : W8 m ρ c (Proc.devRef .tc main_v60_0) = (dat1 (V5 m ρ) c).arrAt 4 cfg1.N :=
  (W8_of_ne m ρ c main_v60_0 (by decide)).trans ((s4_v60_0 (W6 m ρ c)).trans (W6_v60_0 m ρ c))

/-- The class scores returned are the second region's second output array. -/
theorem W8_v60_1 (c : Dev nD) : W8 m ρ c (Proc.devRef .tc main_v60_1) = (dat1 (V5 m ρ) c).arrAt 5 cfg1.N :=
  (W8_of_ne m ρ c main_v60_1 (by decide)).trans ((s4_v60_1 (W6 m ρ c)).trans (W6_v60_1 m ρ c))

/-- The edge rows returned are the last region's output array. -/
theorem W8_v80 (c : Dev nD) : W8 m ρ c (Proc.devRef .tc main_v80) = (dat2 (V7 m ρ) c).arrAt 6 cfg2.N := W8_arr m ρ c 6

end Walk

end Cert.KernelIdeal.Fold

end
-- ==== Proof.Spec.lean ====
/-
  The dense stages of the graph encoder, entry by entry, over the extended reals.

  Every table is a function of a two-coordinate index. A node's hidden row is relu(a · W₁ + b₁), its projected row that
  hidden row times W₂ (`dense2`); a node's feature row is its aggregated row plus the bias b₂ (`biased`), and its class
  scores are the feature row times W_c plus b_c (`scores`). An edge's input row is its source's feature row followed by its
  target's (`pair`), its hidden row relu(pair · Wp₁ + bp₁) and its output row that hidden row times Wp₂ plus bp₂
  (`edgeOut`). The zero of each relu is the single-precision word 0x00000000 read at the ideal values.
-/
import Idealize.ShloMosaic.PureOps.Ideal
import Idealize.ShloMosaic.Lib.ValueIdx

noncomputable section

open scoped BigOperators

namespace Cert.Spec

open Idealize.ShloMosaic Idealize.ShloMosaic.ValueIdx

/-- An n × w table of extended reals. -/
abbrev Tab (n w : Nat) := (⟨2, ![n, w]⟩ : Shape).Idx → EReal

/-- The single-precision zero word at the ideal values. -/
abbrev z32 : EReal := Ideal.ofBits .f32 0x00000000#32

variable {n : Nat}

/-- Entry h of row r of relu(a · W₁ + b₁). -/
def hid (a : Tab n 128) (w1 : Tab 128 256) (b1 : Tab 1 256) (r : Fin n) (h : Fin 256) : EReal :=
  max ((∑ k : Fin 128, a (ix2 r k) * w1 (ix2 k h)) + b1 (ix2 0 h)) z32

/-- Entry j of row r of relu(a · W₁ + b₁) · W₂. -/
def dense2 (a : Tab n 128) (w1 : Tab 128 256) (b1 : Tab 1 256) (w2 : Tab 256 64) (r : Fin n) (j : Fin 64) : EReal :=
  ∑ h : Fin 256, hid a w1 b1 r h * w2 (ix2 h j)

/-- Entry j of row r of a + b₂ (the bias added to every row). -/
def biased (a : Tab n 64) (b2 : Tab 1 64) (r : Fin n) (j : Fin 64) : EReal :=
  a (ix2 r j) + b2 (ix2 0 j)

/-- Entry q of row r of (a + b₂) · W_c + b_c. -/
def scores (a : Tab n 64) (b2 : Tab 1 64) (wc : Tab 64 40) (bc : Tab 1 40) (r : Fin n) (q : Fin 40) : EReal :=
  (∑ j : Fin 64, biased a b2 r j * wc (ix2 j q)) + bc (ix2 0 q)

/-- Entry k of row r of the two 64-wide tables laid side by side. -/
def pair (fs fd : Tab n 64) (r : Fin n) (k : Fin 128) : EReal :=
  if h : k.val < 64 then fs (ix2 r ⟨k.val, h⟩) else fd (ix2 r ⟨k.val - 64, by omega⟩)

/-- Entry h of row r of relu([fs | fd] · Wp₁ + bp₁). -/
def edgeHid (fs fd : Tab n 64) (wp1 : Tab 128 256) (bp1 : Tab 1 256) (r : Fin n) (h : Fin 256) : EReal :=
  max ((∑ k : Fin 128, pair fs fd r k * wp1 (ix2 k h)) + bp1 (ix2 0 h)) z32

/-- Entry j of row r of relu([fs | fd] · Wp₁ + bp₁) · Wp₂ + bp₂. -/
def edgeOut (fs fd : Tab n 64) (wp1 : Tab 128 256) (bp1 : Tab 1 256) (wp2 : Tab 256 64) (bp2 : Tab 1 64)
    (r : Fin n) (j : Fin 64) : EReal :=
  (∑ h : Fin 256, edgeHid fs fd wp1 bp1 r h * wp2 (ix2 h j)) + bp2 (ix2 0 j)

end Cert.Spec

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.Region0.lean ====
/-
  The first dense stage, read off the pipeline: the table it leaves, entry by entry.

  The stage walks the 50000-row aggregated node table a in five blocks of 10000 rows. At each block it forms
  relu(a_blk · W₁ + b₁) · W₂ with the whole of W₁ (128 × 256), b₁ (one row of 256) and W₂ (256 × 64), and writes the
  10000 × 64 result back as the same rows of the output table. Row p of block t is row 10000 t + p of the table, and a
  row of the result depends on that one row of a only; so the five blocks written back are the five row blocks of ONE
  table, whose entry (r, j) is entry j of row r of relu(a · W₁ + b₁) · W₂ (`Cert.Spec.dense2`). The blocks tile the
  output (row r lies in block r / 10000), hence after the stage the output table is that table.
-/
import proofs.«412903_j85804856639971_3_alg».proof.Proof.Gen.KernelIdeal.Frame
import proofs.«412903_j85804856639971_3_alg».proof.Proof.Spec
import proofs.«412903_j85804856639971_3_alg».proof.Proof.LibPlainDot
import Idealize.ShloMosaic.Lib.Pipeline.Value
import Idealize.ShloMosaic.Lib.ValueLayout
import Idealize.ShloMosaic.Lib.ValueIdx

noncomputable section

open scoped BigOperators

namespace Cert.KernelIdeal.Region0

open Cert.KernelIdeal Cert.KernelIdeal.Gen Idealize.ShloMosaic Idealize.ShloMosaic.ValueIdx Idealize.ShloMosaic.TcCoe Idealize.SL.Sem
open Idealize.ShloMosaic.Pipeline (Dat)

/-! ## The block's arithmetic at an entry -/

/-- Entry h of row p of the block's hidden table: the relu of the block's row p times W₁ plus the bias row. -/
theorem hidden_apply (x0 : FVec Ideal S10000x128 .f32) (x1 : FVec Ideal S128x256 .f32) (x2 : FVec Ideal S1x256 .f32)
    (p : Fin 10000) (h : Fin 256) :
    maximumf (addf (matmul dot_S10000x128_S128x256_S10000x256_1_0_0_1_n_n none
        (shapeCast S10000x128 x0 shapeCasts_S10000x128_S10000x128) x1 (constant (F := Ideal) S10000x256 .f32 0x00000000#32))
        (broadcastTo S10000x256 (shapeCast S1x256 x2 shapeCasts_S1x256_S1x256) broadcasts_S1x256_S10000x256))
        (broadcast S10000x256 (Scalar.ofBits (F := Ideal) .f32 0x00000000#32)) (ix2 p h)
      = Cert.Spec.hid x0 x1 x2 p h := by
  rw [shapeCast_self, shapeCast_self]
  show max (FloatOps.matmul dot_S10000x128_S128x256_S10000x256_1_0_0_1_n_n none x0 x1
      (constant (F := Ideal) S10000x256 .f32 0x00000000#32) (ix2 p h)
      + broadcastTo S10000x256 x2 broadcasts_S1x256_S10000x256 (ix2 p h)) _ = _
  rw [Cert.LibPlainDot.matmul_zero_apply (M := 10000) (K := 128) (N := 256)
      dot_S10000x128_S128x256_S10000x256_1_0_0_1_n_n rfl rfl rfl rfl rfl rfl none x0 x1 p h,
    broadcastTo_1b_ab_apply x2 broadcasts_S1x256_S10000x256 p h]
  rfl

/-- Entry j of row p of what the body stores: the hidden row p times W₂. -/
theorem pay_apply (x0 : Vec Ideal S10000x128 .f32) (x1 : Vec Ideal S128x256 .f32) (x2 : Vec Ideal S1x256 .f32)
    (x3 : Vec Ideal S256x64 .f32) (p : Fin 10000) (j : Fin 64) :
    k0_pay1 (F := Ideal) x0 x1 x2 x3 (ix2 p j) = Cert.Spec.dense2 x0 x1 x2 x3 p j := by
  unfold k0_pay1
  refine (Cert.LibPlainDot.matmul_zero_apply (M := 10000) (K := 256) (N := 64)
      dot_S10000x256_S256x64_S10000x64_1_0_0_1_n_n rfl rfl rfl rfl rfl rfl none _ x3 p j).trans ?_
  unfold Cert.Spec.dense2
  refine Finset.sum_congr rfl fun h _ => ?_
  exact congrArg (· * x3 (ix2 h j)) (hidden_apply x0 x1 x2 p h)

/-! ## From the five blocks to the table -/

theorem zero_offsets : (![0, 0] : Fin 2 → Nat) = fun _ => 0 := funext fun a => by fin_cases a <;> rfl

/-- Two rows that agree entry by entry, of tables of any heights, give the same projected row. -/
theorem dense2_of_row {n n' : Nat} (a : Cert.Spec.Tab n 128) (a' : Cert.Spec.Tab n' 128) (w1 : Cert.Spec.Tab 128 256)
    (b1 : Cert.Spec.Tab 1 256) (w2 : Cert.Spec.Tab 256 64) (r : Fin n) (r' : Fin n') (j j' : Fin 64)
    (hr : ∀ k : Fin 128, a (ix2 r k) = a' (ix2 r' k)) (hj : j = j') :
    Cert.Spec.dense2 a w1 b1 w2 r j = Cert.Spec.dense2 a' w1 b1 w2 r' j' := by
  subst hj
  unfold Cert.Spec.dense2 Cert.Spec.hid
  simp only [hr]

/-- The region's output table as one function of its four input tables: entry (r, j) is entry j of row r of
    relu(a · W₁ + b₁) · W₂. -/
abbrev G (a : S50000x128.Idx → EReal) (w1 : S128x256.Idx → EReal) (b1 : S1x256.Idx → EReal) (w2 : S256x64.Idx → EReal) :
    S50000x64.Idx → EReal := fun i => Cert.Spec.dense2 a w1 b1 w2 (i 0) (i 1)

variable (V : (c : Dev nD) → (b : Ref sig .tc) → Buf (Elt Ideal) ((c : Thread nD τ).loc b))

/-- The four input tables as the region finds them, and their blocks at a grid point, at their literal types. -/
abbrev aArr (c : Dev nD) : S50000x128.Idx → EReal := V c main_v42
abbrev w1Arr (c : Dev nD) : S128x256.Idx → EReal := V c main_arg2
abbrev b1Arr (c : Dev nD) : S1x256.Idx → EReal := V c main_v43
abbrev w2Arr (c : Dev nD) : S256x64.Idx → EReal := V c main_arg4
abbrev aBlk (c : Dev nD) (t : Fin cfg0.N) : Vec Ideal S10000x128 .f32 := iblk0 V c 0 t
abbrev w1Blk (c : Dev nD) (t : Fin cfg0.N) : Vec Ideal S128x256 .f32 := iblk0 V c 1 t
abbrev b1Blk (c : Dev nD) (t : Fin cfg0.N) : Vec Ideal S1x256 .f32 := iblk0 V c 2 t
abbrev w2Blk (c : Dev nD) (t : Fin cfg0.N) : Vec Ideal S256x64 .f32 := iblk0 V c 3 t

/-- The index maps over the five grid points: the node table and the output move by one row block a point, the
    weights and the bias stay at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the node table's block at point t is row 10000 t + p of the table. -/
theorem aBlk_apply (c : Dev nD) (t : Fin cfg0.N) (p : Fin 10000) (k : Fin 128) (r : Fin 50000)
    (hr : r.val = t.val * 10000 + p.val) : aBlk V c t (ix2 p k) = aArr V c (ix2 r k) := by
  obtain ⟨e00, e01, -⟩ := block_indices t
  show V c main_v42 (((cfg0.win 0).blk t).view.emb (ix2 p k)) = V c main_v42 (ix2 r k)
  refine congrArg (V c main_v42) (funext fun a => Fin.ext ?_)
  match a with
  | ⟨0, _⟩ => show win0_0.index t (0 : Fin 2) * 10000 + 1 * p.val = r.val; rw [e00, hr]; omega
  | ⟨1, _⟩ => show win0_0.index t (1 : Fin 2) * 128 + 1 * k.val = k.val; rw [e01]; omega

/-- The blocks of W₁, b₁ and W₂ at any point are the whole tables. -/
theorem w1Blk_eq (c : Dev nD) (t : Fin cfg0.N) : w1Blk V c t = w1Arr V c := by
  obtain ⟨-, -, e10, e11, -⟩ := block_indices t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; rw [e10]; omega
  | ⟨1, _⟩ => show win0_1.index t (1 : Fin 2) * 256 + 1 * (y 1).val = (y 1).val; rw [e11]; omega

theorem b1Blk_eq (c : Dev nD) (t : Fin cfg0.N) : b1Blk V c t = b1Arr V c := by
  obtain ⟨-, -, -, -, e20, e21, -⟩ := block_indices t
  funext y
  show V c main_v43 (((cfg0.win 2).blk t).view.emb y) = V c main_v43 y
  refine congrArg (V c main_v43) (funext fun a => Fin.ext ?_)
  match a with
  | ⟨0, _⟩ => show win0_2.index t (0 : Fin 2) * 1 + 1 * (y 0).val = (y 0).val; rw [e20]; omega
  | ⟨1, _⟩ => show win0_2.index t (1 : Fin 2) * 256 + 1 * (y 1).val = (y 1).val; rw [e21]; omega

theorem w2Blk_eq (c : Dev nD) (t : Fin cfg0.N) : w2Blk V c t = w2Arr V c := by
  obtain ⟨-, -, -, -, -, -, e30, e31, -⟩ := block_indices t
  funext y
  show V c main_arg4 (((cfg0.win 3).blk t).view.emb y) = V c main_arg4 y
  refine congrArg (V c main_arg4) (funext fun a => Fin.ext ?_)
  match a with
  | ⟨0, _⟩ => show win0_3.index t (0 : Fin 2) * 256 + 1 * (y 0).val = (y 0).val; rw [e30]; omega
  | ⟨1, _⟩ => show win0_3.index t (1 : Fin 2) * 64 + 1 * (y 1).val = (y 1).val; rw [e31]; omega

/-- What point t writes back is block t of the output table G of the four input tables. -/
theorem written_back_eq (c : Dev nD) (t : Fin cfg0.N) :
    (dat0 (F := Ideal) V c).flushed 4 t
      = ((cfg0.win 4).blk t).view.read (Elt Ideal) (G (aArr V c) (w1Arr V c) (b1Arr V c) (w2Arr V c)) := by
  show (cfg0.win 4).cut (grid0.coords t) ((dat0 V c).after 4 t) = _
  rw [after0_4]
  unfold out0_4
  rw [View.canon_unit_zero zero_offsets]
  simp only [View.ld_unit_zero (S := S10000x128) zero_offsets, View.ld_unit_zero (S := S128x256) zero_offsets,
    View.ld_unit_zero (S := S1x256) zero_offsets, View.ld_unit_zero (S := S256x64) zero_offsets]
  obtain ⟨-, -, -, -, -, -, -, -, e40, e41⟩ := block_indices t
  funext y
  obtain ⟨p, q, rfl⟩ : ∃ (p : Fin 10000) (q : Fin 64), y = ix2 p q := ⟨y 0, y 1, eq_ix2 y⟩
  show k0_pay1 (F := Ideal) (aBlk V c t) (w1Blk V c t) (b1Blk V c t) (w2Blk V c t) (ix2 p q)
    = G (aArr V c) (w1Arr V c) (b1Arr V c) (w2Arr V c) (((cfg0.win 4).blk t).view.emb (ix2 p q))
  refine (pay_apply (aBlk V c t) (w1Blk V c t) (b1Blk V c t) (w2Blk V c t) p q).trans ?_
  rw [w1Blk_eq, b1Blk_eq, w2Blk_eq]
  refine dense2_of_row (aBlk V c t) (aArr V c) (w1Arr V c) (b1Arr V c) (w2Arr V c) p _ q _ (fun k => ?_) (Fin.ext ?_)
  · refine aBlk_apply V c t p k _ ?_
    show win0_4.index t (0 : Fin 2) * 10000 + 1 * p.val = t.val * 10000 + p.val
    rw [e40]; omega
  · show q.val = win0_4.index t (1 : Fin 2) * 64 + 1 * q.val
    rw [e41]; omega

/-- An index of the output table is in point t's block iff each coordinate is in the block's range on its axis. -/
theorem mem_block_iff (t : Fin cfg0.N) (i : S50000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v44).slice (win0_4.rect t)).set ↔ _
  rw [View.set_slice_whole, Rect.mem_set_unit]
  exact Iff.rfl

/-- Every entry of the output table is written back: row r by point r / 10000. -/
theorem rows_covered (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 5 := N_0
  have ht : (i 0).val / 10000 < cfg0.N := by rw [hN]; omega
  obtain ⟨-, -, -, -, -, -, -, -, e40, e41⟩ := block_indices ⟨(i 0).val / 10000, ht⟩
  have e40' : win0_4.index ⟨(i 0).val / 10000, ht⟩ (0 : Fin 2) = (i 0).val / 10000 := e40
  refine ⟨⟨(i 0).val / 10000, ht⟩, flush0_4 _, ?_⟩
  rw [mem_block_iff]
  intro a
  match a with
  | ⟨0, _⟩ =>
    show win0_4.index ⟨(i 0).val / 10000, ht⟩ (0 : Fin 2) * 10000 ≤ (i 0).val
      ∧ (i 0).val < win0_4.index ⟨(i 0).val / 10000, ht⟩ (0 : Fin 2) * 10000 + 10000
    rw [e40']; omega
  | ⟨1, _⟩ =>
    show win0_4.index ⟨(i 0).val / 10000, ht⟩ (1 : Fin 2) * 64 ≤ (i 1).val
      ∧ (i 1).val < win0_4.index ⟨(i 0).val / 10000, ht⟩ (1 : Fin 2) * 64 + 64
    rw [e41]; omega

/-- After the region the output table is G of the four input tables as the region found them. -/
theorem arr_eq (c : Dev nD) :
    (dat0 (F := Ideal) V c).arrAt 4 cfg0.N = G (aArr V c) (w1Arr V c) (b1Arr V c) (w2Arr V c) :=
  (dat0 (F := Ideal) V c).arrAt_eq_of_cover 4 (G (aArr V c) (w1Arr V c) (b1Arr V c) (w2Arr V c))
    (fun t _ => written_back_eq V c t) rows_covered

/-- Entry (r, j) of the region's output table after the region: entry j of row r of relu(a · W₁ + b₁) · W₂ of the
    region's input tables. -/
theorem arr4 (c : Dev nD) (r : Fin 50000) (j : Fin 64) :
    ((dat0 (F := Ideal) V c).arrAt 4 cfg0.N : S50000x64.Idx → EReal) (ix2 r j)
      = Cert.Spec.dense2 (V c main_v42) (V c main_arg2) (V c main_v43) (V c main_arg4) r j :=
  congrFun (arr_eq V c) (ix2 r j)

end Cert.KernelIdeal.Region0

end
-- ==== Proof.Region1.lean ====
/-
  The second dense stage's region, read entry by entry.

  The region walks the 50000 rows of its input table in five blocks of 10000 rows. At each block it adds the first
  bias row to every row (the first output table), multiplies the result by the 64 × 40 weight table and adds the
  second bias row to every row (the second output table). Each stored value is read at an entry; each block read at a
  grid point is placed in its table (rows 10000 t … 10000 t + 9999 at point t, the bias rows and the weights whole
  at every point); so what a point writes back is its row block of one whole-table function, and the five blocks
  cover the 50000 rows (row r lies in block r / 10000).
-/
import proofs.«412903_j85804856639971_3_alg».proof.Proof.Gen.KernelIdeal.Frame
import proofs.«412903_j85804856639971_3_alg».proof.Proof.Spec
import proofs.«412903_j85804856639971_3_alg».proof.Proof.LibPlainDot
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-! ## The two stored values, entry by entry -/

/-- Entry (p, j) of the first stored value: the row's entry plus the bias of its column. -/
theorem pay1_apply (x0 : Vec Ideal S10000x64 .f32) (x1 : Vec Ideal S1x64 .f32) (p : Fin 10000) (j : Fin 64) :
    (k1_pay1 (F := Ideal) x0 x1 : S10000x64.Idx → EReal) (ix2 p j) = x0 (ix2 p j) + x1 (ix2 (0 : Fin 1) j) := by
  unfold k1_pay1
  show (shapeCast S10000x64 x0 shapeCasts_S10000x64_S10000x64) (ix2 p j)
      + (broadcastTo S10000x64 (shapeCast S1x64 x1 shapeCasts_S1x64_S1x64) broadcasts_S1x64_S10000x64) (ix2 p j) = _
  rw [shapeCast_self, shapeCast_self, broadcastTo_1b_ab_apply]

/-- Entry (p, q) of the second stored value: row p of the first stored value times column q of the weights,
    plus the bias of column q. -/
theorem pay2_apply (x0 : Vec Ideal S10000x64 .f32) (x1 : Vec Ideal S1x64 .f32) (x2 : Vec Ideal S64x40 .f32)
    (x3 : Vec Ideal S1x40 .f32) (p : Fin 10000) (q : Fin 40) :
    (k1_pay2 (F := Ideal) x0 x1 x2 x3 : S10000x40.Idx → EReal) (ix2 p q)
      = (∑ j : Fin 64, (x0 (ix2 p j) + x1 (ix2 (0 : Fin 1) j)) * x2 (ix2 j q)) + x3 (ix2 (0 : Fin 1) q) := by
  unfold k1_pay2
  show FloatOps.matmul dot_S10000x64_S64x40_S10000x40_1_0_0_1_n_n none (k1_pay1 (F := Ideal) x0 x1) x2
        (constant (F := Ideal) S10000x40 .f32 0x00000000#32) (ix2 p q)
      + (broadcastTo S10000x40 (shapeCast S1x40 x3 shapeCasts_S1x40_S1x40) broadcasts_S1x40_S10000x40) (ix2 p q) = _
  rw [shapeCast_self, broadcastTo_1b_ab_apply]
  refine congrArg (· + x3 (ix2 (0 : Fin 1) q)) ?_
  refine (Cert.LibPlainDot.matmul_zero_apply dot_S10000x64_S64x40_S10000x40_1_0_0_1_n_n rfl rfl rfl rfl rfl rfl none
    (k1_pay1 (F := Ideal) x0 x1) x2 p q).trans ?_
  exact Finset.sum_congr rfl fun j _ => congrArg (· * x2 (ix2 j q)) (pay1_apply x0 x1 p j)

/-! ## The blocks of the grid's five points -/

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row-blocked windows (the rows read, the two tables written) are at block
    (t, 0) at point t; the bias rows and the weights are at block (0, 0) at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Entry (p, j) of the row block read at point t is entry (10000 t + p, j) of the table. -/
theorem rows_apply (c : Dev nD) (t : Fin cfg1.N) (p : Fin 10000) (j : Fin 64) (k : S50000x64.Idx)
    (hk0 : (k 0).val = t.val * 10000 + p.val) (hk1 : (k 1).val = j.val) :
    (iblk1 (F := Ideal) V c 0 t : S10000x64.Idx → EReal) (ix2 p j) = (V c main_v57 : S50000x64.Idx → EReal) k := by
  obtain ⟨e0, e1, -⟩ := idx_facts t
  unfold iblk1
  rw [View.read_apply]
  show V c main_v57 (((cfg1.win 0).blk t).view.emb (ix2 p j)) = V c main_v57 k
  congr 1
  funext a
  apply Fin.ext
  match a with
  | ⟨0, _⟩ => show win1_0.index t (0 : Fin 2) * 10000 + 1 * p.val = (k 0).val; omega
  | ⟨1, _⟩ => show win1_0.index t (1 : Fin 2) * 64 + 1 * j.val = (k 1).val; omega

/-- The first bias row's block at any point is the row itself. -/
theorem bias2_apply (c : Dev nD) (t : Fin cfg1.N) (j : Fin 64) (k : S1x64.Idx) (hk1 : (k 1).val = j.val) :
    (iblk1 (F := Ideal) V c 1 t : S1x64.Idx → EReal) (ix2 (0 : Fin 1) j) = (V c main_v58 : S1x64.Idx → EReal) k := by
  obtain ⟨-, -, e0, e1, -⟩ := idx_facts t
  have hk0 : (k 0).val < 1 := idx2_lt0 k
  unfold iblk1
  rw [View.read_apply]
  show V c main_v58 (((cfg1.win 1).blk t).view.emb (ix2 (0 : Fin 1) j)) = V c main_v58 k
  congr 1
  funext a
  apply Fin.ext
  match a with
  | ⟨0, _⟩ => show win1_1.index t (0 : Fin 2) * 1 + 1 * 0 = (k 0).val; omega
  | ⟨1, _⟩ => show win1_1.index t (1 : Fin 2) * 64 + 1 * j.val = (k 1).val; omega

/-- The weights' block at any point is the whole table. -/
theorem weights_apply (c : Dev nD) (t : Fin cfg1.N) (j : Fin 64) (q : Fin 40) (k : S64x40.Idx)
    (hk0 : (k 0).val = j.val) (hk1 : (k 1).val = q.val) :
    (iblk1 (F := Ideal) V c 2 t : S64x40.Idx → EReal) (ix2 j q) = (V c main_arg10 : S64x40.Idx → EReal) k := by
  obtain ⟨-, -, -, -, e0, e1, -⟩ := idx_facts t
  unfold iblk1
  rw [View.read_apply]
  show V c main_arg10 (((cfg1.win 2).blk t).view.emb (ix2 j q)) = V c main_arg10 k
  congr 1
  funext a
  apply Fin.ext
  match a with
  | ⟨0, _⟩ => show win1_2.index t (0 : Fin 2) * 64 + 1 * j.val = (k 0).val; omega
  | ⟨1, _⟩ => show win1_2.index t (1 : Fin 2) * 40 + 1 * q.val = (k 1).val; omega

/-- The second bias row's block at any point is the row itself. -/
theorem biasc_apply (c : Dev nD) (t : Fin cfg1.N) (q : Fin 40) (k : S1x40.Idx) (hk1 : (k 1).val = q.val) :
    (iblk1 (F := Ideal) V c 3 t : S1x40.Idx → EReal) (ix2 (0 : Fin 1) q) = (V c main_v59 : S1x40.Idx → EReal) k := by
  obtain ⟨-, -, -, -, -, -, e0, e1, -⟩ := idx_facts t
  have hk0 : (k 0).val < 1 := idx2_lt0 k
  unfold iblk1
  rw [View.read_apply]
  show V c main_v59 (((cfg1.win 3).blk t).view.emb (ix2 (0 : Fin 1) q)) = V c main_v59 k
  congr 1
  funext a
  apply Fin.ext
  match a with
  | ⟨0, _⟩ => show win1_3.index t (0 : Fin 2) * 1 + 1 * 0 = (k 0).val; omega
  | ⟨1, _⟩ => show win1_3.index t (1 : Fin 2) * 40 + 1 * q.val = (k 1).val; omega

/-! ## The two output tables after the region -/

/-- The first output table, entry by entry: the table read with the first bias row added to every row. -/
abbrev G4 (c : Dev nD) : S50000x64.Idx → EReal := fun i =>
  Cert.Spec.biased (n := 50000) (V c main_v57) (V c main_v58) (i 0) (i 1)

/-- The second output table, entry by entry: the first one times the weights, the second bias row added to every row. -/
abbrev G5 (c : Dev nD) : S50000x40.Idx → EReal := fun i =>
  Cert.Spec.scores (n := 50000) (V c main_v57) (V c main_v58) (V c main_arg10) (V c main_v59) (i 0) (i 1)

/-- What point t writes back to the first output table is rows 10000 t … 10000 t + 9999 of G4. -/
theorem flushed4_eq (c : Dev nD) (t : Fin cfg1.N) :
    (dat1 (F := Ideal) V c).flushed 4 t = ((cfg1.win 4).blk t).view.read (Elt Ideal) (G4 V c) := by
  obtain ⟨-, -, -, -, -, -, -, -, e0, e1, -⟩ := idx_facts t
  show (cfg1.win 4).cut (grid1.coords t) ((dat1 V c).after 4 t) = _
  rw [after1_4]
  unfold out1_4
  rw [View.canon_unit_zero hz]
  simp only [View.ld_unit_zero (S := S10000x64) hz, View.ld_unit_zero (S := S1x64) hz]
  funext y
  obtain ⟨p, j, rfl⟩ : ∃ (p : Fin 10000) (j : Fin 64), y = ix2 p j := ⟨y 0, y 1, eq_ix2 y⟩
  rw [View.read_apply]
  show (k1_pay1 (F := Ideal) (iblk1 V c 0 t) (iblk1 V c 1 t) : S10000x64.Idx → EReal) (ix2 p j)
    = Cert.Spec.biased (n := 50000) (V c main_v57) (V c main_v58)
        ((((cfg1.win 4).blk t).view.emb (ix2 p j)) 0) ((((cfg1.win 4).blk t).view.emb (ix2 p j)) 1)
  refine (pay1_apply (iblk1 V c 0 t) (iblk1 V c 1 t) p j).trans ?_
  unfold Cert.Spec.biased
  refine congrArg₂ (· + ·) (rows_apply V c t p j _ ?_ ?_) (bias2_apply V c t j _ ?_)
  · show win1_4.index t (0 : Fin 2) * 10000 + 1 * p.val = t.val * 10000 + p.val; omega
  · show win1_4.index t (1 : Fin 2) * 64 + 1 * j.val = j.val; omega
  · show win1_4.index t (1 : Fin 2) * 64 + 1 * j.val = j.val; omega

/-- What point t writes back to the second output table is rows 10000 t … 10000 t + 9999 of G5. -/
theorem flushed5_eq (c : Dev nD) (t : Fin cfg1.N) :
    (dat1 (F := Ideal) V c).flushed 5 t = ((cfg1.win 5).blk t).view.read (Elt Ideal) (G5 V c) := by
  obtain ⟨-, -, -, -, -, -, -, -, -, -, e0, e1⟩ := idx_facts t
  show (cfg1.win 5).cut (grid1.coords t) ((dat1 V c).after 5 t) = _
  rw [after1_5]
  unfold out1_5
  rw [View.canon_unit_zero hz]
  simp only [View.ld_unit_zero (S := S10000x64) hz, View.ld_unit_zero (S := S1x64) hz,
    View.ld_unit_zero (S := S64x40) hz, View.ld_unit_zero (S := S1x40) hz]
  funext y
  obtain ⟨p, q, rfl⟩ : ∃ (p : Fin 10000) (q : Fin 40), y = ix2 p q := ⟨y 0, y 1, eq_ix2 y⟩
  rw [View.read_apply]
  show (k1_pay2 (F := Ideal) (iblk1 V c 0 t) (iblk1 V c 1 t) (iblk1 V c 2 t) (iblk1 V c 3 t) : S10000x40.Idx → EReal) (ix2 p q)
    = Cert.Spec.scores (n := 50000) (V c main_v57) (V c main_v58) (V c main_arg10) (V c main_v59)
        ((((cfg1.win 5).blk t).view.emb (ix2 p q)) 0) ((((cfg1.win 5).blk t).view.emb (ix2 p q)) 1)
  refine (pay2_apply (iblk1 V c 0 t) (iblk1 V c 1 t) (iblk1 V c 2 t) (iblk1 V c 3 t) p q).trans ?_
  unfold Cert.Spec.scores Cert.Spec.biased
  refine congrArg₂ (· + ·) (Finset.sum_congr rfl fun j _ => congrArg₂ (· * ·)
    (congrArg₂ (· + ·) (rows_apply V c t p j _ ?_ rfl) (bias2_apply V c t j _ rfl))
    (weights_apply V c t j q _ rfl ?_)) (biasc_apply V c t q _ ?_)
  · show win1_5.index t (0 : Fin 2) * 10000 + 1 * p.val = t.val * 10000 + p.val; omega
  · show win1_5.index t (1 : Fin 2) * 40 + 1 * q.val = q.val; omega
  · show win1_5.index t (1 : Fin 2) * 40 + 1 * q.val = q.val; omega

/-- An entry of the first output table is in point t's block iff each coordinate is in the block's range. -/
theorem mem_blk4 (t : Fin cfg1.N) (i : S50000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v60_0).slice (win1_4.rect t)).set ↔ _
  rw [View.set_slice_whole, Rect.mem_set_unit]
  exact Iff.rfl

/-- An entry of the second output table is in point t's block iff each coordinate is in the block's range. -/
theorem mem_blk5 (t : Fin cfg1.N) (i : S50000x40.Idx) :
    i ∈ ((cfg1.win 5).blk t).view.set ↔ ∀ a : Fin 2, win1_5.index t a * S10000x40.size a ≤ (i a).val
      ∧ (i a).val < win1_5.index t a * S10000x40.size a + S10000x40.size a := by
  show i ∈ ((View.whole main_v60_1).slice (win1_5.rect t)).set ↔ _
  rw [View.set_slice_whole, Rect.mem_set_unit]
  exact Iff.rfl

/-- Row r lies in the block of point r / 10000, which writes back. -/
theorem cover4 (i : S50000x64.Idx) :
    ∃ t : Fin cfg1.N, (cfg1.win 4).flush t = true ∧ i ∈ ((cfg1.win 4).blk t).view.set := by
  have h0 : (i 0).val < 50000 := idx2_lt0 i
  have h1 : (i 1).val < 64 := idx2_lt1 i
  have hN : (i 0).val / 10000 < cfg1.N := by show _ < grid1.N; rw [N_1]; omega
  obtain ⟨-, -, -, -, -, -, -, -, e0, e1, -⟩ := idx_facts ⟨(i 0).val / 10000, hN⟩
  refine ⟨⟨(i 0).val / 10000, hN⟩, flush1_4 _, ?_⟩
  rw [mem_blk4]
  intro a
  match a with
  | ⟨0, _⟩ =>
    show win1_4.index ⟨(i 0).val / 10000, hN⟩ (0 : Fin 2) * 10000 ≤ (i 0).val
      ∧ (i 0).val < win1_4.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win1_4.index ⟨(i 0).val / 10000, hN⟩ (1 : Fin 2) * 64 ≤ (i 1).val
      ∧ (i 1).val < win1_4.index ⟨(i 0).val / 10000, hN⟩ (1 : Fin 2) * 64 + 64
    rw [e1]; omega

theorem cover5 (i : S50000x40.Idx) :
    ∃ t : Fin cfg1.N, (cfg1.win 5).flush t = true ∧ i ∈ ((cfg1.win 5).blk t).view.set := by
  have h0 : (i 0).val < 50000 := idx2_lt0 i
  have h1 : (i 1).val < 40 := idx2_lt1 i
  have hN : (i 0).val / 10000 < cfg1.N := by show _ < grid1.N; rw [N_1]; omega
  obtain ⟨-, -, -, -, -, -, -, -, -, -, e0, e1⟩ := idx_facts ⟨(i 0).val / 10000, hN⟩
  refine ⟨⟨(i 0).val / 10000, hN⟩, flush1_5 _, ?_⟩
  rw [mem_blk5]
  intro a
  match a with
  | ⟨0, _⟩ =>
    show win1_5.index ⟨(i 0).val / 10000, hN⟩ (0 : Fin 2) * 10000 ≤ (i 0).val
      ∧ (i 0).val < win1_5.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, hN⟩ (1 : Fin 2) * 40 ≤ (i 1).val
      ∧ (i 1).val < win1_5.index ⟨(i 0).val / 10000, hN⟩ (1 : Fin 2) * 40 + 40
    rw [e1]; omega

/-- The first output table after the region is G4. -/
theorem final4 (c : Dev nD) : (dat1 (F := Ideal) V c).arrAt 4 cfg1.N = G4 V c :=
  (dat1 (F := Ideal) V c).arrAt_eq_of_cover 4 (G4 V c) (fun t _ => flushed4_eq V c t) cover4

/-- The second output table after the region is G5. -/
theorem final5 (c : Dev nD) : (dat1 (F := Ideal) V c).arrAt 5 cfg1.N = G5 V c :=
  (dat1 (F := Ideal) V c).arrAt_eq_of_cover 5 (G5 V c) (fun t _ => flushed5_eq V c t) cover5

/-- The first output table after the region, at entry (r, j): the table read at (r, j) plus the first bias at j. -/
theorem arr4 (V : (c : Dev nD) → (b : Ref sig .tc) → Buf (Elt Ideal) ((c : Thread nD τ).loc b)) (c : Dev nD) (r : Fin 50000) (j : Fin 64) :
    ((dat1 (F := Ideal) V c).arrAt 4 cfg1.N : S50000x64.Idx → EReal) (ix2 r j) = Cert.Spec.biased (V c main_v57) (V c main_v58) r j :=
  congrFun (final4 V c) (ix2 r j)

/-- The second output table after the region, at entry (r, q): row r of the first output table times column q of
    the weights, plus the second bias at q. -/
theorem arr5 (V : (c : Dev nD) → (b : Ref sig .tc) → Buf (Elt Ideal) ((c : Thread nD τ).loc b)) (c : Dev nD) (r : Fin 50000) (q : Fin 40) :
    ((dat1 (F := Ideal) V c).arrAt 5 cfg1.N : S50000x40.Idx → EReal) (ix2 r q) = Cert.Spec.scores (V c main_v57) (V c main_v58) (V c main_arg10) (V c main_v59) r q :=
  congrFun (final5 V c) (ix2 r q)

end Cert.KernelIdeal.Region1

end
-- ==== Proof.LibConcatCols.lean ====
/-
  Two arrays of rows laid side by side, read at an entry.

  Joining an n × w₁ array and an n × w₂ array along the column axis gives an n × w array whose entry (r, k) is the
  first array's entry (r, k) for k < w₁ and the second array's entry (r, k − w₁) from column w₁ on.
-/
import Idealize.ShloMosaic.Lib.Pipeline.Value
import Idealize.ShloMosaic.Lib.ValueIdx

noncomputable section

namespace Cert.LibConcatCols

open Idealize.ShloMosaic Idealize.ShloMosaic.ValueIdx

variable {α : Type} {n w₁ w₂ w : Nat}

/-- A column of the joined array left of the seam is the first array's column. -/
theorem concat_left (x : (⟨2, ![n, w₁]⟩ : Shape).Idx → α) (y : (⟨2, ![n, w₂]⟩ : Shape).Idx → α)
    (h : Shape.Concatenates [(⟨2, ![n, w₁]⟩ : Shape), ⟨2, ![n, w₂]⟩] ⟨2, ![n, w]⟩ 1) (r : Fin n) (k : Fin w₁) (hk : k.val < w) :
    concatenate ⟨2, ![n, w]⟩ 1 [⟨⟨2, ![n, w₁]⟩, x⟩, ⟨⟨2, ![n, w₂]⟩, y⟩] h (ix2 r ⟨k.val, hk⟩) = x (ix2 r k) :=
  concatenate_pair_apply_left 1 x y h (ix2 r ⟨k.val, hk⟩) rfl (ix2 r k) (fun b => match b with
    | ⟨0, _⟩ => rfl
    | ⟨1, _⟩ => rfl)

/-- A column of the joined array from the seam on is the second array's column, the first array's width less. -/
theorem concat_right (x : (⟨2, ![n, w₁]⟩ : Shape).Idx → α) (y : (⟨2, ![n, w₂]⟩ : Shape).Idx → α)
    (h : Shape.Concatenates [(⟨2, ![n, w₁]⟩ : Shape), ⟨2, ![n, w₂]⟩] ⟨2, ![n, w]⟩ 1) (r : Fin n) (k : Fin w₂) (hk : w₁ + k.val < w) :
    concatenate ⟨2, ![n, w]⟩ 1 [⟨⟨2, ![n, w₁]⟩, x⟩, ⟨⟨2, ![n, w₂]⟩, y⟩] h (ix2 r ⟨w₁ + k.val, hk⟩) = y (ix2 r k) :=
  concatenate_pair_apply_right 1 x y h (ix2 r ⟨w₁ + k.val, hk⟩) rfl rfl (ix2 r k) (fun b hb => match b, hb with
    | ⟨0, _⟩, _ => rfl
    | ⟨1, _⟩, hb => absurd rfl hb) (by show k.val + w₁ = w₁ + k.val; omega)

end Cert.LibConcatCols

end
-- ==== Proof.Region2.lean ====
/-
  The edge stage of the graph encoder, read off its row-blocked run.

  The region visits fifty points; point t holds rows 16000·t … 16000·t + 15999 of the two edge-endpoint feature tables
  and all of the two weight tables and the two bias rows, and writes back the same rows of the output table. What one
  point computes at an entry (p, j) of its block is relu([fs | fd] · Wp₁ + bp₁) · Wp₂ + bp₂ of the block's own rows; that
  value depends on the feature tables only through row p of each block, which is row 16000·t + p of the whole tables, so
  every point writes its block of ONE whole-table function, and the fifty blocks tile the 800000 rows.
-/
import proofs.«412903_j85804856639971_3_alg».proof.Proof.Gen.KernelIdeal.Frame
import proofs.«412903_j85804856639971_3_alg».proof.Proof.Spec
import proofs.«412903_j85804856639971_3_alg».proof.Proof.LibPlainDot
import proofs.«412903_j85804856639971_3_alg».proof.Proof.LibConcatCols
import Idealize.ShloMosaic.Lib.Pipeline.Value
import Idealize.ShloMosaic.Lib.ValueIdx
import Idealize.ShloMosaic.Lib.ValueLayout

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## The value of an output row depends on its own input rows only -/

/-- Two pairs of feature tables that agree on one row each give the same joined row. -/
theorem pair_congr_row {n n' : Nat} (fs fd : Cert.Spec.Tab n 64) (gs gd : Cert.Spec.Tab n' 64) (r : Fin n) (r' : Fin n')
    (hs : ∀ k : Fin 64, fs (ix2 r k) = gs (ix2 r' k)) (hd : ∀ k : Fin 64, fd (ix2 r k) = gd (ix2 r' k)) (k : Fin 128) :
    Cert.Spec.pair fs fd r k = Cert.Spec.pair gs gd r' k := by
  unfold Cert.Spec.pair
  split
  · exact hs _
  · exact hd _

/-- Hence the same output row. -/
theorem edgeOut_congr_row {n n' : Nat} (fs fd : Cert.Spec.Tab n 64) (gs gd : Cert.Spec.Tab n' 64)
    (wp1 : Cert.Spec.Tab 128 256) (bp1 : Cert.Spec.Tab 1 256) (wp2 : Cert.Spec.Tab 256 64) (bp2 : Cert.Spec.Tab 1 64)
    (r : Fin n) (r' : Fin n')
    (hs : ∀ k : Fin 64, fs (ix2 r k) = gs (ix2 r' k)) (hd : ∀ k : Fin 64, fd (ix2 r k) = gd (ix2 r' k)) (j : Fin 64) :
    Cert.Spec.edgeOut fs fd wp1 bp1 wp2 bp2 r j = Cert.Spec.edgeOut gs gd wp1 bp1 wp2 bp2 r' j := by
  unfold Cert.Spec.edgeOut Cert.Spec.edgeHid
  simp only [pair_congr_row fs fd gs gd r r' hs hd]

/-! ## What one point computes at an entry of its block -/

/-- The two 64-wide blocks joined along columns, read at an entry: the joined row of the specification. -/
theorem joined_apply (x0 x1 : FVec Ideal S16000x64 .bf16) (p : Fin 16000) (k : Fin 128) :
    concatenate S16000x128 1 [⟨S16000x64, x0⟩, ⟨S16000x64, x1⟩] concatenates_S16000x64_S16000x64_S16000x128_d1 (ix2 p k)
      = Cert.Spec.pair x0 x1 p k := by
  unfold Cert.Spec.pair
  split
  · rename_i h
    exact Cert.LibConcatCols.concat_left x0 x1 concatenates_S16000x64_S16000x64_S16000x128_d1 p ⟨k.val, h⟩ k.isLt
  · rename_i h
    have e : k = ⟨64 + (k.val - 64), by omega⟩ := Fin.ext (by show k.val = 64 + (k.val - 64); omega)
    refine (congrArg (fun q : Fin 128 => concatenate S16000x128 1 [⟨S16000x64, x0⟩, ⟨S16000x64, x1⟩]
      concatenates_S16000x64_S16000x64_S16000x128_d1 (ix2 p q)) e).trans ?_
    exact Cert.LibConcatCols.concat_right x0 x1 concatenates_S16000x64_S16000x64_S16000x128_d1 p ⟨k.val - 64, by omega⟩ (by show 64 + (k.val - 64) < 128; omega)

/-- The body's stored value at entry (p, j) of a point's block: relu([x0 | x1] · x2 + x3) · x4 + x5 of the blocks. -/
theorem payload_apply (x0 x1 : FVec Ideal S16000x64 .bf16) (x2 : FVec Ideal S128x256 .bf16) (x3 : FVec Ideal S1x256 .f32)
    (x4 : FVec Ideal S256x64 .bf16) (x5 : FVec Ideal S1x64 .f32) (p : Fin 16000) (j : Fin 64) :
    k2_pay1 (F := Ideal) x0 x1 x2 x3 x4 x5 (ix2 p j) = Cert.Spec.edgeOut x0 x1 x2 x3 x4 x5 p j := by
  unfold k2_pay1 Cert.Spec.edgeOut
  simp only [shapeCast_self]
  refine congrArg₂ (· + ·) ?_ ?_
  · refine (Cert.LibPlainDot.matmul_zero_apply dot_S16000x256_S256x64_S16000x64_1_0_0_1_n_n rfl rfl rfl rfl rfl rfl none _ _ p j).trans ?_
    refine Finset.sum_congr rfl fun h _ => ?_
    refine congrArg (· * x4 (ix2 h j)) ?_
    unfold Cert.Spec.edgeHid
    refine congrArg₂ max ?_ rfl
    refine congrArg₂ (· + ·) ?_ ?_
    · refine (Cert.LibPlainDot.matmul_zero_apply dot_S16000x128_S128x256_S16000x256_1_0_0_1_n_n rfl rfl rfl rfl rfl rfl none _ _ p h).trans ?_
      refine Finset.sum_congr rfl fun k _ => ?_
      rw [shapeCast_self x0, shapeCast_self x1]
      exact congrArg (· * x2 (ix2 k h)) (joined_apply x0 x1 p k)
    · exact broadcastTo_1b_ab_apply x3 broadcasts_S1x256_S16000x256 p h
  · exact broadcastTo_1b_ab_apply x5 broadcasts_S1x64_S16000x64 p j

/-! ## From blocks to the table -/

theorem zero_offsets : (![0, 0] : Fin 2 → Nat) = fun _ => 0 := funext fun a => by fin_cases a <;> rfl

/-- The whole output table as one function of the six input tables. -/
abbrev edgeTable (fs fd : S800000x64.Idx → EReal) (wp1 : S128x256.Idx → EReal) (bp1 : S1x256.Idx → EReal)
    (wp2 : S256x64.Idx → EReal) (bp2 : S1x64.Idx → EReal) : S800000x64.Idx → EReal :=
  fun i => Cert.Spec.edgeOut fs fd wp1 bp1 wp2 bp2 (i 0) (i 1)

/-- Entry (p, j) of the block a point stores is entry (r, j) of the whole table, r = 16000·T + p, once the point's feature
    blocks are rows 16000·T … of the feature tables and its weight blocks are the weight tables. -/
theorem block_entry_coords (fs fd : S800000x64.Idx → EReal) (wp1 : S128x256.Idx → EReal) (bp1 : S1x256.Idx → EReal)
    (wp2 : S256x64.Idx → EReal) (bp2 : S1x64.Idx → EReal)
    (x0 x1 : FVec Ideal S16000x64 .bf16) (x2 : FVec Ideal S128x256 .bf16) (x3 : FVec Ideal S1x256 .f32)
    (x4 : FVec Ideal S256x64 .bf16) (x5 : FVec Ideal S1x64 .f32) (T : Nat)
    (h0 : ∀ (p : Fin 16000) (r : Fin 800000) (k : Fin 64), r.val = T * 16000 + p.val → x0 (ix2 p k) = fs (ix2 r k))
    (h1 : ∀ (p : Fin 16000) (r : Fin 800000) (k : Fin 64), r.val = T * 16000 + p.val → x1 (ix2 p k) = fd (ix2 r k))
    (e2 : x2 = wp1) (e3 : x3 = bp1) (e4 : x4 = wp2) (e5 : x5 = bp2)
    (p : Fin 16000) (r : Fin 800000) (j : Fin 64) (hr : r.val = T * 16000 + p.val) :
    k2_pay1 (F := Ideal) x0 x1 x2 x3 x4 x5 (ix2 p j) = Cert.Spec.edgeOut fs fd wp1 bp1 wp2 bp2 r j := by
  subst e2 e3 e4 e5
  refine (payload_apply x0 x1 x2 x3 x4 x5 p j).trans ?_
  exact edgeOut_congr_row x0 x1 fs fd x2 x3 x4 x5 p r (fun k => h0 p r k hr) (fun k => h1 p r k hr) j

/-- The same at an index y of the block and the index i of the table it sits at. -/
theorem block_entry (fs fd : S800000x64.Idx → EReal) (wp1 : S128x256.Idx → EReal) (bp1 : S1x256.Idx → EReal)
    (wp2 : S256x64.Idx → EReal) (bp2 : S1x64.Idx → EReal)
    (x0 x1 : FVec Ideal S16000x64 .bf16) (x2 : FVec Ideal S128x256 .bf16) (x3 : FVec Ideal S1x256 .f32)
    (x4 : FVec Ideal S256x64 .bf16) (x5 : FVec Ideal S1x64 .f32) (T : Nat)
    (h0 : ∀ (p : Fin 16000) (r : Fin 800000) (k : Fin 64), r.val = T * 16000 + p.val → x0 (ix2 p k) = fs (ix2 r k))
    (h1 : ∀ (p : Fin 16000) (r : Fin 800000) (k : Fin 64), r.val = T * 16000 + p.val → x1 (ix2 p k) = fd (ix2 r k))
    (e2 : x2 = wp1) (e3 : x3 = bp1) (e4 : x4 = wp2) (e5 : x5 = bp2)
    (y : S16000x64.Idx) (i : S800000x64.Idx) (hi0 : (i 0).val = T * 16000 + (y 0).val) (hi1 : (i 1).val = (y 1).val) :
    k2_pay1 (F := Ideal) x0 x1 x2 x3 x4 x5 y = edgeTable fs fd wp1 bp1 wp2 bp2 i := by
  obtain ⟨p, j, rfl⟩ : ∃ (p : Fin 16000) (j : Fin 64), y = ix2 p j := ⟨y 0, y 1, eq_ix2 y⟩
  obtain ⟨r, j', rfl⟩ : ∃ (r : Fin 800000) (j' : Fin 64), i = ix2 r j' := ⟨i 0, i 1, eq_ix2 i⟩
  have hr : r.val = T * 16000 + p.val := hi0
  have hj : j' = j := Fin.ext hi1
  rw [hj]
  exact block_entry_coords fs fd wp1 bp1 wp2 bp2 x0 x1 x2 x3 x4 x5 T h0 h1 e2 e3 e4 e5 p r j hr

section Run

variable (V : (c : Dev nD) → (b : Ref sig .tc) → Buf (Elt Ideal) ((c : Thread nD τ).loc b))

/-- The printed index maps, decided once over the grid: the row-blocked windows sit at block (t, 0), the whole-table
    windows at block (0, 0). -/
theorem index_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- Point t's block of the source-feature table is rows 16000·t … of the table. -/
theorem rows_src (c : Dev nD) (t : Fin cfg2.N) (p : Fin 16000) (r : Fin 800000) (k : Fin 64) (hr : r.val = t.val * 16000 + p.val) :
    (iblk2 V c 0 t : Vec Ideal S16000x64 .bf16) (ix2 p k) = (V c main_v68 : S800000x64.Idx → EReal) (ix2 r k) := by
  obtain ⟨⟨e0, e1⟩, -⟩ := index_facts t
  unfold iblk2
  rw [View.read_apply]
  show V c main_v68 _ = V c main_v68 _
  congr 1
  funext a
  apply Fin.ext
  match a with
  | ⟨0, _⟩ => show win2_0.index t (0 : Fin 2) * 16000 + 1 * p.val = r.val; rw [e0, hr]; omega
  | ⟨1, _⟩ => show win2_0.index t (1 : Fin 2) * 64 + 1 * k.val = k.val; rw [e1]; omega

/-- Point t's block of the target-feature table is rows 16000·t … of the table. -/
theorem rows_dst (c : Dev nD) (t : Fin cfg2.N) (p : Fin 16000) (r : Fin 800000) (k : Fin 64) (hr : r.val = t.val * 16000 + p.val) :
    (iblk2 V c 1 t : Vec Ideal S16000x64 .bf16) (ix2 p k) = (V c main_v75 : S800000x64.Idx → EReal) (ix2 r k) := by
  obtain ⟨-, ⟨e0, e1⟩, -⟩ := index_facts t
  unfold iblk2
  rw [View.read_apply]
  show V c main_v75 _ = V c main_v75 _
  congr 1
  funext a
  apply Fin.ext
  match a with
  | ⟨0, _⟩ => show win2_1.index t (0 : Fin 2) * 16000 + 1 * p.val = r.val; rw [e0, hr]; omega
  | ⟨1, _⟩ => show win2_1.index t (1 : Fin 2) * 64 + 1 * k.val = k.val; rw [e1]; omega

/-- Every point's block of the first weight table is the table. -/
theorem whole_wp1 (c : Dev nD) (t : Fin cfg2.N) : (iblk2 V c 2 t : Vec Ideal S128x256 .bf16) = (V c main_v78 : S128x256.Idx → EReal) := by
  obtain ⟨-, -, ⟨e0, e1⟩, -⟩ := index_facts t
  funext y
  unfold iblk2
  rw [View.read_apply]
  show V c main_v78 _ = V c main_v78 _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 256 + 1 * (y 1).val = (y 1).val; rw [e1]; omega

/-- Every point's block of the first bias row is the row. -/
theorem whole_bp1 (c : Dev nD) (t : Fin cfg2.N) : (iblk2 V c 3 t : Vec Ideal S1x256 .f32) = (V c main_v76 : S1x256.Idx → EReal) := by
  obtain ⟨-, -, -, ⟨e0, e1⟩, -⟩ := index_facts t
  funext y
  unfold iblk2
  rw [View.read_apply]
  show V c main_v76 _ = V c main_v76 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 256 + 1 * (y 1).val = (y 1).val; rw [e1]; omega

/-- Every point's block of the second weight table is the table. -/
theorem whole_wp2 (c : Dev nD) (t : Fin cfg2.N) : (iblk2 V c 4 t : Vec Ideal S256x64 .bf16) = (V c main_v79 : S256x64.Idx → EReal) := by
  obtain ⟨-, -, -, -, ⟨e0, e1⟩, -⟩ := index_facts t
  funext y
  unfold iblk2
  rw [View.read_apply]
  show V c main_v79 _ = V c main_v79 _
  congr 1
  funext a
  apply Fin.ext
  match a with
  | ⟨0, _⟩ => show win2_4.index t (0 : Fin 2) * 256 + 1 * (y 0).val = (y 0).val; rw [e0]; omega
  | ⟨1, _⟩ => show win2_4.index t (1 : Fin 2) * 64 + 1 * (y 1).val = (y 1).val; rw [e1]; omega

/-- Every point's block of the second bias row is the row. -/
theorem whole_bp2 (c : Dev nD) (t : Fin cfg2.N) : (iblk2 V c 5 t : Vec Ideal S1x64 .f32) = (V c main_v77 : S1x64.Idx → EReal) := by
  obtain ⟨-, -, -, -, -, ⟨e0, e1⟩, -⟩ := index_facts t
  funext y
  unfold iblk2
  rw [View.read_apply]
  show V c main_v77 _ = V c main_v77 _
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 64 + 1 * (y 1).val = (y 1).val; rw [e1]; omega

/-- What point t writes back is block t of the whole-table function of the six tables as the region finds them. -/
theorem flushed_eq (c : Dev nD) (t : Fin cfg2.N) :
    (dat2 V c).flushed 6 t = ((cfg2.win 6).blk t).view.read (Elt Ideal)
      (edgeTable (V c main_v68) (V c main_v75) (V c main_v78) (V c main_v76) (V c main_v79) (V c main_v77)) := by
  show (cfg2.win 6).cut (grid2.coords t) ((dat2 V c).after 6 t) = _
  rw [after2_6]
  unfold out2_6
  rw [View.canon_unit_zero zero_offsets]
  simp only [View.ld_unit_zero (S := S16000x64) zero_offsets, View.ld_unit_zero (S := S128x256) zero_offsets,
    View.ld_unit_zero (S := S1x256) zero_offsets, View.ld_unit_zero (S := S256x64) zero_offsets,
    View.ld_unit_zero (S := S1x64) zero_offsets]
  obtain ⟨-, -, -, -, -, -, ⟨e0, e1⟩⟩ := index_facts t
  funext y
  refine block_entry (V c main_v68) (V c main_v75) (V c main_v78) (V c main_v76) (V c main_v79) (V c main_v77)
    (iblk2 V c 0 t) (iblk2 V c 1 t) (iblk2 V c 2 t) (iblk2 V c 3 t) (iblk2 V c 4 t) (iblk2 V c 5 t) t.val
    (fun p r k hr => rows_src V c t p r k hr) (fun p r k hr => rows_dst V c t p r k hr)
    (whole_wp1 V c t) (whole_bp1 V c t) (whole_wp2 V c t) (whole_bp2 V c t) y (((cfg2.win 6).blk t).view.emb y) ?_ ?_
  · show win2_6.index t (0 : Fin 2) * 16000 + 1 * (y 0).val = t.val * 16000 + (y 0).val
    rw [e0]; omega
  · show win2_6.index t (1 : Fin 2) * 64 + 1 * (y 1).val = (y 1).val
    rw [e1]; omega

/-- An index of the table is in point t's block iff each coordinate is in the block's range on its axis. -/
theorem mem_blk (t : Fin cfg2.N) (i : S800000x64.Idx) :
    i ∈ ((cfg2.win 6).blk t).view.set ↔ ∀ a : Fin 2, win2_6.index t a * S16000x64.size a ≤ (i a).val ∧ (i a).val < win2_6.index t a * S16000x64.size a + S16000x64.size a := by
  show i ∈ ((View.whole main_v80).slice (win2_6.rect t)).set ↔ _
  rw [View.set_slice_whole, Rect.mem_set_unit]
  exact Iff.rfl

/-- Row r of the table is in the block of point r / 16000: the fifty blocks tile the table. -/
theorem covered (i : S800000x64.Idx) : ∃ t : Fin cfg2.N, (cfg2.win 6).flush t = true ∧ i ∈ ((cfg2.win 6).blk t).view.set := by
  have hN : cfg2.N = 50 := N_2
  have h0 : (i 0).val < 800000 := (i 0).isLt
  have h1 : (i 1).val < 64 := (i 1).isLt
  have hlt : (i 0).val / 16000 < cfg2.N := by rw [hN]; omega
  refine ⟨⟨(i 0).val / 16000, hlt⟩, flush2_6 _, ?_⟩
  obtain ⟨-, -, -, -, -, -, ⟨e0, e1⟩⟩ := index_facts ⟨(i 0).val / 16000, hlt⟩
  have e0' : win2_6.index ⟨(i 0).val / 16000, hlt⟩ (0 : Fin 2) = (i 0).val / 16000 := e0
  rw [mem_blk]
  intro a
  match a with
  | ⟨0, _⟩ =>
    show win2_6.index ⟨(i 0).val / 16000, hlt⟩ (0 : Fin 2) * 16000 ≤ (i 0).val ∧ (i 0).val < win2_6.index ⟨(i 0).val / 16000, hlt⟩ (0 : Fin 2) * 16000 + 16000
    rw [e0']; omega
  | ⟨1, _⟩ =>
    show win2_6.index ⟨(i 0).val / 16000, hlt⟩ (1 : Fin 2) * 64 ≤ (i 1).val ∧ (i 1).val < win2_6.index ⟨(i 0).val / 16000, hlt⟩ (1 : Fin 2) * 64 + 64
    rw [e1]; omega

/-- The output table after the region, at an entry: relu([fs | fd] · Wp₁ + bp₁) · Wp₂ + bp₂ of the six tables as the
    region finds them. -/
theorem arr6 (c : Dev nD) (r : Fin 800000) (j : Fin 64) :
    ((dat2 (F := Ideal) V c).arrAt 6 cfg2.N : S800000x64.Idx → EReal) (ix2 r j)
      = Cert.Spec.edgeOut (V c main_v68) (V c main_v75) (V c main_v78) (V c main_v76) (V c main_v79) (V c main_v77) r j :=
  congrFun ((dat2 V c).arrAt_eq_of_cover 6
    (edgeTable (V c main_v68) (V c main_v75) (V c main_v78) (V c main_v76) (V c main_v79) (V c main_v77))
    (fun t _ => flushed_eq V c t) covered) (ix2 r j)

end Run

end Cert.KernelIdeal.Region2

end
-- ==== Proof.Reassoc.lean ====
/-
  Aggregating rows before or after a matrix product gives the same sums, when every entry is a real number.

  Over the extended reals a product does not distribute over a sum (∞ − ∞), so the statement is made for families whose
  entries are all real: there both sides are the same double sum over the selected edges e and the contracted index k of
  a e k · ν e · W k, read in the two orders.
-/
import Idealize.ShloMosaic.PureOps.Ideal

noncomputable section

open scoped BigOperators

namespace Cert.Reassoc

/-- The coercion of the reals into the extended reals commutes with finite sums. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- Rows scaled by ν, summed over the selected edges, then multiplied into the column W, against rows multiplied into W
    first, then scaled and summed: equal when all entries are real. Both sums start from a zero `z`. -/
theorem agg_dot {ι κ : Type} [Fintype ι] [Fintype κ] (P : ι → Prop) [DecidablePred P]
    (a : ι → κ → EReal) (ν : ι → EReal) (W : κ → EReal) (z : EReal) (hz : z = 0)
    (ha : ∀ e k, ∃ r : ℝ, a e k = (r : EReal)) (hν : ∀ e, ∃ r : ℝ, ν e = (r : EReal)) (hW : ∀ k, ∃ r : ℝ, W k = (r : EReal)) :
    ∑ k : κ, (z + ∑ e : ι, if P e then a e k * ν e else 0) * W k
      = z + ∑ e : ι, if P e then (∑ k : κ, a e k * W k) * ν e else 0 := by
  choose a' ha' using ha
  choose ν' hν' using hν
  choose W' hW' using hW
  subst hz
  have hl : ∀ k, (0 + ∑ e : ι, if P e then a e k * ν e else 0) * W k
      = ((∑ e : ι, if P e then a' e k * ν' e * W' k else 0 : ℝ) : EReal) := by
    intro k
    rw [zero_add, hW' k, coe_sum, ]
    have : (∑ e : ι, if P e then a e k * ν e else 0) = ((∑ e : ι, if P e then a' e k * ν' e else 0 : ℝ) : EReal) := by
      rw [coe_sum]
      refine Finset.sum_congr rfl fun e _ => ?_
      split_ifs
      · rw [ha' e k, hν' e, EReal.coe_mul]
      · rfl
    rw [this, ← EReal.coe_mul, Finset.sum_mul, coe_sum]
    refine Finset.sum_congr rfl fun e _ => ?_
    split_ifs <;> simp
  have hr : ∀ e, (if P e then (∑ k : κ, a e k * W k) * ν e else 0)
      = ((if P e then (∑ k : κ, a' e k * ν' e * W' k) else 0 : ℝ) : EReal) := by
    intro e
    split_ifs
    · have : (∑ k : κ, a e k * W k) = ((∑ k : κ, a' e k * W' k : ℝ) : EReal) := by
        rw [coe_sum]
        exact Finset.sum_congr rfl fun k _ => by rw [ha' e k, hW' k, EReal.coe_mul]
      rw [this, hν' e, ← EReal.coe_mul, Finset.sum_mul]
      congr 1
      exact Finset.sum_congr rfl fun k _ => by ring
    · rfl
  rw [Finset.sum_congr rfl fun k _ => hl k, zero_add, Finset.sum_congr rfl fun e _ => hr e, ← coe_sum, ← coe_sum]
  congr 1
  rw [Finset.sum_comm]
  refine Finset.sum_congr rfl fun e _ => ?_
  split_ifs <;> simp

end Cert.Reassoc

end
-- ==== Proof.LibScatterAddRows.lean ====
/-
  An accumulating float scatter of N whole rows into a two-axis table of K rows, read at an element, over the
  extended reals.

  `x.at[idx].add(upd)` of a table `x : [K, B]` with one row index per update (`idx : [N, 1]`, `upd : [N, B]`; also what
  `jax.ops.segment_sum` of a two-axis array lowers to) prints as a scatter whose first operand axis is inserted and
  indexed by the start index, and whose second operand axis is the update's one window axis. At the ideal instance
  the result at `(b, c)` is the operand's element plus the sum over the updates `i` whose index word, read as a signed
  integer, is `b`, of the update's element `(i, c)`; an update whose index is negative or at least K lands nowhere.

  The steps, each a lemma of its own. On the first operand axis the start of update element `(i, c')` is the signed
  index word of row `i` (`rowsDims_start0`) and the window coordinate is 0, the axis being inserted
  (`rowsDims_window0`); on the second axis the start is 0, the start index naming the first axis only
  (`rowsDims_start1`), and the window coordinate is `c'` (`rowsDims_window1`). So update element `(i, c')` lands on
  `(b, c)` exactly when the signed word of row `i` equals `b` and `c' = c` (`rowsDims_resultIdx?_eq_some_iff`). The sum
  over the update elements landing on `(b, c)`, written as a double sum over the coordinates (`sum_idx2`), then keeps
  one term of the inner sum, and what is left is a sum over the rows `i` alone.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-- The dimension numbers of a scatter of N rows into a table of K rows: operand `[K, B]`, indices `[N, 1]`,
    updates `[N, B]`. -/
abbrev rowsDims (K B N : Nat)
    (wf : ScatterDims.WF ⟨2, ![K, B]⟩ ⟨2, ![N, 1]⟩ ⟨2, ![N, B]⟩ [1] [0] [0] 1) :
    ScatterDims ⟨2, ![K, B]⟩ ⟨2, ![N, 1]⟩ ⟨2, ![N, B]⟩ where
  updateWindowDims := [1]
  insertedWindowDims := [0]
  scatterDimsToOperandDims := [0]
  indexVectorDim := 1
  wf := wf

/-- A property of the two axes holds of every axis once it holds of each. -/
theorem forall_axis2 {P : Fin 2 → Prop} (h0 : P 0) (h1 : P 1) : ∀ a, P a := by
  intro a
  match a with
  | ⟨0, _⟩ => exact h0
  | ⟨1, _⟩ => exact h1

/-- Two two-axis indices with the same two coordinates are equal. -/
theorem idx2_ext {n0 n1 : Nat} {f g : (⟨2, ![n0, n1]⟩ : Shape).Idx}
    (h0 : f 0 = g 0) (h1 : f 1 = g 1) : f = g := by
  rw [eq_ix2 f, eq_ix2 g, h0, h1]

/-- The operand's one axis that is not inserted is the second. -/
theorem rowsDims_sKept {K B N : Nat}
    (wf : ScatterDims.WF ⟨2, ![K, B]⟩ ⟨2, ![N, 1]⟩ ⟨2, ![N, B]⟩ [1] [0] [0] 1) :
    (rowsDims K B N wf).sKept = [1] := rfl

/-- The start of an update element on the first operand axis is the index word of its row, read as a signed integer:
    the start index's only component sits at `[j 0, 0]` of the scatter indices. -/
theorem rowsDims_start0 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 0 = (idx (ix2 (j 0) (0 : Fin 1))).toInt := by
  unfold ScatterDims.start
  rw [dif_pos (show (0 : Fin 2) ∈ (rowsDims K B N wf).scatterDimsToOperandDims from List.mem_singleton.mpr rfl)]
  have hsi : (rowsDims K B N wf).siIdx j ⟨List.idxOf (0 : Fin 2) (rowsDims K B N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The start index names the first operand axis only, so on the second axis every start is `0`. -/
theorem rowsDims_start1 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 1 = 0 := by
  unfold ScatterDims.start
  rw [dif_neg (show ¬ (1 : Fin 2) ∈ (rowsDims K B N wf).scatterDimsToOperandDims from
    fun h => absurd (List.mem_singleton.mp h) (by decide : ¬ (1 : Fin 2) = 0))]

/-- The first operand axis is an inserted window axis, so every update element's window coordinate on it is `0`. -/
theorem rowsDims_window0 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 0 = 0 := by
  unfold ScatterDims.window
  rw [dif_neg]
  rw [rowsDims_sKept]
  exact (by decide : ¬ (0 : Fin 2) ∈ [1])

/-- The second operand axis is the one kept axis, so the window coordinate on it is the update element's coordinate
    on its one window axis, the second. -/
theorem rowsDims_window1 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 1 = (j 1).val := by
  unfold ScatterDims.window
  rw [dif_pos (show (1 : Fin 2) ∈ (rowsDims K B N wf).sKept by
    rw [rowsDims_sKept]; exact (by decide : (1 : Fin 2) ∈ [1]))]
  rfl

/-- Update element `(i, c')` lands on `(b, c)` exactly when the index word of row `i`, read as a signed integer,
    is `b`, and `c' = c`: a word that is negative or at least `K` names no row of the operand, and the update
    is dropped. -/
theorem rowsDims_resultIdx?_eq_some_iff {K B N w : Nat}
    (wf : ScatterDims.WF ⟨2, ![K, B]⟩ ⟨2, ![N, 1]⟩ ⟨2, ![N, B]⟩ [1] [0] [0] 1)
    (idx : IVec ⟨2, ![N, 1]⟩ w) (i : Fin N) (c' : Fin B) (b : Fin K) (c : Fin B) :
    (rowsDims K B N wf).resultIdx? (ix2 i c') idx = some (ix2 b c)
      ↔ (idx (ix2 i (0 : Fin 1))).toInt = (b.val : Int) ∧ c' = c := by
  have hb : b.val < K := b.isLt
  have hc' : c'.val < B := c'.isLt
  have p0 : (rowsDims K B N wf).start (ix2 i c') idx 0 + ((rowsDims K B N wf).window (ix2 i c') 0 : Int)
      = (idx (ix2 i (0 : Fin 1))).toInt := by
    rw [rowsDims_start0, rowsDims_window0]; exact Int.add_zero _
  have p1 : (rowsDims K B N wf).start (ix2 i c') idx 1 + ((rowsDims K B N wf).window (ix2 i c') 1 : Int)
      = (c'.val : Int) := by
    rw [rowsDims_start1, rowsDims_window1]; exact Int.zero_add _
  unfold ScatterDims.resultIdx?
  split_ifs with h
  · rw [Option.some.injEq]
    constructor
    · intro e
      have e0 := congrArg (fun f => (f 0).val) e
      have e1 := congrArg (fun f => (f 1).val) e
      change ((rowsDims K B N wf).start (ix2 i c') idx 0
        + ((rowsDims K B N wf).window (ix2 i c') 0 : Int)).toNat = b.val at e0
      change ((rowsDims K B N wf).start (ix2 i c') idx 1
        + ((rowsDims K B N wf).window (ix2 i c') 1 : Int)).toNat = c.val at e1
      have h0 := (h 0).1
      rw [p0] at e0 h0
      rw [p1] at e1
      exact ⟨by omega, Fin.ext (by omega)⟩
    · rintro ⟨e, rfl⟩
      refine idx2_ext (Fin.ext ?_) (Fin.ext ?_)
      · change ((rowsDims K B N wf).start (ix2 i c') idx 0
          + ((rowsDims K B N wf).window (ix2 i c') 0 : Int)).toNat = b.val
        rw [p0]; omega
      · change ((rowsDims K B N wf).start (ix2 i c') idx 1
          + ((rowsDims K B N wf).window (ix2 i c') 1 : Int)).toNat = c'.val
        rw [p1]; omega
  · constructor
    · intro e; exact absurd e (by simp)
    · rintro ⟨e, rfl⟩
      exfalso
      apply h
      refine forall_axis2 ?_ ?_
      · rw [p0]
        change 0 ≤ (idx (ix2 i (0 : Fin 1))).toInt ∧ (idx (ix2 i (0 : Fin 1))).toInt < (K : Int)
        omega
      · rw [p1]
        change 0 ≤ (c'.val : Int) ∧ (c'.val : Int) < (B : Int)
        omega

/-- THE SUM OF ROWS AT `(b, c)`: the operand's element plus the sum, over the updates whose index word is `b`, of the
    update's element `(i, c)`. -/
theorem scatterAdd_rows_apply {K B N w : Nat}
    (wf : ScatterDims.WF ⟨2, ![K, B]⟩ ⟨2, ![N, 1]⟩ ⟨2, ![N, B]⟩ [1] [0] [0] 1)
    (x : (⟨2, ![K, B]⟩ : Shape).Idx → EReal) (idx : IVec ⟨2, ![N, 1]⟩ w)
    (upd : (⟨2, ![N, B]⟩ : Shape).Idx → EReal) (b : Fin K) (c : Fin B) :
    Ideal.hostScatterAdd (rowsDims K B N wf) x idx upd (ix2 b c)
      = x (ix2 b c) + ∑ i : Fin N, if (idx (ix2 i (0 : Fin 1))).toInt = (b.val : Int) then upd (ix2 i c) else 0 := by
  unfold Ideal.hostScatterAdd
  refine congrArg (x (ix2 b c) + ·) ?_
  rw [Finset.sum_filter, sum_idx2]
  refine Finset.sum_congr rfl fun i _ => ?_
  have hc : ∀ c' : Fin B, c' ≠ c →
      (if (rowsDims K B N wf).resultIdx? (ix2 i c') idx = some (ix2 b c)
        then upd (ix2 i c') else 0) = 0 := fun c' hc' =>
    if_neg fun h => hc' ((rowsDims_resultIdx?_eq_some_iff wf idx i c' b c).mp h).2
  rw [Fintype.sum_eq_single c hc]
  exact if_congr ((rowsDims_resultIdx?_eq_some_iff wf idx i c b c).trans
    ⟨fun h => h.1, fun h => ⟨h, rfl⟩⟩) rfl rfl

end Idealize.ShloMosaic.ScatterAddRows

end
-- ==== Proof.LibGatherRows.lean ====
/-
  A two-axis table gathered along its FIRST axis by a COLUMN of start indices, read at an index.

  `x[idx]` of `x : [N, B]` at `idx : [R]` lowers to a gather whose start indices are the `[R, 1]` column of `idx`
  and whose result `[R, B]` has one offset axis (the last, running over the table's second axis); the table's first
  axis is collapsed and indexed by the start index. The result element at `(r, b)` is the table's element at row
  `idx[r, 0]`, read as a signed integer and clamped into `[0, N - 1]`, and column `b`.
-/
import Idealize.ShloMosaic.Lib.ValueIdx

noncomputable section

namespace Idealize.ShloMosaic.GatherRows

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-- The dimension numbers of a take of whole rows by a column of start indices. -/
abbrev colDims (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- On the indexed axis the operand index is the clamped start index. -/
theorem col_axis0 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 0).val
      = min (idx (ix2 (j 0) (0 : Fin 1))).toInt.toNat (N - 1) := by
  show (colDims N B R wf).start j idx 0 + (colDims N B R wf).batchCoord j 0 + (colDims N B R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (colDims N B R wf).startIndexMap from List.mem_singleton.mpr rfl)]
  have hsi : (colDims N B R wf).siIdx j ⟨List.idxOf (0 : Fin 2) (colDims N B R wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the other axis it is the result's offset coordinate. -/
theorem col_axis1 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 1).val = (j 1).val := by
  show (colDims N B R wf).start j idx 1 + (colDims N B R wf).batchCoord j 1 + (colDims N B R wf).offCoord j 1 = _
  rw [GatherDims.batchCoord_eq_zero _ _ _ List.not_mem_nil]
  unfold GatherDims.start
  rw [dif_neg (show ¬ (1 : Fin 2) ∈ (colDims N B R wf).startIndexMap from
    fun h => absurd (List.mem_singleton.mp h) (by decide : ¬ (1 : Fin 2) = 0))]
  unfold GatherDims.offCoord
  rw [dif_pos (show (1 : Fin 2) ∈ (colDims N B R wf).sKept from
    (GatherDims.mem_sKept _ _).mpr ⟨fun h => absurd (List.mem_singleton.mp h) (by decide : ¬ (1 : Fin 2) = 0), List.not_mem_nil⟩)]
  simp only [Nat.zero_add, Nat.add_zero]
  rfl

/-- THE TAKE OF ROWS AT `(r, b)`: the table at row `idx[r, 0]` (signed, clamped) and column `b`. -/
theorem gather_col_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (j : (⟨2, ![R, B]⟩ : Shape).Idx) :
    Host.gather (colDims N B R wf) x idx j
      = x (ix2 (clampPos N hN (idx (ix2 (j 0) (0 : Fin 1)))) (j 1)) := by
  unfold Host.gather
  refine congrArg x (funext fun a => Fin.ext ?_)
  match a with
  | ⟨0, _⟩ => exact col_axis0 wf idx j
  | ⟨1, _⟩ => exact col_axis1 wf idx j

end Idealize.ShloMosaic.GatherRows

end
-- ==== Proof.Layer1.lean ====
/-
  The one place where the two programs differ in the order of their arithmetic.

  The kernel program aggregates the raw 128-wide features over the edge lists and then applies
  relu(· W₁ + b₁) · W₂ to the aggregate; the reference multiplies x by W₁ first, aggregates the 256-wide product,
  adds b₁, applies relu and multiplies by W₂. The two hidden tables agree entry by entry because aggregation
  (scale a row by the edge weight, add it into the target's row) is linear, and a sum exchanges with a matrix product
  over the extended reals once every entry involved is a real number: x and W₁ are by hypothesis, and an edge weight
  is a product of two values of where(deg > 0, rsqrt deg, 0), which is a real number whatever deg is.
-/
import proofs.«412903_j85804856639971_3_alg».proof.Proof.Stages
import proofs.«412903_j85804856639971_3_alg».proof.Proof.Spec
import proofs.«412903_j85804856639971_3_alg».proof.Proof.Reassoc
import proofs.«412903_j85804856639971_3_alg».proof.Proof.LibScatterAddRows
import proofs.«412903_j85804856639971_3_alg».proof.Proof.LibGatherRows
import proofs.«412903_j85804856639971_3_alg».proof.Proof.LibPlainDot
import Idealize.ShloMosaic.Lib.IdealHost
import Idealize.ShloMosaic.Lib.Pipeline.Value

noncomputable section

open scoped BigOperators

namespace Cert.Layer1

open Idealize.ShloMosaic Idealize.ShloMosaic.ValueIdx Idealize.ShloMosaic.ScatterAddRows Idealize.ShloMosaic.GatherRows
open Cert.ReferenceIdeal Cert.ReferenceIdeal.ReadP

/-! ## Every edge weight is a real number -/

/-- The inverse square root of a degree, with zero wherever the degree is not positive, is a real number whatever the
    degree is: at +∞ the inverse square root is 0, at a positive real it is a real, and everywhere else the zero is taken. -/
theorem dinv_real (deg : EReal) :
    ∃ q : ℝ, Scalar.select (Ideal.cmp .ogt deg (Ideal.ofBits .f32 0x00000000#32)) (Ideal.rsqrt deg)
      (Ideal.ofBits .f32 0x00000000#32) = (q : EReal) := by
  rw [Ideal.ofBits_zero_f32]
  unfold Scalar.select Ideal.cmp
  induction deg using EReal.rec with
  | bot => exact ⟨0, by simp⟩
  | top => exact ⟨0, by simp⟩
  | coe r =>
    by_cases hr : 0 < r
    · refine ⟨(Real.sqrt r)⁻¹, ?_⟩
      have h1 : ¬ r < 0 := not_lt.mpr hr.le
      have h2 : ¬ r = 0 := ne_of_gt hr
      have h3 : ((0 : EReal) < (r : EReal)) := by exact_mod_cast hr
      simp [Ideal.rsqrt_coe, h1, h2, h3]
    · refine ⟨0, ?_⟩
      have h3 : ¬ ((0 : EReal) < (r : EReal)) := by exact_mod_cast hr
      simp [h3]

/-! ## Aggregating a table of node rows, read at an entry -/

/-- Rows of X taken at the clamped source words, scaled by the edge weights and summed into the target rows of a table
    of zeros: entry (r, c) is the zero plus the sum over the list entries i whose target word is r of
    X(source i, c) · ν(i). -/
theorem agg_apply {K B N : Nat} (hK : 0 < K)
    (ws : ScatterDims.WF ⟨2, ![K, B]⟩ ⟨2, ![N, 1]⟩ ⟨2, ![N, B]⟩ [1] [0] [0] 1)
    (wg : GatherDims.WF ⟨2, ![K, B]⟩ ⟨2, ![N, 1]⟩ ⟨2, ![N, B]⟩ [1] [0] [] [0] [] 1 ![1, B])
    (hz : (⟨0, ![]⟩ : Shape).BroadcastsInDim ⟨2, ![K, B]⟩ ![])
    (hν : (⟨2, ![N, 1]⟩ : Shape).BroadcastsInDim ⟨2, ![N, B]⟩ ![0, 1])
    (X : FVec Ideal ⟨2, ![K, B]⟩ .f32) (didx sidx : IVec ⟨2, ![N, 1]⟩ 32) (ν : FVec Ideal ⟨2, ![N, 1]⟩ .f32)
    (r : Fin K) (c : Fin B) :
    Host.scatterAdd (rowsDims K B N ws)
        (broadcastInDim ⟨2, ![K, B]⟩ ![] hz (constant (F := Ideal) ⟨0, ![]⟩ .f32 0x00000000#32)) didx
        (mulf (Host.gather (colDims K B N wg) X sidx) (broadcastInDim ⟨2, ![N, B]⟩ ![0, 1] hν ν)) (ix2 r c)
      = Cert.Spec.z32 + ∑ i : Fin N, if (didx (ix2 i (0 : Fin 1))).toInt = (r.val : Int)
          then X (ix2 (clampPos K hK (sidx (ix2 i (0 : Fin 1)))) c) * ν (ix2 i (0 : Fin 1)) else 0 := by
  refine (scatterAdd_rows_apply ws _ didx _ r c).trans ?_
  refine congrArg₂ (· + ·) ?_ (Finset.sum_congr rfl fun i _ => if_congr Iff.rfl ?_ rfl)
  · exact broadcastInDim_scalar_apply hz _ (ix2 r c)
  · refine congrArg₂ (· * ·) (gather_col_apply hK wg X sidx (ix2 i c)) ?_
    exact broadcastInDim_apply _ hν ν (ix2 i c) (ix2 i (0 : Fin 1)) (fun a => match a with
      | ⟨0, _⟩ => by
          show i.val = if N = 1 then 0 else i.val
          split_ifs with h
          · have := i.isLt; omega
          · rfl
      | ⟨1, _⟩ => by show 0 = if (1 : Nat) = 1 then 0 else c.val; rw [if_pos rfl])

/-! ## The edge weights of this program are real numbers -/

/-- The normalising factor of a node is a real number. -/
theorem v15_real (e : (⟨S2x800000, .i32⟩ : BufTy).Contents (Elt Ideal)) (n : S50000.Idx) :
    ∃ q : ℝ, (val_main_v15 (F := Ideal) e : S50000.Idx → EReal) n = (q : EReal) := by
  rw [val_main_v15_apply, val_main_v13_apply, val_main_v14_apply, val_main_v12_apply, val_main_cst_1_apply,
    val_main_call0_v1_apply, val_main_call0_v0_apply, val_main_cst_2_apply]
  generalize (val_main_v11 (F := Ideal) e : S50000.Idx → EReal) n = d
  exact dinv_real d

/-- The factor of the node a list entry's source word names is a real number. -/
theorem v22_real (e : (⟨S2x800000, .i32⟩ : BufTy).Contents (Elt Ideal)) (i : S850000.Idx) :
    ∃ q : ℝ, (val_main_v22 (F := Ideal) e : S850000.Idx → EReal) i = (q : EReal) := by
  unfold val_main_v22 Host.gather
  exact v15_real e _

/-- The factor of the node a list entry's target word names is a real number. -/
theorem v29_real (e : (⟨S2x800000, .i32⟩ : BufTy).Contents (Elt Ideal)) (i : S850000.Idx) :
    ∃ q : ℝ, (val_main_v29 (F := Ideal) e : S850000.Idx → EReal) i = (q : EReal) := by
  unfold val_main_v29 Host.gather
  exact v15_real e _

/-- The weight of a list entry, the product of the factors of the two nodes it names, is a real number. -/
theorem v30_real (e : (⟨S2x800000, .i32⟩ : BufTy).Contents (Elt Ideal)) (i : S850000.Idx) :
    ∃ q : ℝ, (val_main_v30 (F := Ideal) e : S850000.Idx → EReal) i = (q : EReal) := by
  obtain ⟨p, hp⟩ := v22_real e i
  obtain ⟨q, hq⟩ := v29_real e i
  rw [val_main_v30_apply, hp, hq]
  exact ⟨p * q, (EReal.coe_mul p q).symm⟩

/-- The same weight read from the one-column table the aggregation broadcasts. -/
theorem nu_real (e : (⟨S2x800000, .i32⟩ : BufTy).Contents (Elt Ideal)) (i : Fin 850000) :
    ∃ q : ℝ, (val_main_v38 (F := Ideal) e : S850000x1.Idx → EReal) (ix2 i (0 : Fin 1)) = (q : EReal) := by
  rw [val_main_v38_apply]
  exact v30_real e _

/-! ## The two aggregates at an entry -/

/-- The node a list entry takes its row from: its source word read signed and clamped into the node range. -/
abbrev src (e : (⟨S2x800000, .i32⟩ : BufTy).Contents (Elt Ideal)) (i : Fin 850000) : Fin 50000 :=
  clampPos 50000 (by decide) ((val_main_v36 (F := Ideal) e : IVec S850000x1 32) (ix2 i (0 : Fin 1)))

/-- A list entry adds into row r exactly when its target word, read signed, is r. -/
abbrev hits (e : (⟨S2x800000, .i32⟩ : BufTy).Contents (Elt Ideal)) (r : Fin 50000) (i : Fin 850000) : Prop :=
  ((val_main_v42 (F := Ideal) e : IVec S850000x1 32) (ix2 i (0 : Fin 1))).toInt = (r.val : Int)

/-- The weight of a list entry. -/
abbrev nu (e : (⟨S2x800000, .i32⟩ : BufTy).Contents (Elt Ideal)) (i : Fin 850000) : EReal :=
  (val_main_v38 (F := Ideal) e : S850000x1.Idx → EReal) (ix2 i (0 : Fin 1))

/-- The aggregated raw features at (r, k). -/
theorem aggX_apply (x : (⟨S50000x128, .f32⟩ : BufTy).Contents (Elt Ideal)) (e : (⟨S2x800000, .i32⟩ : BufTy).Contents (Elt Ideal))
    (r : Fin 50000) (k : Fin 128) :
    (Cert.Stages.aggX (F := Ideal) x e : S50000x128.Idx → EReal) (ix2 r k)
      = Cert.Spec.z32 + ∑ i : Fin 850000, if hits e r i then x (ix2 (src e i) k) * nu e i else 0 := by
  unfold Cert.Stages.aggX
  exact agg_apply (by decide) _ _ _ _ x (val_main_v42 (F := Ideal) e) (val_main_v36 (F := Ideal) e)
    (val_main_v38 (F := Ideal) e) r k

/-- The reference's aggregate of the 256-wide product x · W₁ at (r, h). -/
theorem v43_apply (x : (⟨S50000x128, .f32⟩ : BufTy).Contents (Elt Ideal)) (e : (⟨S2x800000, .i32⟩ : BufTy).Contents (Elt Ideal))
    (w1 : (⟨S128x256, .f32⟩ : BufTy).Contents (Elt Ideal)) (r : Fin 50000) (h : Fin 256) :
    (val_main_v43 (F := Ideal) x e w1 : S50000x256.Idx → EReal) (ix2 r h)
      = Cert.Spec.z32 + ∑ i : Fin 850000,
          if hits e r i then (∑ k : Fin 128, x (ix2 (src e i) k) * w1 (ix2 k h)) * nu e i else 0 := by
  unfold val_main_v43 val_main_v41 val_main_cst_8 val_main_v40 val_main_v37 val_main_v39
  refine (agg_apply (by decide) _ _ _ _ (val_main_v4 (F := Ideal) x w1) (val_main_v42 (F := Ideal) e)
    (val_main_v36 (F := Ideal) e) (val_main_v38 (F := Ideal) e) r h).trans ?_
  refine congrArg (Cert.Spec.z32 + ·) (Finset.sum_congr rfl fun i _ => if_congr Iff.rfl ?_ rfl)
  refine congrArg (· * nu e i) ?_
  unfold val_main_v4
  exact Cert.LibPlainDot.dotGeneral_apply dot_S50000x128_S128x256_S50000x256_1_0_0_1_n_n rfl rfl rfl rfl rfl rfl
    none .single x w1 (src e i) h

/-! ## The first dense stage after the aggregation, against the aggregation after the first product -/

/-- Entry (r, h) of the hidden table: the kernel program's relu(aggX · W₁ + b₁) is the reference's
    relu(agg(x · W₁) + b₁), because aggregation is linear over real entries. -/
theorem hid_eq (x : (⟨S50000x128, .f32⟩ : BufTy).Contents (Elt Ideal)) (e : (⟨S2x800000, .i32⟩ : BufTy).Contents (Elt Ideal))
    (w1 : (⟨S128x256, .f32⟩ : BufTy).Contents (Elt Ideal)) (b1 : (⟨S256, .f32⟩ : BufTy).Contents (Elt Ideal))
    (hx : ∀ i, ∃ q : ℝ, x i = (q : EReal)) (hw : ∀ i, ∃ q : ℝ, w1 i = (q : EReal)) (r : Fin 50000) (h : Fin 256) :
    Cert.Spec.hid (Cert.Stages.aggX (F := Ideal) x e) w1
        (shapeCast Cert.KernelIdeal.S1x256 b1 Cert.KernelIdeal.Gen.shapeCasts_S256_S1x256) r h
      = (val_main_v47 (F := Ideal) x e w1 b1 : S50000x256.Idx → EReal) (ix2 r h) := by
  unfold Cert.Spec.hid
  rw [val_main_v47_apply, val_main_v46_apply, val_main_call1_v0_apply, val_main_call1_cst_apply, val_main_v45_apply,
    val_main_v44_apply, v43_apply, Ideal.maximumf_def, Ideal.addf_def, Ideal.ofBits_def]
  refine congrArg₂ max (congrArg₂ (· + ·) ?_ ?_) rfl
  · refine (Finset.sum_congr rfl fun k _ => congrArg (· * w1 (ix2 k h)) (aggX_apply x e r k)).trans ?_
    exact Cert.Reassoc.agg_dot (hits e r) (fun i k => x (ix2 (src e i) k)) (nu e) (fun k => w1 (ix2 k h))
      Cert.Spec.z32 Ideal.ofBits_zero_f32 (fun i k => hx _) (nu_real e) (fun k => hw _)
  · refine shapeCast_apply b1 Cert.KernelIdeal.Gen.shapeCasts_S256_S1x256 (ix2 (0 : Fin 1) h)
      (idx_main_v44 (idx_main_v45 (ix2 r h))) ?_
    rewrite [Shape.rowMajor_val_two, Shape.rowMajor_val_one]
    show h.val = 0 * 256 + h.val
    omega

/-- THE EXCHANGE. Entry (r, j) of relu(aggX · W₁ + b₁) · W₂, the kernel program's projected table, is the reference's
    projected table at (r, j). -/
theorem dense2_aggX (x : (⟨S50000x128, .f32⟩ : BufTy).Contents (Elt Ideal)) (e : (⟨S2x800000, .i32⟩ : BufTy).Contents (Elt Ideal))
    (w1 : (⟨S128x256, .f32⟩ : BufTy).Contents (Elt Ideal)) (b1 : (⟨S256, .f32⟩ : BufTy).Contents (Elt Ideal))
    (w2 : (⟨S256x64, .f32⟩ : BufTy).Contents (Elt Ideal))
    (hx : ∀ i, ∃ q : ℝ, x i = (q : EReal)) (hw : ∀ i, ∃ q : ℝ, w1 i = (q : EReal)) (r : Fin 50000) (j : Fin 64) :
    Cert.Spec.dense2 (Cert.Stages.aggX (F := Ideal) x e) w1
        (shapeCast Cert.KernelIdeal.S1x256 b1 Cert.KernelIdeal.Gen.shapeCasts_S256_S1x256) w2 r j
      = val_main_v48 (F := Ideal) x e w1 b1 w2 (ValueIdx.ix2 r j) := by
  unfold Cert.Spec.dense2 val_main_v48
  refine Eq.trans ?_ (Cert.LibPlainDot.dotGeneral_apply dot_S50000x256_S256x64_S50000x64_1_0_0_1_n_n rfl rfl rfl rfl rfl rfl
    none .single (val_main_v47 (F := Ideal) x e w1 b1) w2 r j).symm
  exact Finset.sum_congr rfl fun h _ => congrArg (· * w2 (ix2 h j)) (hid_eq x e w1 b1 hx hw r h)

end Cert.Layer1

end
-- ==== Proof.RefStages.lean ====
/-
  The reference's three results as functions of its feature table.

  The reference's feature table is its second aggregate plus the bias row (`featRef`); its class scores are that table
  times W_c plus b_c (`scoresRef`); an edge's output row is relu([f(src) | f(dst)] · Wp₁ + bp₁) · Wp₂ + bp₂, the rows of
  the feature table f taken at the edge's two ends (`edgeRef`). Each of the reference's result stages is one of these
  of the stages before it, by unfolding.
-/
import proofs.«412903_j85804856639971_3_alg».proof.Proof.Stages

noncomputable section

namespace Cert.Stages

open Cert.ReferenceIdeal Cert.ReferenceIdeal.Gen Cert.ReferenceIdeal.ReadP Idealize.ShloMosaic Idealize.ShloMosaic.TcCoe

variable {F : FTy → Type} [FloatOps F]

/-- A node table plus the bias row b₂ on every row. -/
def featRef (A : (⟨S50000x64, .f32⟩ : BufTy).Contents (Elt F)) (b2 : (⟨S64, .f32⟩ : BufTy).Contents (Elt F)) :
    (⟨S50000x64, .f32⟩ : BufTy).Contents (Elt F) :=
  addf A (val_main_v89 (F := F) b2)

/-- The class scores of a feature table: f · W_c + b_c. -/
def scoresRef (f : (⟨S50000x64, .f32⟩ : BufTy).Contents (Elt F)) (wc : (⟨S64x40, .f32⟩ : BufTy).Contents (Elt F))
    (bc : (⟨S40, .f32⟩ : BufTy).Contents (Elt F)) : (⟨S50000x40, .f32⟩ : BufTy).Contents (Elt F) :=
  addf (Host.dotGeneral dot_S50000x64_S64x40_S50000x40_1_0_0_1_n_n none f wc) (val_main_v117 (F := F) bc)

/-- The edge rows of a feature table: relu([f(src) | f(dst)] · Wp₁ + bp₁) · Wp₂ + bp₂. -/
def edgeRef (f : (⟨S50000x64, .f32⟩ : BufTy).Contents (Elt F)) (e : (⟨S2x800000, .i32⟩ : BufTy).Contents (Elt F))
    (wp1 : (⟨S128x256, .f32⟩ : BufTy).Contents (Elt F)) (bp1 : (⟨S256, .f32⟩ : BufTy).Contents (Elt F))
    (wp2 : (⟨S256x64, .f32⟩ : BufTy).Contents (Elt F)) (bp2 : (⟨S64, .f32⟩ : BufTy).Contents (Elt F)) :
    (⟨S800000x64, .f32⟩ : BufTy).Contents (Elt F) :=
  addf (Host.dotGeneral dot_S800000x256_S256x64_S800000x64_1_0_0_1_n_n none
      (maximumf (addf (Host.dotGeneral dot_S800000x128_S128x256_S800000x256_1_0_0_1_n_n none
          (concatenate S800000x128 1 [⟨S800000x64, takeSrc f e⟩, ⟨S800000x64, takeDst f e⟩] concatenates_S800000x64_S800000x64_S800000x128_d1) wp1)
        (val_main_v108 (F := F) bp1)) (val_main_call3_v0 (F := F))) wp2)
    (val_main_v113 (F := F) bp2)

section
variable (x0 : (⟨S50000x128, .f32⟩ : BufTy).Contents (Elt F)) (x1 : (⟨S2x800000, .i32⟩ : BufTy).Contents (Elt F))
  (x2 : (⟨S128x256, .f32⟩ : BufTy).Contents (Elt F)) (x3 : (⟨S256, .f32⟩ : BufTy).Contents (Elt F))
  (x4 : (⟨S256x64, .f32⟩ : BufTy).Contents (Elt F)) (x5 : (⟨S64, .f32⟩ : BufTy).Contents (Elt F))
  (x6 : (⟨S128x256, .f32⟩ : BufTy).Contents (Elt F)) (x7 : (⟨S256, .f32⟩ : BufTy).Contents (Elt F))
  (x8 : (⟨S256x64, .f32⟩ : BufTy).Contents (Elt F)) (x9 : (⟨S64, .f32⟩ : BufTy).Contents (Elt F))
  (x10 : (⟨S64x40, .f32⟩ : BufTy).Contents (Elt F)) (x11 : (⟨S40, .f32⟩ : BufTy).Contents (Elt F))

/-- The reference's feature table is `featRef` of its second aggregate. -/
theorem v90_eq : val_main_v90 (F := F) x0 x1 x2 x3 x4 x5 = featRef (agg64 (val_main_v48 (F := F) x0 x1 x2 x3 x4) x1) x5 := rfl

/-- The reference's class scores are `scoresRef` of its feature table. -/
theorem v118_eq : val_main_v118 (F := F) x0 x1 x2 x3 x4 x5 x10 x11 = scoresRef (val_main_v90 (F := F) x0 x1 x2 x3 x4 x5) x10 x11 := rfl

/-- The reference's edge rows are `edgeRef` of its feature table. -/
theorem v114_eq : val_main_v114 (F := F) x0 x1 x2 x3 x4 x5 x6 x7 x8 x9 = edgeRef (val_main_v90 (F := F) x0 x1 x2 x3 x4 x5) x1 x6 x7 x8 x9 := rfl
end

end Cert.Stages

end
-- ==== Proof.Heads.lean ====
/-
  The feature table and the class scores: each closed form against the reference's stages, entry by entry.

  From a 64-wide node table X both programs form the feature table X + b₂ (the bias added to every row) and the class
  scores (X + b₂) · W_c + b_c. The closed forms read a bias through a one-row table, entry (0, j) of which is b(j); the
  reference repeats that row down all 50000 rows, so its entry (r, j) is b(j) as well. The product of the 50000 × 64
  feature table with the 64 × 40 table W_c read at (r, q) is the sum over j of the feature row's entry j times
  W_c(j, q). With these the two sides are the same sum, term by term.
-/
import proofs.«412903_j85804856639971_3_alg».proof.Proof.RefStages
import proofs.«412903_j85804856639971_3_alg».proof.Proof.Spec
import proofs.«412903_j85804856639971_3_alg».proof.Proof.LibPlainDot
import Idealize.ShloMosaic.Lib.ValueLayout

noncomputable section

open scoped BigOperators

namespace Cert.Heads

open Cert.ReferenceIdeal Cert.ReferenceIdeal.Gen Cert.ReferenceIdeal.ReadP Cert.Stages Idealize.ShloMosaic Idealize.ShloMosaic.ValueIdx

/-! ## The bias rows -/

/-- The reference lays b₂ out as one row and repeats it down 50000 rows: entry (r, j) is b₂(j). -/
theorem featBias_apply (b2 : (⟨S64, .f32⟩ : BufTy).Contents (Elt Ideal)) (r : Fin 50000) (j : Fin 64) :
    val_main_v89 (F := Ideal) b2 (ix2 r j) = b2 (ix1 j) := by
  rw [val_main_v89_apply, val_main_v88_apply]
  exact congrArg b2 (funext fun a => match a with | ⟨0, _⟩ => rfl)

/-- The class bias b_c repeated down 50000 rows: entry (r, q) is b_c(q). -/
theorem scoreBias_apply (bc : (⟨S40, .f32⟩ : BufTy).Contents (Elt Ideal)) (r : Fin 50000) (q : Fin 40) :
    val_main_v117 (F := Ideal) bc (ix2 r q) = bc (ix1 q) := by
  rw [val_main_v117_apply, val_main_v116_apply]
  exact congrArg bc (funext fun a => match a with | ⟨0, _⟩ => rfl)

/-! ## The feature table and the class scores -/

/-- Entry (r, j) of the feature table: X(r, j) + b₂(j) on both sides. -/
theorem biased_eq (X : (⟨S50000x64, .f32⟩ : BufTy).Contents (Elt Ideal)) (b2 : (⟨S64, .f32⟩ : BufTy).Contents (Elt Ideal))
    (r : Fin 50000) (j : Fin 64) :
    Cert.Spec.biased X (shapeCast Cert.KernelIdeal.S1x64 b2 Cert.KernelIdeal.Gen.shapeCasts_S64_S1x64) r j
      = Cert.Stages.featRef (F := Ideal) X b2 (ix2 r j) := by
  unfold Cert.Spec.biased Cert.Stages.featRef
  show X (ix2 r j) + _ = X (ix2 r j) + val_main_v89 (F := Ideal) b2 (ix2 r j)
  rw [featBias_apply, shapeCast_a_1a_apply]

/-- Entry (r, q) of the class scores: the sum over j of (X(r, j) + b₂(j)) · W_c(j, q), plus b_c(q), on both sides. -/
theorem scores_eq (X : (⟨S50000x64, .f32⟩ : BufTy).Contents (Elt Ideal)) (b2 : (⟨S64, .f32⟩ : BufTy).Contents (Elt Ideal))
    (wc : (⟨S64x40, .f32⟩ : BufTy).Contents (Elt Ideal)) (bc : (⟨S40, .f32⟩ : BufTy).Contents (Elt Ideal))
    (r : Fin 50000) (q : Fin 40) :
    Cert.Spec.scores X (shapeCast Cert.KernelIdeal.S1x64 b2 Cert.KernelIdeal.Gen.shapeCasts_S64_S1x64) wc
        (shapeCast Cert.KernelIdeal.S1x40 bc Cert.KernelIdeal.Gen.shapeCasts_S40_S1x40) r q
      = Cert.Stages.scoresRef (F := Ideal) (Cert.Stages.featRef X b2) wc bc (ix2 r q) := by
  unfold Cert.Spec.scores Cert.Stages.scoresRef
  show _ = FloatOps.dotGeneral (F := Ideal) dot_S50000x64_S64x40_S50000x40_1_0_0_1_n_n none .single
      (Cert.Stages.featRef (F := Ideal) X b2) wc (ix2 r q)
    + val_main_v117 (F := Ideal) bc (ix2 r q)
  rw [Cert.LibPlainDot.dotGeneral_apply (M := 50000) (K := 64) (N := 40) dot_S50000x64_S64x40_S50000x40_1_0_0_1_n_n
      rfl rfl rfl rfl rfl rfl none .single (Cert.Stages.featRef (F := Ideal) X b2) wc r q,
    scoreBias_apply, shapeCast_a_1a_apply]
  refine congrArg (· + bc (ix1 q)) (Finset.sum_congr rfl fun j _ => ?_)
  rw [biased_eq]

end Cert.Heads

end
-- ==== Proof.HeadEdge.lean ====
/-
  The edge stage's closed form against the reference's edge stage, entry by entry.

  Both sides take rows of the feature table at the edges' two ends through the same gather, and rounding the table to the
  narrower format first changes nothing at the ideal values, so the two joined rows agree entry by entry. Both products are
  the plain sum over the contraction index. The closed form reads a bias vector b through its reshape to a one-row table,
  entry (0, h) of which is b h; the reference broadcasts b to a one-row table and then to every row, entry (r, h) of which
  is b h again. The relu's zero is the same word on both sides.
-/
import proofs.«412903_j85804856639971_3_alg».proof.Proof.RefStages
import proofs.«412903_j85804856639971_3_alg».proof.Proof.Spec
import proofs.«412903_j85804856639971_3_alg».proof.Proof.LibPlainDot
import proofs.«412903_j85804856639971_3_alg».proof.Proof.LibConcatCols
import Idealize.ShloMosaic.Lib.Pipeline.Value
import Idealize.ShloMosaic.Lib.ValueIdx
import Idealize.ShloMosaic.Lib.ValueLayout

noncomputable section

open scoped BigOperators

namespace Cert.Heads

open Cert.ReferenceIdeal Cert.ReferenceIdeal.Gen Cert.ReferenceIdeal.ReadP Idealize.ShloMosaic Idealize.ShloMosaic.TcCoe
open Idealize.ShloMosaic.ValueIdx

/-- Two n × 64 tables joined along columns, read at an entry: the joined row of the specification. -/
theorem concat_eq_pair {n : Nat} (x0 x1 : Cert.Spec.Tab n 64)
    (hc : Shape.Concatenates [(⟨2, ![n, 64]⟩ : Shape), ⟨2, ![n, 64]⟩] ⟨2, ![n, 128]⟩ 1) (p : Fin n) (k : Fin 128) :
    concatenate ⟨2, ![n, 128]⟩ 1 [⟨⟨2, ![n, 64]⟩, x0⟩, ⟨⟨2, ![n, 64]⟩, x1⟩] hc (ix2 p k) = Cert.Spec.pair x0 x1 p k := by
  unfold Cert.Spec.pair
  split
  · rename_i h
    exact Cert.LibConcatCols.concat_left x0 x1 hc p ⟨k.val, h⟩ k.isLt
  · rename_i h
    have e : k = ⟨64 + (k.val - 64), by omega⟩ := Fin.ext (by show k.val = 64 + (k.val - 64); omega)
    refine (congrArg (fun q : Fin 128 => concatenate ⟨2, ![n, 128]⟩ 1 [⟨⟨2, ![n, 64]⟩, x0⟩, ⟨⟨2, ![n, 64]⟩, x1⟩] hc (ix2 p q)) e).trans ?_
    exact Cert.LibConcatCols.concat_right x0 x1 hc p ⟨k.val - 64, by omega⟩ (by show 64 + (k.val - 64) < 128; omega)

/-- The first bias vector read through its reshape to a one-row table is the reference's broadcast of it to every row. -/
theorem bias1_eq (bp1 : (⟨S256, .f32⟩ : BufTy).Contents (Elt Ideal)) (r : Fin 800000) (h : Fin 256) :
    shapeCast Cert.KernelIdeal.S1x256 bp1 Cert.KernelIdeal.Gen.shapeCasts_S256_S1x256 (ix2 (0 : Fin 1) h)
      = val_main_v108 (F := Ideal) bp1 (ix2 r h) := by
  have hi : (ix1 h : S256.Idx) = idx_main_v107 (idx_main_v108 (ix2 r h)) := funext fun a => match a with | ⟨0, _⟩ => rfl
  exact (shapeCast_a_1a_apply bp1 Cert.KernelIdeal.Gen.shapeCasts_S256_S1x256 0 h).trans
    ((congrArg bp1 hi).trans
      ((val_main_v108_apply (F := Ideal) bp1 (ix2 r h)).trans (val_main_v107_apply (F := Ideal) bp1 _)).symm)

/-- The second bias vector likewise. -/
theorem bias2_eq (bp2 : (⟨S64, .f32⟩ : BufTy).Contents (Elt Ideal)) (r : Fin 800000) (j : Fin 64) :
    shapeCast Cert.KernelIdeal.S1x64 bp2 Cert.KernelIdeal.Gen.shapeCasts_S64_S1x64 (ix2 (0 : Fin 1) j)
      = val_main_v113 (F := Ideal) bp2 (ix2 r j) := by
  have hi : (ix1 j : S64.Idx) = idx_main_v112 (idx_main_v113 (ix2 r j)) := funext fun a => match a with | ⟨0, _⟩ => rfl
  exact (shapeCast_a_1a_apply bp2 Cert.KernelIdeal.Gen.shapeCasts_S64_S1x64 0 j).trans
    ((congrArg bp2 hi).trans
      ((val_main_v113_apply (F := Ideal) bp2 (ix2 r j)).trans (val_main_v112_apply (F := Ideal) bp2 _)).symm)

/-- The closed form of the edge stage, at the feature table rounded to the narrower format and the biases as one-row
    tables, is the reference's edge stage at every entry. -/
theorem edge_eq (f : (⟨S50000x64, .f32⟩ : BufTy).Contents (Elt Ideal)) (e : (⟨S2x800000, .i32⟩ : BufTy).Contents (Elt Ideal))
    (wp1 : (⟨S128x256, .f32⟩ : BufTy).Contents (Elt Ideal)) (bp1 : (⟨S256, .f32⟩ : BufTy).Contents (Elt Ideal))
    (wp2 : (⟨S256x64, .f32⟩ : BufTy).Contents (Elt Ideal)) (bp2 : (⟨S64, .f32⟩ : BufTy).Contents (Elt Ideal))
    (r : Fin 800000) (j : Fin 64) :
    Cert.Spec.edgeOut (n := 800000)
        (Cert.Stages.takeSrc (F := Ideal) (ε := .bf16) (truncf (F := Ideal) .bf16 f Cert.KernelIdeal.Gen.bitsLt_bf16_f32) e)
        (Cert.Stages.takeDst (F := Ideal) (ε := .bf16) (truncf (F := Ideal) .bf16 f Cert.KernelIdeal.Gen.bitsLt_bf16_f32) e)
        (truncf (F := Ideal) .bf16 wp1 Cert.KernelIdeal.Gen.bitsLt_bf16_f32)
        (shapeCast Cert.KernelIdeal.S1x256 bp1 Cert.KernelIdeal.Gen.shapeCasts_S256_S1x256)
        (truncf (F := Ideal) .bf16 wp2 Cert.KernelIdeal.Gen.bitsLt_bf16_f32)
        (shapeCast Cert.KernelIdeal.S1x64 bp2 Cert.KernelIdeal.Gen.shapeCasts_S64_S1x64) r j
      = Cert.Stages.edgeRef (F := Ideal) f e wp1 bp1 wp2 bp2 (ValueIdx.ix2 r j) := by
  have hs : Cert.Stages.takeSrc (F := Ideal) (ε := .bf16) (truncf (F := Ideal) .bf16 f Cert.KernelIdeal.Gen.bitsLt_bf16_f32) e
      = Cert.Stages.takeSrc (F := Ideal) (ε := .f32) f e := rfl
  have hd : Cert.Stages.takeDst (F := Ideal) (ε := .bf16) (truncf (F := Ideal) .bf16 f Cert.KernelIdeal.Gen.bitsLt_bf16_f32) e
      = Cert.Stages.takeDst (F := Ideal) (ε := .f32) f e := rfl
  rw [hs, hd]
  unfold Cert.Spec.edgeOut Cert.Stages.edgeRef
  refine congrArg₂ (· + ·) ?_ (bias2_eq bp2 r j)
  refine Eq.trans ?_ (Cert.LibPlainDot.dotGeneral_apply dot_S800000x256_S256x64_S800000x64_1_0_0_1_n_n rfl rfl rfl rfl rfl rfl none .single _ wp2 r j).symm
  refine Finset.sum_congr rfl fun h _ => ?_
  refine congrArg (· * wp2 (ix2 h j)) ?_
  unfold Cert.Spec.edgeHid
  refine congrArg₂ max ?_ (val_main_call3_v0_apply (F := Ideal) (ix2 r h)).symm
  refine congrArg₂ (· + ·) ?_ (bias1_eq bp1 r h)
  refine Eq.trans ?_ (Cert.LibPlainDot.dotGeneral_apply dot_S800000x128_S128x256_S800000x256_1_0_0_1_n_n rfl rfl rfl rfl rfl rfl none .single _ wp1 r h).symm
  refine Finset.sum_congr rfl fun k _ => ?_
  refine congrArg (· * wp1 (ix2 k h)) ?_
  exact (concat_eq_pair (Cert.Stages.takeSrc (F := Ideal) (ε := .f32) f e) (Cert.Stages.takeDst (F := Ideal) (ε := .f32) f e)
    concatenates_S800000x64_S800000x64_S800000x128_d1 r k).symm

end Cert.Heads

end
-- ==== Proof.Bridge.lean ====
/-
  The kernel program's three results are the reference's three result stages of the argument arrays.

  Walking the kernel program's boundaries: the first region's output is relu(a · W₁ + b₁) · W₂ of the aggregated raw
  features a, which is the reference's projected table because aggregation commutes with the product by W₁ when x and
  W₁ hold real numbers (Layer1); the second region adds the bias row to the aggregate of that table — the reference's
  feature table — and multiplies it into the class scores; the last region applies the edge stage to the feature rows
  at the edges' ends, the narrow-format conversions being the identity at the ideal values.
-/
import proofs.«412903_j85804856639971_3_alg».proof.Proof.KernelFold
import proofs.«412903_j85804856639971_3_alg».proof.Proof.Region0
import proofs.«412903_j85804856639971_3_alg».proof.Proof.Region1
import proofs.«412903_j85804856639971_3_alg».proof.Proof.Region2
import proofs.«412903_j85804856639971_3_alg».proof.Proof.Layer1
import proofs.«412903_j85804856639971_3_alg».proof.Proof.Heads
import proofs.«412903_j85804856639971_3_alg».proof.Proof.HeadEdge
import proofs.«412903_j85804856639971_3_alg».proof.Proof.RefStages

set_option maxRecDepth 16384

noncomputable section

namespace Cert.Bridge

open Cert.KernelIdeal Cert.KernelIdeal.Gen Cert.KernelIdeal.Fold Idealize.ShloMosaic Idealize.ShloMosaic.TcCoe Idealize.ShloMosaic.ValueIdx Idealize.SL.Sem
open Cert.ReferenceIdeal.ReadP (val_main_v48 val_main_v90 val_main_v114 val_main_v118)

variable (m : (ℓ : Loc nD τ sig) → Buf (Elt Ideal) ℓ) (ρ : Dev nD → PrngReg)

/-- The first region's output array is the reference's projected table. -/
theorem proj_eq
    (hx : ∀ (c : Dev nD) (i : S50000x128.Idx), ∃ q : ℝ, (m ((c : Thread nD τ).loc main_arg0) : S50000x128.Idx → EReal) i = (q : EReal))
    (hw : ∀ (c : Dev nD) (i : S128x256.Idx), ∃ q : ℝ, (m ((c : Thread nD τ).loc main_arg2) : S128x256.Idx → EReal) i = (q : EReal))
    (c : Dev nD) :
    ((dat0 (F := Ideal) (V3 m ρ) c).arrAt 4 cfg0.N : S50000x64.Idx → EReal)
      = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨r, j, rfl⟩ : ∃ (r : Fin 50000) (j : Fin 64), i = ix2 r j := ⟨i 0, i 1, eq_ix2 i⟩
  rw [Cert.KernelIdeal.Region0.arr4 (V3 m ρ) c r j]
  rw [show V3 m ρ c main_v42 = Cert.Stages.aggX (F := Ideal) (m ((c : Thread nD τ).loc main_arg0)) (m ((c : Thread nD τ).loc main_arg1)) from W3_v42 m ρ c,
    show V3 m ρ c main_arg2 = (m ((c : Thread nD τ).loc main_arg2)) from W3_arg2 m ρ c,
    show V3 m ρ c main_v43 = shapeCast S1x256 (m ((c : Thread nD τ).loc main_arg3)) shapeCasts_S256_S1x256 from W3_v43 m ρ c,
    show V3 m ρ c main_arg4 = (m ((c : Thread nD τ).loc main_arg4)) from W3_arg4 m ρ c]
  exact Cert.Layer1.dense2_aggX _ _ _ _ _ (hx c) (hw c) r j

/-- The second region's first output array is the reference's feature table. -/
theorem feat_eq
    (hx : ∀ (c : Dev nD) (i : S50000x128.Idx), ∃ q : ℝ, (m ((c : Thread nD τ).loc main_arg0) : S50000x128.Idx → EReal) i = (q : EReal))
    (hw : ∀ (c : Dev nD) (i : S128x256.Idx), ∃ q : ℝ, (m ((c : Thread nD τ).loc main_arg2) : S128x256.Idx → EReal) i = (q : EReal))
    (c : Dev nD) :
    ((dat1 (F := Ideal) (V5 m ρ) c).arrAt 4 cfg1.N : S50000x64.Idx → EReal) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨r, j, rfl⟩ : ∃ (r : Fin 50000) (j : Fin 64), i = ix2 r j := ⟨i 0, i 1, eq_ix2 i⟩
  rw [Cert.KernelIdeal.Region1.arr4 (V5 m ρ) c r j]
  rw [show V5 m ρ c main_v57 = Cert.Stages.agg64 (F := Ideal) ((dat0 (V3 m ρ) c).arrAt 4 cfg0.N) (m ((c : Thread nD τ).loc main_arg1)) from W5_v57 m ρ c,
    show V5 m ρ c main_v58 = shapeCast S1x64 (m ((c : Thread nD τ).loc main_arg5)) shapeCasts_S64_S1x64 from W5_v58 m ρ c,
    proj_eq m ρ hx hw c]
  exact (Cert.Heads.biased_eq _ _ r j).trans (congrFun (Cert.Stages.v90_eq (F := Ideal) _ _ _ _ _ _).symm (ix2 r j))

/-- The second region's second output array is the reference's class scores. -/
theorem scores_eq
    (hx : ∀ (c : Dev nD) (i : S50000x128.Idx), ∃ q : ℝ, (m ((c : Thread nD τ).loc main_arg0) : S50000x128.Idx → EReal) i = (q : EReal))
    (hw : ∀ (c : Dev nD) (i : S128x256.Idx), ∃ q : ℝ, (m ((c : Thread nD τ).loc main_arg2) : S128x256.Idx → EReal) i = (q : EReal))
    (c : Dev nD) :
    ((dat1 (F := Ideal) (V5 m ρ) c).arrAt 5 cfg1.N : S50000x40.Idx → EReal)
      = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  funext i
  obtain ⟨r, q, rfl⟩ : ∃ (r : Fin 50000) (q : Fin 40), i = ix2 r q := ⟨i 0, i 1, eq_ix2 i⟩
  rw [Cert.KernelIdeal.Region1.arr5 (V5 m ρ) c r q]
  rw [show V5 m ρ c main_v57 = Cert.Stages.agg64 (F := Ideal) ((dat0 (V3 m ρ) c).arrAt 4 cfg0.N) (m ((c : Thread nD τ).loc main_arg1)) from W5_v57 m ρ c,
    show V5 m ρ c main_v58 = shapeCast S1x64 (m ((c : Thread nD τ).loc main_arg5)) shapeCasts_S64_S1x64 from W5_v58 m ρ c,
    show V5 m ρ c main_arg10 = (m ((c : Thread nD τ).loc main_arg10)) from W5_arg10 m ρ c,
    show V5 m ρ c main_v59 = shapeCast S1x40 (m ((c : Thread nD τ).loc main_arg11)) shapeCasts_S40_S1x40 from W5_v59 m ρ c,
    proj_eq m ρ hx hw c]
  exact (Cert.Heads.scores_eq _ _ _ _ r q).trans (congrFun ((Cert.Stages.v118_eq (F := Ideal) _ _ _ _ _ _ _ _).trans
    (congrArg (fun f => Cert.Stages.scoresRef (F := Ideal) f _ _) (Cert.Stages.v90_eq (F := Ideal) _ _ _ _ _ _))).symm (ix2 r q))

set_option maxHeartbeats 1000000 in
/-- The last region's output array is the reference's edge rows. -/
theorem edge_eq
    (hx : ∀ (c : Dev nD) (i : S50000x128.Idx), ∃ q : ℝ, (m ((c : Thread nD τ).loc main_arg0) : S50000x128.Idx → EReal) i = (q : EReal))
    (hw : ∀ (c : Dev nD) (i : S128x256.Idx), ∃ q : ℝ, (m ((c : Thread nD τ).loc main_arg2) : S128x256.Idx → EReal) i = (q : EReal))
    (c : Dev nD) :
    ((dat2 (F := Ideal) (V7 m ρ) c).arrAt 6 cfg2.N : S800000x64.Idx → EReal)
      = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨r, j, rfl⟩ : ∃ (r : Fin 800000) (j : Fin 64), i = ix2 r j := ⟨i 0, i 1, eq_ix2 i⟩
  rw [Cert.KernelIdeal.Region2.arr6 (V7 m ρ) c r j]
  rw [show V7 m ρ c main_v68 = _ from W7_v68 m ρ c,
    show V7 m ρ c main_v75 = _ from W7_v75 m ρ c,
    show V7 m ρ c main_v78 = _ from W7_v78 m ρ c,
    show V7 m ρ c main_v76 = shapeCast S1x256 (m ((c : Thread nD τ).loc main_arg7)) shapeCasts_S256_S1x256 from W7_v76 m ρ c,
    show V7 m ρ c main_v79 = _ from W7_v79 m ρ c,
    show V7 m ρ c main_v77 = shapeCast S1x64 (m ((c : Thread nD τ).loc main_arg9)) shapeCasts_S64_S1x64 from W7_v77 m ρ c,
    feat_eq m ρ hx hw c]
  exact (Cert.Heads.edge_eq _ _ _ _ _ _ r j).trans (congrFun (Cert.Stages.v114_eq (F := Ideal) _ _ _ _ _ _ _ _ _ _).symm (ix2 r j))

/-- At the return the three result arrays hold the reference's three result stages of the argument arrays. -/
theorem results
    (hx : ∀ (c : Dev nD) (i : S50000x128.Idx), ∃ q : ℝ, (m ((c : Thread nD τ).loc main_arg0) : S50000x128.Idx → EReal) i = (q : EReal))
    (hw : ∀ (c : Dev nD) (i : S128x256.Idx), ∃ q : ℝ, (m ((c : Thread nD τ).loc main_arg2) : S128x256.Idx → EReal) i = (q : EReal))
    (c : Dev nD) :
    W8 m ρ c (Proc.devRef .tc main_v60_0) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ W8 m ρ c (Proc.devRef .tc main_v80) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    ∧ W8 m ρ c (Proc.devRef .tc main_v60_1) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) :=
  ⟨(W8_v60_0 m ρ c).trans (feat_eq m ρ hx hw c), (W8_v80 m ρ c).trans (edge_eq m ρ hx hw c),
    (W8_v60_1 m ρ c).trans (scores_eq m ρ hx hw c)⟩

end Cert.Bridge

end
-- ==== Proof.lean ====
/-
  Two graph-convolution layers, a classifier head and an edge MLP: the kernel program against its reference, over the
  extended reals.

  With A the normalised adjacency (self-loops added, weights the products of the inverse square roots of the degrees),
  the reference computes h = relu(A (x W₁) + b₁), f = A (h W₂) + b₂, the class scores f W_c + b_c and, for every edge,
  relu([f(src) | f(dst)] Wp₁ + bp₁) Wp₂ + bp₂. The kernel program aggregates first and multiplies after in the first
  layer, h = relu((A x) W₁ + b₁), which is the same table because the entries of x and W₁ are real numbers under the
  precondition and every edge weight is a real number whatever the degrees are; from there on the two programs apply
  the same operations to the same tables, the kernel program inside three pallas_call regions tiled by row blocks and
  with its edge MLP's operands passed through the 16-bit format, which changes nothing at the ideal values.
  The frames of the two kernel programs are the generated ones; the reference's frame is its run with the results
  dropped. No rewrite was applied by the idealization, so the kernel's idealized program is its own text read at the
  ideal values.
-/
import proofs.«412903_j85804856639971_3_alg».proof.Defs
import proofs.«412903_j85804856639971_3_alg».proof.Proof.Gen.Kernel
import proofs.«412903_j85804856639971_3_alg».proof.Proof.Gen.Kernel.Skeleton
import proofs.«412903_j85804856639971_3_alg».proof.Proof.Gen.Kernel.Launch
import proofs.«412903_j85804856639971_3_alg».proof.Proof.Gen.Kernel.Points
import proofs.«412903_j85804856639971_3_alg».proof.Proof.Gen.Kernel.Frame
import proofs.«412903_j85804856639971_3_alg».proof.Proof.Gen.KernelIdeal
import proofs.«412903_j85804856639971_3_alg».proof.Proof.Gen.KernelIdeal.Skeleton
import proofs.«412903_j85804856639971_3_alg».proof.Proof.Gen.KernelIdeal.Launch
import proofs.«412903_j85804856639971_3_alg».proof.Proof.Gen.KernelIdeal.Points
import proofs.«412903_j85804856639971_3_alg».proof.Proof.Gen.KernelIdeal.Frame
import proofs.«412903_j85804856639971_3_alg».proof.Proof.Gen.ReferenceIdeal
import proofs.«412903_j85804856639971_3_alg».proof.Proof.Gen.Pre_finite_inputs
import proofs.«412903_j85804856639971_3_alg».proof.Proof.RunValue
import proofs.«412903_j85804856639971_3_alg».proof.Proof.RefFold
import proofs.«412903_j85804856639971_3_alg».proof.Proof.Finite
import proofs.«412903_j85804856639971_3_alg».proof.Proof.Bridge
import Idealize.ShloMosaic.Adequacy
import Idealize.ShloMosaic.Init

noncomputable section

namespace Cert.Proof

open Idealize.ShloMosaic Idealize.SL.Sem

/-- The kernel program at the word level runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the three results dropped. -/
theorem frame_referenceIdeal : Cert.frame_ReferenceIdeal := fun m ρ _ =>
  (θ_run Cert.ReferenceIdeal.defs _ _).mono (fun _ h c => (h c).2.2.2) (Cert.ReferenceIdeal.RefFold.run (F := Ideal) m ρ)

/-- From memories agreeing on the arguments both programs end with the reference's three result stages of the
    kernel program's argument arrays, and with the edge list they were given. -/
theorem algebraic : Cert.algebraic_KernelIdeal_ReferenceIdeal := by
  intro m ρ m' ρ' hpre hagree
  refine ⟨fun c => Cert.ReferenceIdeal.ReadP.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v114 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.ReadP.val_main_v118 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Gen.run_results (F := Ideal) m ρ)
    obtain ⟨h0, h1, h2, ha⟩ := h c
    obtain ⟨e0, e1, e2⟩ := Cert.Bridge.results m ρ (Cert.Finite.x_real m hpre) (Cert.Finite.w1_real m hpre) c
    exact ⟨h0.trans e0, h1.trans e1, h2.trans e2, ha.2.1, ha⟩
  · refine (θ_run Cert.ReferenceIdeal.defs _ _).mono (fun r h c => ?_) (Cert.ReferenceIdeal.RefFold.run (F := Ideal) m' ρ')
    obtain ⟨h0, h1, h2, ha⟩ := h c
    obtain ⟨g0, g1, g2, g3, g4, g5, g6, g7, g8, g9, g10, g11⟩ := hagree c
    rw [g0, g1, g2, g3, g4, g5] at h0
    rw [g0, g1, g2, g3, g4, g5, g6, g7, g8, g9] at h1
    rw [g0, g1, g2, g3, g4, g5, g10, g11] at h2
    exact ⟨h0, h1, h2, ha.2.1.trans g1, ha⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
